-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S10000x128 1) : IVec S_ 1 :=
  let main_c_5 : IVec S_ 1 := constantI S_ 1 1#1
  let main_v17 : IVec S_ 1 := (fun x v => Host.reduce IntOp.andi x v reducesTo_S10000x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x10000 .f32) (main_arg1 : FVec F S10000x128 .f32) (main_arg2 : FVec F S10000x10000 .f32) (main_arg3 : FVec F S10000x128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S10000x128 .f32 := Host.absf main_arg3
  let main_cst_4 : FVec F S_ .f32 := constant S_ .f32 0x7F800000#32
  let main_v15 : FVec F S10000x128 .f32 := broadcastInDim S10000x128 ![] bcast_S_S10000x128 main_cst_4
  let main_v16 : IVec S10000x128 1 := cmpf .olt main_v14 main_v15
  fn_part1 (F := F) main_arg4 main_arg5 main_arg6 main_arg7 main_arg8 main_arg9 main_arg10 main_arg11 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S2x10000x128 : Shape := ⟨3, ![2, 10000, 128]⟩
abbrev S200x10000 : Shape := ⟨2, ![200, 10000]⟩
abbrev S1x200x128 : Shape := ⟨3, ![1, 200, 128]⟩
abbrev S200x128 : Shape := ⟨2, ![200, 128]⟩
abbrev S1x10000x128 : Shape := ⟨3, ![1, 10000, 128]⟩

abbrev nBuf : Space → Nat
  | .hbm => 22
  | .vmem => 22
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S10000x10000, .f32⟩
  | .hbm, ⟨3, _⟩ => ⟨S10000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x128, .f32⟩
  | .hbm, ⟨13, _⟩ => ⟨S1x128, .f32⟩
  | .hbm, ⟨14, _⟩ => ⟨S2x10000x128, .f32⟩
  | .hbm, ⟨15, _⟩ => ⟨S1x10000x128, .f32⟩
  | .hbm, ⟨16, _⟩ => ⟨S10000x128, .f32⟩
  | .hbm, ⟨17, _⟩ => ⟨S1x128, .f32⟩
  | .hbm, ⟨18, _⟩ => ⟨S1x128, .f32⟩
  | .hbm, ⟨19, _⟩ => ⟨S2x10000x128, .f32⟩
  | .hbm, ⟨20, _⟩ => ⟨S1x10000x128, .f32⟩
  | .hbm, ⟨21, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S1x200x128, .f32⟩
  | .local _ .vmem, ⟨8, _⟩ => ⟨S1x200x128, .f32⟩
  | .local _ .vmem, ⟨9, _⟩ => ⟨S10000x128, .bf16⟩
  | .local _ .vmem, ⟨10, _⟩ => ⟨S10000x128, .bf16⟩
  | .local _ .vmem, ⟨11, _⟩ => ⟨S200x10000, .f32⟩
  | .local _ .vmem, ⟨12, _⟩ => ⟨S200x10000, .f32⟩
  | .local _ .vmem, ⟨13, _⟩ => ⟨S10000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S1x200x128, .f32⟩
  | .local _ .vmem, ⟨19, _⟩ => ⟨S1x200x128, .f32⟩
  | .local _ .vmem, ⟨20, _⟩ => ⟨S10000x128, .bf16⟩
  | .local _ .vmem, ⟨21, _⟩ => ⟨S10000x128, .bf16⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc1_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg0 : BitVec 32 := BitVec.ofNat 32 (i 0).val
  let c0_i32_3 : BitVec 32 := 0#32
  let v7 : BitVec 1 := Scalar.cmpi .eq arg0 c0_i32_3
  let v8 : BitVec 32 := Scalar.extui v7
  let c0_i32_4 : BitVec 32 := 0#32
  let v9 : BitVec 1 := Scalar.cmpi .ne v8 c0_i32_4
  v9

def k0_off1 (i : grid0.Coords) : Fin 2 → Nat :=
  let arg1 : BitVec 32 := BitVec.ofNat 32 (i 1).val
  let c200_i32 : BitVec 32 := 200#32
  let v24 : BitVec 32 := Scalar.muli arg1 c200_i32
  let v25 : Index := Scalar.indexCast v24
  let c0_14 : Index := 0#32
  ![v25.toNat, 0]
def k0_cond3 (i : grid0.Coords) : BitVec 1 :=
  let arg0 : BitVec 32 := BitVec.ofNat 32 (i 0).val
  let c1_i32 : BitVec 32 := 1#32
  let v10 : BitVec 1 := Scalar.cmpi .eq arg0 c1_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![2, 50], ![false, false]⟩

def k1_cond2 (i : grid1.Coords) : BitVec 1 :=
  let arg0 : BitVec 32 := BitVec.ofNat 32 (i 0).val
  let c0_i32_3 : BitVec 32 := 0#32
  let v7 : BitVec 1 := Scalar.cmpi .eq arg0 c0_i32_3
  let v8 : BitVec 32 := Scalar.extui v7
  let c0_i32_4 : BitVec 32 := 0#32
  let v9 : BitVec 1 := Scalar.cmpi .ne v8 c0_i32_4
  v9

def k1_off1 (i : grid1.Coords) : Fin 2 → Nat :=
  let arg1 : BitVec 32 := BitVec.ofNat 32 (i 1).val
  let c200_i32 : BitVec 32 := 200#32
  let v24 : BitVec 32 := Scalar.muli arg1 c200_i32
  let v25 : Index := Scalar.indexCast v24
  let c0_14 : Index := 0#32
  ![v25.toNat, 0]
def k1_cond3 (i : grid1.Coords) : BitVec 1 :=
  let arg0 : BitVec 32 := BitVec.ofNat 32 (i 0).val
  let c1_i32 : BitVec 32 := 1#32
  let v10 : BitVec 1 := Scalar.cmpi .eq arg0 c1_i32
  let v11 : BitVec 32 := Scalar.extui v10
  let c0_i32_5 : BitVec 32 := 0#32
  let v12 : BitVec 1 := Scalar.cmpi .ne v11 c0_i32_5
  v12

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x200x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  h_S200x128 : 0 < S200x128.numel
  shapeCasts_S200x128_S200x128 : S200x128.ShapeCasts S200x128
  inb_S1x200x128_S1x200x128_0_0_0 : ∀ a, (![0, 0, 0] : Fin 3 → Nat) a + S1x200x128.size a ≤ S1x200x128.size a
  h_S1x200x128 : 0 < S1x200x128.numel
  shapeCasts_S1x200x128_S200x128 : S1x200x128.ShapeCasts S200x128
  shapeCasts_S200x128_S1x200x128 : S200x128.ShapeCasts S1x200x128
  slices_S2x10000x128_S1x10000x128_1_0_0 : S2x10000x128.Slices ![1, 0, 0] S1x10000x128
  shapeCasts_S1x10000x128_S10000x128 : S1x10000x128.ShapeCasts S10000x128
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  k0_off1_inb : ∀ i : grid0.Coords, ∀ (k0_h2 : k0_cond2 i = 1#1), ∀ a, (k0_off1 i) a + S200x128.size a ≤ S10000x128.size a
  k0_off1_packedbf16 : ∀ i : grid0.Coords, ∀ (k0_h2 : k0_cond2 i = 1#1), (Rect.unit (s := S10000x128) (k0_off1 i) S200x128.size (k0_off1_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x200x128.size a ≤ S2x10000x128.size a
  hwx0_6 : ∀ i : grid0.Coords, EltTy.bits .f32 = 32 ∨ (Rect.block (s := S2x10000x128) S1x200x128.size (cc0_transform_6 i) (hinb0_6 i)).WholeWords (EltTy.packing .f32)
  hrank1 : 0 < grid1.rank
  k1_off1_inb : ∀ i : grid1.Coords, ∀ (k1_h2 : k1_cond2 i = 1#1), ∀ a, (k1_off1 i) a + S200x128.size a ≤ S10000x128.size a
  k1_off1_packedbf16 : ∀ i : grid1.Coords, ∀ (k1_h2 : k1_cond2 i = 1#1), (Rect.unit (s := S10000x128) (k1_off1 i) S200x128.size (k1_off1_inb i k1_h2)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x200x128.size a ≤ S2x10000x128.size a
  hwx1_6 : ∀ i : grid1.Coords, EltTy.bits .f32 = 32 ∨ (Rect.block (s := S2x10000x128) S1x200x128.size (cc1_transform_6 i) (hinb1_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x200x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) && !(k0_cond3 i == 1#1) | ⟨_ + 7, h⟩ => absurd h (Nat.not_lt.2 (Nat.le_add_left _ _))

abbrev win1_0 : Pipeline.Window sig grid1 :=
  Pipeline.Window.ofSpec (Memref.whole main_arg2) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x200x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) && !(k1_cond3 i == 1#1) | ⟨_ + 7, h⟩ => absurd h (Nat.not_lt.2 (Nat.le_add_left _ _))

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S10000x10000, .f32⟩
  | .hbm, ⟨3, _⟩ => ⟨S10000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S10000x128, .f32⟩
  | .hbm, ⟨13, _⟩ => ⟨S10000x128, .f32⟩
  | .hbm, ⟨14, _⟩ => ⟨S1x128, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S1x128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S1x128, .f32⟩
  | .hbm, ⟨28, _⟩ => ⟨S10000x128, .f32⟩
  | .hbm, ⟨29, _⟩ => ⟨S10000x128, .f32⟩
  | .hbm, ⟨30, _⟩ => ⟨S_, .f32⟩
  | .hbm, ⟨31, _⟩ => ⟨S10000x128, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S1x128, .f32⟩
  | .hbm, ⟨36, _⟩ => ⟨S10000x128, .f32⟩
  | .hbm, ⟨37, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call1_cst : Ref sig .tc := ⟨.hbm, 30, rfl⟩
abbrev main_call1_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KI.Defs0.lean ====
/-
  The first graph convolution's kernel region, as mathematics. The grid has 100 points: point `t < 50` is block `t` of the
  first pass, point `50 + m` is block `m` of the second pass. A block is 200 rows of the adjacency matrix. The first
  pass computes, block by block, the rows of `relu (A · (X · W1) + b1) · W2`, keeps them in a buffer the kernel owns
  between points, and also writes them to half 0 of the result; the second pass computes the rows of
  `A · (that buffer) + b2` into half 1 of the result. Named here: each operand's block at a point, the product `X · W1`
  the first point leaves, the rows the first pass has left after all its points, and what the result's block holds after
  each point.
-/
import proofs.«126728_g73796128079920_cont_9to1c4b_223_8_alg».proof.Proof.Gen.KernelIdeal.Launch
import proofs.«126728_g73796128079920_cont_9to1c4b_223_8_alg».proof.Proof.Gen.KernelIdeal.Skeleton
import proofs.«126728_g73796128079920_cont_9to1c4b_223_8_alg».proof.Proof.Gen.KernelIdeal.Points
import Idealize.ShloMosaic.Lib.Pipeline.FrameBody
import Idealize.ShloMosaic.Lib.Pipeline.Value
import Idealize.ShloMosaic.Lib.ValueIdx
import Idealize.ShloMosaic.Lib.WritesUnit
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

-- the TensorCore's buffer contents when the region is entered
variable (V : (c : Dev nD) → (b : Ref sig .tc) → Buf (Elt F) ((c : Thread nD τ).loc b))

/-- The condition of the body's first branch (the first point of the first pass), from the grid coordinates. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The six operands' blocks at a point, at their literal types: 200 rows of the adjacency matrix; the features, the two
    weight matrices and the two bias rows whole. -/
abbrev adjB (c : Dev nD) (t : Fin cfg0.N) : Vec F S200x10000 .f32 := iblk V c 0 t
abbrev featB (c : Dev nD) (t : Fin cfg0.N) : Vec F S10000x128 .f32 := iblk V c 1 t
abbrev w1B (c : Dev nD) (t : Fin cfg0.N) : Vec F S128x128 .f32 := iblk V c 2 t
abbrev b1B (c : Dev nD) (t : Fin cfg0.N) : Vec F S1x128 .f32 := iblk V c 3 t
abbrev w2B (c : Dev nD) (t : Fin cfg0.N) : Vec F S128x128 .f32 := iblk V c 4 t
abbrev b2B (c : Dev nD) (t : Fin cfg0.N) : Vec F S1x128 .f32 := iblk V c 5 t

/-- The first point. -/
def t0 : Fin cfg0.N := ⟨0, by decide⟩

/-- `X · W1`, as the first point computes and keeps it. -/
def S1 (c : Dev nD) : Vec F S10000x128 .bf16 := k0_pay1 (featB V c t0) (w1B V c t0)

theorem row_lt (y : S10000x128.Idx) : (y 0).val < 10000 := (y 0).isLt
theorem col_lt (y : S10000x128.Idx) : (y 1).val < 128 := (y 1).isLt

/-- The point of the first pass whose block holds row `y 0`, and the row's place in that block. -/
def rowPt (y : S10000x128.Idx) : Fin cfg0.N := ⟨(y 0).val / 200, by have := row_lt y; have : cfg0.N = 100 := N_0; omega⟩
def rowLoc (y : S10000x128.Idx) : S200x128.Idx :=
  ix2 (⟨(y 0).val % 200, Nat.mod_lt _ (by decide)⟩ : Fin 200) (⟨(y 1).val, col_lt y⟩ : Fin 128)

/-- The rows the first pass leaves in the buffer it keeps: row `y 0` is computed at point `rowPt y` from that point's 200
    rows of the adjacency matrix. -/
def H2 (c : Dev nD) : Vec F S10000x128 .bf16 :=
  fun y => k0_pay4 (adjB V c (rowPt y)) (S1 V c) (b1B V c (rowPt y)) (w2B V c (rowPt y)) (rowLoc y)

/-- What the result's block holds after point `t`: in the first pass the block's rows of the second layer's support, in the
    second pass the block's rows of the network's output. -/
def out6 (c : Dev nD) (t : Fin cfg0.N) : Vec F S1x200x128 .f32 :=
  if t.val < 50 then k0_pay5 (adjB V c t) (S1 V c) (b1B V c t) (w2B V c t)
  else k0_pay6 (adjB V c t) (H2 V c) (b2B V c t)

end Cert.KernelIdeal.R0

end
-- ==== Proof.KI.Upd.lean ====
/-
  A buffer of 10000 rows after a block of 200 rows has been stored into it at row `o`: the block's entries on rows
  `[o, o + 200)`, the old entries elsewhere.
-/
import proofs.«126728_g73796128079920_cont_9to1c4b_223_8_alg».proof.Proof.KI.Defs0

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- `old` with the 200 rows from row `o` replaced by the block `p`. -/
def rowsUpd (old : Vec F S10000x128 .bf16) (o : ℕ) (p : Vec F S200x128 .bf16) : Vec F S10000x128 .bf16 :=
  fun y => if h : o ≤ (y 0).val ∧ (y 0).val < o + 200 then
      p (ix2 (⟨(y 0).val - o, by omega⟩ : Fin 200) (⟨(y 1).val, col_lt y⟩ : Fin 128))
    else old y

end Cert.KernelIdeal.R0

end
-- ==== Proof.KI.Run0A.lean ====
/-
  The body at the first point: the first branch computes `X · W1` from the features and `W1` and stores it (narrowed)
  into the buffer kept for it; then the second branch runs as at every point of the first pass, reading that product
  back: the block `relu (A_block · (X · W1) + b1) · W2` goes (narrowed) into the kept rows buffer at the block's rows and
  (as computed) into the result's block.
-/
import proofs.«126728_g73796128079920_cont_9to1c4b_223_8_alg».proof.Proof.KI.Upd

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace RunA

open Idealize.ShloMosaic.ValueIdx

theorem zeros2 : (![0, 0] : Fin 2 → ℕ) = fun _ => 0 := by funext a; fin_cases a <;> rfl
theorem zeros3 : (![0, 0, 0] : Fin 3 → ℕ) = fun _ => 0 := by funext a; fin_cases a <;> rfl

/-- A whole memref read through the whole-shape rectangle at zero offsets reads its contents. -/
theorem readAt_whole {S : Shape} {e : EltTy} (m : Memref sig .tc .vmem S e) (hm : m.IsWhole) {off : Fin S.rank → ℕ}
    (hz : off = fun _ => 0) (inb : ∀ a, off a + S.size a ≤ S.size a) (X : Vec F S e) :
    View.readAt (Elt F) m.view (Rect.unit off S.size inb).toLoadRect (hm.unread X) = X := by
  rw [View.readAt_eq_ld, hm.read_unread, View.ld_unit_zero hz]

/-- One store through the whole-shape rectangle at zero offsets, last, leaves its payload. -/
theorem read_writes_whole {S : Shape} {e : EltTy} (m : Memref sig .tc .vmem S e) (f : m.view.ty.Contents (Elt F)) {off : Fin S.rank → ℕ}
    (hz : off = fun _ => 0) (inb : ∀ a, off a + S.size a ≤ S.size a) (w : S.Idx → Elt F e) (L : List (View.Piece (Elt F) S e)) :
    m.view.read (Elt F) (m.view.writes (Elt F) f (⟨Rect.unit off S.size inb, w⟩ :: L)) = w :=
  (View.read_writes_eq_canon _ _ _ (fun y => ⟨_, List.mem_cons_self, View.mem_set_unit_zero hz inb y⟩)).trans
    (View.canon_cons_unit_zero hz inb w L)

/-- A block of 200 rows stored at row `o` over whole contents reads as the contents with those rows replaced. -/
theorem read_writes_rows (m : Memref sig .tc .vmem S10000x128 .bf16) (hm : m.IsWhole) (h10 : Vec F S10000x128 .bf16)
    {off : Fin 2 → ℕ} {o : ℕ} (hoff : off = ![o, 0]) (inb : ∀ a : Fin 2, off a + S200x128.size a ≤ S10000x128.size a)
    (p : Vec F S200x128 .bf16) :
    m.view.read (Elt F) (m.view.writes (Elt F) (hm.unread h10) [⟨Rect.unit (s := S10000x128) off S200x128.size inb, p⟩])
      = rowsUpd h10 o p := by
  funext y
  rw [View.read_writes_cons_rows (v := m.view) (f := hm.unread h10) inb p [] y hoff (W := 200) rfl rfl]
  unfold rowsUpd
  by_cases h : o ≤ (y 0).val ∧ (y 0).val < o + 200
  · rw [dif_pos h, dif_pos h]
    refine congrArg p (funext fun a => Fin.ext ?_)
    rw [Rect.unitLocal_val]
    fin_cases a
    · rfl
    · show (y 1).val - 0 = (y 1).val
      omega
  · rw [dif_neg h, dif_neg h, View.writes_nil, hm.read_unread]

end RunA

open RunA in
set_option maxHeartbeats 1000000 in
theorem runA (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x200x128 .f32) (harg8 : arg8.IsWhole) (arg9 : Memref sig .tc .vmem S10000x128 .bf16) (harg9 : arg9.IsWhole) (arg10 : Memref sig .tc .vmem S10000x128 .bf16) (harg10 : arg10.IsWhole)
    (hc1 : cond1 i) (hc2 : k0_cond2 i = 1#1) (hc3 : ¬k0_cond3 i = 1#1) (o : ℕ) (hoff : k0_off1 i = ![o, 0])
    (a : Vec F S200x10000 .f32) (x : Vec F S10000x128 .f32) (w1 : Vec F S128x128 .f32) (b1 : Vec F S1x128 .f32) (w2 : Vec F S128x128 .f32)
    (h10 : Vec F S10000x128 .bf16) (E : Set ℕ) (K : PUnit → sProp 𝕄) :
    iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2 ∗ (∃ d, owns (c : Thread nD τ) arg8 fullShare d) ∗ (∃ d, owns (c : Thread nD τ) arg9 fullShare d) ∗ owns (c : Thread nD τ) arg10 fullShare h10
        ∗ (iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2
            ∗ owns (c : Thread nD τ) arg8 fullShare (k0_pay5 a (k0_pay1 x w1) b1 w2) ∗ owns (c : Thread nD τ) arg9 fullShare (k0_pay1 x w1)
            ∗ owns (c : Thread nD τ) arg10 fullShare (rowsUpd h10 o (k0_pay4 a (k0_pay1 x w1) b1 w2))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg10.eq_unread hf10
  -- each operand, loaded whole, reads as the contents owned
  have e2 := readAt_whole arg2 harg2 zeros2 inb_S200x10000_S200x10000_0_0 a
  have e3 := readAt_whole arg3 harg3 zeros2 inb_S10000x128_S10000x128_0_0 x
  have e4 := readAt_whole arg4 harg4 zeros2 inb_S128x128_S128x128_0_0 w1
  have e5 := readAt_whole arg5 harg5 zeros2 inb_S1x128_S1x128_0_0 b1
  have e6 := readAt_whole arg6 harg6 zeros2 inb_S128x128_S128x128_0_0 w2
  sl_exec (disch := first | exact hc1 | exact hc2 | exact hc3)
  sl_step
  iapply Hk
  -- the five operands are as they were
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  -- the result's block: one whole store; the product read back is the product stored
  isplitl [H8]
  · iexists _; isplitr; swap; · iexact H8
    ipureintro
    sl_unfold_run_names
    rw [read_writes_whole arg8 f8 zeros3, View.readCov_unit_zero _ zeros2]
  -- the product's buffer: one whole store
  isplitl [H9]
  · iexists _; isplitr; swap; · iexact H9
    ipureintro
    sl_unfold_run_names
    exact read_writes_whole arg9 f9 zeros2 _ _ []
  -- the kept rows: the block's 200 rows replaced
  iexists _; isplitr; swap; · iexact H10
  ipureintro
  sl_unfold_run_names
  rw [View.readCov_unit_zero _ zeros2]
  exact read_writes_rows arg10 harg10 h10 hoff _ _

end Cert.KernelIdeal.R0

end
-- ==== Proof.KI.Run0B.lean ====
/-
  The body at a point of the first pass other than the first: only the second branch runs. It loads the point's 200 rows of
  the adjacency matrix, the kept product `X · W1`, the first bias row and `W2`, computes the block
  `relu (A_block · (X · W1) + b1) · W2`, stores it (narrowed) into the kept rows buffer at the block's rows and (as
  computed) into the result's block.
-/
import proofs.«126728_g73796128079920_cont_9to1c4b_223_8_alg».proof.Proof.KI.Upd

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

namespace RunB

/-- A load of a whole buffer through the full rectangle at zero offsets reads the buffer's contents. -/
theorem readAt_whole {S : Shape} {e : EltTy} (m : Memref sig .tc .vmem S e) (hm : m.IsWhole) {off : Fin S.rank → ℕ}
    (hz : off = fun _ => 0) (inb : ∀ a, off a + S.size a ≤ S.size a) (X : Vec F S e) :
    View.readAt (Elt F) m.view (Rect.unit (s := S) off S.size inb).toLoadRect (hm.unread X) = X := by
  rw [View.readAt_eq_ld, hm.read_unread, View.ld_unit_zero hz]

theorem zero2 : (![0, 0] : Fin 2 → ℕ) = fun _ => 0 :=
  funext fun a => by match a with | ⟨0, _⟩ => rfl | ⟨1, _⟩ => rfl

theorem zero3 : (![0, 0, 0] : Fin 3 → ℕ) = fun _ => 0 :=
  funext fun a => by match a with | ⟨0, _⟩ => rfl | ⟨1, _⟩ => rfl | ⟨2, _⟩ => rfl

/-- One store through the full rectangle at zero offsets leaves its payload, whatever was there. -/
theorem read_store_whole {S : Shape} {e : EltTy} (m : Memref sig .tc .vmem S e) (f : m.view.ty.Contents (Elt F))
    {off : Fin S.rank → ℕ} (hz : off = fun _ => 0) (inb : ∀ a, off a + S.size a ≤ S.size a) (w : Vec F S e) :
    m.view.read (Elt F) (m.view.writes (Elt F) f [(⟨Rect.unit (s := S) off S.size inb, w⟩ : View.Piece (Elt F) S e)]) = w := by
  refine (View.read_writes_eq_canon _ _ _ (fun y => ⟨_, List.mem_singleton_self _, View.mem_set_unit_zero hz inb y⟩)).trans ?_
  exact View.canon_unit_zero hz inb w

/-- One store of a block of 200 whole rows at row `o` into a whole buffer reading `h10` leaves `rowsUpd h10 o` of the block. -/
theorem read_store_rows (m : Memref sig .tc .vmem S10000x128 .bf16) (hm : m.IsWhole) (h10 : Vec F S10000x128 .bf16)
    {off : Fin 2 → ℕ} {o : ℕ} (hoff : off = ![o, 0]) (inb : ∀ a, off a + S200x128.size a ≤ S10000x128.size a)
    (p : Vec F S200x128 .bf16) :
    m.view.read (Elt F) (m.view.writes (Elt F) (hm.unread h10)
        [(⟨Rect.unit (s := S10000x128) off S200x128.size inb, p⟩ : View.Piece (Elt F) S10000x128 .bf16)])
      = rowsUpd h10 o p := by
  funext y
  rw [View.read_writes_cons_rows m.view (hm.unread h10) inb p [] y hoff (W := 200) rfl rfl]
  unfold rowsUpd
  by_cases h : o ≤ (y 0).val ∧ (y 0).val < o + 200
  · rw [dif_pos h, dif_pos h]
    refine congrArg p (funext fun a => ?_)
    match a with
    | ⟨0, _⟩ => exact Fin.ext (by show (y 0).val - (![o, 0] : Fin 2 → ℕ) 0 = (y 0).val - o; rfl)
    | ⟨1, _⟩ => exact Fin.ext (by show (y 1).val - (![o, 0] : Fin 2 → ℕ) 1 = (y 1).val; exact Nat.sub_zero _)
  · rw [dif_neg h, dif_neg h, View.writes_nil, hm.read_unread]

end RunB

set_option maxHeartbeats 1000000 in
theorem runB (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x200x128 .f32) (harg8 : arg8.IsWhole) (arg9 : Memref sig .tc .vmem S10000x128 .bf16) (harg9 : arg9.IsWhole) (arg10 : Memref sig .tc .vmem S10000x128 .bf16) (harg10 : arg10.IsWhole)
    (hc1 : ¬cond1 i) (hc2 : k0_cond2 i = 1#1) (hc3 : ¬k0_cond3 i = 1#1) (o : ℕ) (hoff : k0_off1 i = ![o, 0])
    (a : Vec F S200x10000 .f32) (s : Vec F S10000x128 .bf16) (b1 : Vec F S1x128 .f32) (w2 : Vec F S128x128 .f32)
    (h10 : Vec F S10000x128 .bf16) (E : Set ℕ) (K : PUnit → sProp 𝕄) :
    iprop(owns (c : Thread nD τ) arg2 fullShare a ∗ owns (c : Thread nD τ) arg5 fullShare b1 ∗ owns (c : Thread nD τ) arg6 fullShare w2 ∗ (∃ d, owns (c : Thread nD τ) arg8 fullShare d) ∗ owns (c : Thread nD τ) arg9 fullShare s ∗ owns (c : Thread nD τ) arg10 fullShare h10
        ∗ (iprop(owns (c : Thread nD τ) arg2 fullShare a ∗ owns (c : Thread nD τ) arg5 fullShare b1 ∗ owns (c : Thread nD τ) arg6 fullShare w2 ∗ owns (c : Thread nD τ) arg8 fullShare (k0_pay5 a s b1 w2) ∗ owns (c : Thread nD τ) arg9 fullShare s
            ∗ owns (c : Thread nD τ) arg10 fullShare (rowsUpd h10 o (k0_pay4 a s b1 w2))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f2, %hf2, H2⟩, ⟨%f5, %hf5, H5⟩, ⟨%f6, %hf6, H6⟩, ⟨%d8, %f8, -, H8⟩, ⟨%f9, %hf9, H9⟩, ⟨%f10, %hf10, H10⟩, Hk⟩
  obtain rfl := harg2.eq_unread hf2; obtain rfl := harg5.eq_unread hf5; obtain rfl := harg6.eq_unread hf6
  obtain rfl := harg9.eq_unread hf9; obtain rfl := harg10.eq_unread hf10
  -- what each of the four whole-buffer loads reads: the owned contents
  have e2 := RunB.readAt_whole (F := F) arg2 harg2 RunB.zero2 inb_S200x10000_S200x10000_0_0 a
  have e9 := RunB.readAt_whole (F := F) arg9 harg9 RunB.zero2 inb_S10000x128_S10000x128_0_0 s
  have e5 := RunB.readAt_whole (F := F) arg5 harg5 RunB.zero2 inb_S1x128_S1x128_0_0 b1
  have e6 := RunB.readAt_whole (F := F) arg6 harg6 RunB.zero2 inb_S128x128_S128x128_0_0 w2
  sl_exec (disch := first | exact hc1 | exact hc2 | exact hc3)
  sl_step
  iapply Hk
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H8]
  · -- the result's block: one store through the whole buffer leaves its payload
    iexists _; isplitr; swap; · iexact H8
    ipureintro
    exact RunB.read_store_whole arg8 f8 RunB.zero3 _ _
  isplitl [H9]
  · iexists _; isplitr; · ipureintro; exact harg9.read_unread _
    iexact H9
  -- the kept rows: one store of the block at its rows over the old contents
  iexists _; isplitr; swap; · iexact H10
  ipureintro
  exact RunB.read_store_rows arg10 harg10 h10 hoff _ _

end Cert.KernelIdeal.R0

end
-- ==== Proof.KI.Run0C.lean ====
/-
  The body at a point of the second pass: only the third branch runs. It loads the point's 200 rows of the adjacency matrix,
  the kept buffer whole and the second bias row, and stores `A_block · kept + b2` into the result's block; nothing else
  is touched.
-/
import proofs.«126728_g73796128079920_cont_9to1c4b_223_8_alg».proof.Proof.KI.Upd

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace RunC

/-- An offset of zeros, of rank 2 and of rank 3, is the zero function. -/
theorem zero2 : (![0, 0] : Fin 2 → ℕ) = fun _ => 0 := funext fun a => by match a with | ⟨0, _⟩ => rfl | ⟨1, _⟩ => rfl
theorem zero3 : (![0, 0, 0] : Fin 3 → ℕ) = fun _ => 0 := funext fun a => by match a with | ⟨0, _⟩ => rfl | ⟨1, _⟩ => rfl | ⟨2, _⟩ => rfl

/-- What the result's buffer reads after the one whole store of the third branch: the payload at the contents the three
    whole loads read, which are the owned contents themselves. -/
theorem read_storeC (arg2 : Memref sig .tc .vmem S200x10000 .f32) (harg2 : arg2.IsWhole) (arg7 : Memref sig .tc .vmem S1x128 .f32) (harg7 : arg7.IsWhole)
    (arg8 : Memref sig .tc .vmem S1x200x128 .f32) (arg10 : Memref sig .tc .vmem S10000x128 .bf16) (harg10 : arg10.IsWhole)
    (a : Vec F S200x10000 .f32) (b2 : Vec F S1x128 .f32) (h : Vec F S10000x128 .bf16) (f8 : arg8.view.ty.Contents (Elt F)) :
    arg8.view.read (Elt F) (arg8.view.writes (Elt F) f8
      [⟨Rect.unit ![0, 0, 0] S1x200x128.size inb_S1x200x128_S1x200x128_0_0_0,
          k0_pay6 (View.readAt (Elt F) arg2.view (Rect.unit ![0, 0] S200x10000.size inb_S200x10000_S200x10000_0_0).toLoadRect (harg2.unread a))
                  (View.readAt (Elt F) arg10.view (Rect.unit ![0, 0] S10000x128.size inb_S10000x128_S10000x128_0_0).toLoadRect (harg10.unread h))
                  (View.readAt (Elt F) arg7.view (Rect.unit ![0, 0] S1x128.size inb_S1x128_S1x128_0_0).toLoadRect (harg7.unread b2))⟩])
      = k0_pay6 a h b2 := by
  refine (View.read_writes_eq_canon _ _ _ (fun y => ⟨_, List.mem_singleton_self _, View.mem_set_unit_zero zero3 inb_S1x200x128_S1x200x128_0_0_0 y⟩)).trans ?_
  rw [View.canon_unit_zero zero3]
  simp only [View.readAt_eq_ld, harg2.read_unread, harg7.read_unread, harg10.read_unread,
    View.ld_unit_zero (S := S200x10000) zero2, View.ld_unit_zero (S := S10000x128) zero2, View.ld_unit_zero (S := S1x128) zero2]

end RunC

set_option maxHeartbeats 1000000 in
theorem runC (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x200x128 .f32) (harg8 : arg8.IsWhole) (arg9 : Memref sig .tc .vmem S10000x128 .bf16) (harg9 : arg9.IsWhole) (arg10 : Memref sig .tc .vmem S10000x128 .bf16) (harg10 : arg10.IsWhole)
    (hc1 : ¬cond1 i) (hc2 : ¬k0_cond2 i = 1#1) (hc3 : k0_cond3 i = 1#1)
    (a : Vec F S200x10000 .f32) (b2 : Vec F S1x128 .f32) (h : Vec F S10000x128 .bf16) (E : Set ℕ) (K : PUnit → sProp 𝕄) :
    iprop(owns (c : Thread nD τ) arg2 fullShare a ∗ owns (c : Thread nD τ) arg7 fullShare b2 ∗ (∃ d, owns (c : Thread nD τ) arg8 fullShare d) ∗ owns (c : Thread nD τ) arg10 fullShare h
        ∗ (iprop(owns (c : Thread nD τ) arg2 fullShare a ∗ owns (c : Thread nD τ) arg7 fullShare b2 ∗ owns (c : Thread nD τ) arg8 fullShare (k0_pay6 a h b2) ∗ owns (c : Thread nD τ) arg10 fullShare h) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f2, %hf2, H2⟩, ⟨%f7, %hf7, H7⟩, ⟨%d8, %f8, -, H8⟩, ⟨%f10, %hf10, H10⟩, Hk⟩
  obtain rfl := harg2.eq_unread hf2; obtain rfl := harg7.eq_unread hf7; obtain rfl := harg10.eq_unread hf10
  sl_exec (disch := first | exact hc1 | exact hc2 | exact hc3)
  sl_step
  iapply Hk
  isplitl [H2]
  · iexists _; isplitr; · ipureintro; exact harg2.read_unread _
    iexact H2
  isplitl [H7]
  · iexists _; isplitr; · ipureintro; exact harg7.read_unread _
    iexact H7
  isplitl [H8]
  · iexists _; isplitr; swap; · iexact H8
    ipureintro
    exact RunC.read_storeC arg2 harg2 arg7 harg7 arg8 arg10 harg10 a b2 h f8
  iexists _; isplitr; · ipureintro; exact harg10.read_unread _
  iexact H10

end Cert.KernelIdeal.R0

end
-- ==== Proof.KI.Cases0.lean ====
/-
  Which branch of the body each grid point takes, and where it stores: decided over the 100 points. Point `t` has
  pass `t / 50` and block `t % 50`; the first branch is taken at point 0 only, the second at the first pass's points, the
  third at the second pass's; the rows a first-pass point stores into the kept buffer start at `200 · (t % 50)`; the result's
  window is never idle.
-/
import proofs.«126728_g73796128079920_cont_9to1c4b_223_8_alg».proof.Proof.KI.Defs0

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hcond1 : ∀ t : Fin cfg0.N, cond1 (grid0.coords t) ↔ t.val = 0 :=
  (by decide +kernel : ∀ t : Fin grid0.N, cond1 (grid0.coords t) ↔ t.val = 0)

theorem hcond2 : ∀ t : Fin cfg0.N, k0_cond2 (grid0.coords t) = 1#1 ↔ t.val < 50 :=
  (by decide +kernel : ∀ t : Fin grid0.N, k0_cond2 (grid0.coords t) = 1#1 ↔ t.val < 50)

theorem hcond3 : ∀ t : Fin cfg0.N, k0_cond3 (grid0.coords t) = 1#1 ↔ 50 ≤ t.val :=
  (by decide +kernel : ∀ t : Fin grid0.N, k0_cond3 (grid0.coords t) = 1#1 ↔ 50 ≤ t.val)

theorem hoff0 : ∀ t : Fin cfg0.N, k0_off1 (grid0.coords t) 0 = 200 * (t.val % 50) :=
  (by decide +kernel : ∀ t : Fin grid0.N, k0_off1 (grid0.coords t) 0 = 200 * (t.val % 50))

theorem hoff1 : ∀ t : Fin cfg0.N, k0_off1 (grid0.coords t) 1 = 0 :=
  (by decide +kernel : ∀ t : Fin grid0.N, k0_off1 (grid0.coords t) 1 = 0)

theorem hoff : ∀ t : Fin cfg0.N, k0_off1 (grid0.coords t) = ![200 * (t.val % 50), 0] := fun t =>
  funext fun a => by
    match a with
    | ⟨0, _⟩ => exact hoff0 t
    | ⟨1, _⟩ => exact hoff1 t

theorem hidle6 : ∀ t : Fin cfg0.N, cfg0.idle 6 (grid0.coords t) = false :=
  (by decide +kernel : ∀ t : Fin grid0.N, idle0 6 (grid0.coords t) = false)

end Cert.KernelIdeal.R0

end
-- ==== Proof.KI.Dat0.lean ====
/-
  The first region's proof data. Between two points the kernel's own two buffers hold: the first, from the first point
  on, the product `X · W1`; the second, on the rows of the blocks the first pass has done so far, the rows of
  `relu (A · (X · W1) + b1) · W2` (after the first pass, on every row). Each operand's staging buffer holds the operand's
  block at every point; the result's holds what `out6` says. With that invariant every point's body runs: the first point
  by the run that also fills `X · W1`, the other points of the first pass by the run that reads it back, the second pass by
  the run that reads the finished rows.
-/
import proofs.«126728_g73796128079920_cont_9to1c4b_223_8_alg».proof.Proof.KI.Run0A
import proofs.«126728_g73796128079920_cont_9to1c4b_223_8_alg».proof.Proof.KI.Run0B
import proofs.«126728_g73796128079920_cont_9to1c4b_223_8_alg».proof.Proof.KI.Run0C
import proofs.«126728_g73796128079920_cont_9to1c4b_223_8_alg».proof.Proof.KI.Cases0

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The core's scoped buffers that the region neither stages nor keeps, each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The scoped buffers no window of the region stages are the kernel's own two and `others`. -/
theorem scopedRest_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ others (F := F) c) := by
  unfold others
  exact Pipeline.scopedRest_eq_of_list spec0 c [cc0_scratch0, cc0_scratch1, cc1_stg0_0, cc1_stg0_1, cc1_stg1_0, cc1_stg2_0, cc1_stg3_0, cc1_stg4_0, cc1_stg5_0, cc1_stg6_0, cc1_stg6_1, cc1_scratch0, cc1_scratch1] (by decide) (by decide)

/-- The invariant before point `n` (after point `n - 1`): the kept product named once a point has run, the kept rows named on the
    rows of the first `min n 50` blocks. -/
def PhiR (c : Dev nD) (n : ℕ) : sProp 𝕄 :=
  iprop((∃ f0 : Buf (Elt F) ((c : Thread nD τ).loc cc0_scratch0), (((c : Thread nD τ).loc cc0_scratch0) ↦{fullShare} f0) ∗ ⌜0 < n → f0 = S1 V c⌝)
    ∗ (∃ f1 : Buf (Elt F) ((c : Thread nD τ).loc cc0_scratch1), (((c : Thread nD τ).loc cc0_scratch1) ↦{fullShare} f1)
        ∗ ⌜∀ y : S10000x128.Idx, (y 0).val < 200 * min n 50 → f1 y = H2 V c y⌝)
    ∗ others (F := F) c)

/-- The proof data of the region on core `c`: the arrays as the region finds them; after the body at point `t` each operand's
    buffer at its block and the result's at `out6`; the invariant `PhiR`; nothing owed; full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 V c t
  Φ t := PhiR V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = iblk V c 4 t := by dsimp only [dat0]
theorem after0_5 (c : Dev nD) (t : Fin cfg0.N) : (dat0 V c).after 5 t = iblk V c 5 t := by dsimp only [dat0]
theorem after0_6 (c : Dev nD) (t : Fin cfg0.N) : (dat0 V c).after 6 t = out6 V c t := by dsimp only [dat0]

/-! ## What the body finds in each operand's staging buffer -/

/-- Operand window 0's current staging buffer holds its block at every point, fetched there or not: unfetched, the block
    index has not moved, and the body leaves the block in place. -/
theorem before_adj (c : Dev nD) (t : Fin cfg0.N) (d) : (dat0 V c).before 0 t d = iblk V c 0 t :=
  ((dat0 V c).before_in_eq_fetched 0 rfl (fun _ => rfl) (fun _ _ _ => rfl)
    (fun t => by rw [after0_0]; unfold Dat.blockOf iblk; rw [A_eq0]; try rfl) t d).trans
    (by unfold Dat.fetched Dat.blockOf iblk; rw [A_eq0]; try rfl)

/-- Operand window 1's current staging buffer holds its block at every point, fetched there or not: unfetched, the block
    index has not moved, and the body leaves the block in place. -/
theorem before_feat (c : Dev nD) (t : Fin cfg0.N) (d) : (dat0 V c).before 1 t d = iblk V c 1 t :=
  ((dat0 V c).before_in_eq_fetched 1 rfl (fun _ => rfl) (fun _ _ _ => rfl)
    (fun t => by rw [after0_1]; unfold Dat.blockOf iblk; rw [A_eq0]; try rfl) t d).trans
    (by unfold Dat.fetched Dat.blockOf iblk; rw [A_eq0]; try rfl)

/-- Operand window 2's current staging buffer holds its block at every point, fetched there or not: unfetched, the block
    index has not moved, and the body leaves the block in place. -/
theorem before_w1 (c : Dev nD) (t : Fin cfg0.N) (d) : (dat0 V c).before 2 t d = iblk V c 2 t :=
  ((dat0 V c).before_in_eq_fetched 2 rfl (fun _ => rfl) (fun _ _ _ => rfl)
    (fun t => by rw [after0_2]; unfold Dat.blockOf iblk; rw [A_eq0]; try rfl) t d).trans
    (by unfold Dat.fetched Dat.blockOf iblk; rw [A_eq0]; try rfl)

/-- Operand window 3's current staging buffer holds its block at every point, fetched there or not: unfetched, the block
    index has not moved, and the body leaves the block in place. -/
theorem before_b1 (c : Dev nD) (t : Fin cfg0.N) (d) : (dat0 V c).before 3 t d = iblk V c 3 t :=
  ((dat0 V c).before_in_eq_fetched 3 rfl (fun _ => rfl) (fun _ _ _ => rfl)
    (fun t => by rw [after0_3]; unfold Dat.blockOf iblk; rw [A_eq0]; try rfl) t d).trans
    (by unfold Dat.fetched Dat.blockOf iblk; rw [A_eq0]; try rfl)

/-- Operand window 4's current staging buffer holds its block at every point, fetched there or not: unfetched, the block
    index has not moved, and the body leaves the block in place. -/
theorem before_w2 (c : Dev nD) (t : Fin cfg0.N) (d) : (dat0 V c).before 4 t d = iblk V c 4 t :=
  ((dat0 V c).before_in_eq_fetched 4 rfl (fun _ => rfl) (fun _ _ _ => rfl)
    (fun t => by rw [after0_4]; unfold Dat.blockOf iblk; rw [A_eq0]; try rfl) t d).trans
    (by unfold Dat.fetched Dat.blockOf iblk; rw [A_eq0]; try rfl)

/-- Operand window 5's current staging buffer holds its block at every point, fetched there or not: unfetched, the block
    index has not moved, and the body leaves the block in place. -/
theorem before_b2 (c : Dev nD) (t : Fin cfg0.N) (d) : (dat0 V c).before 5 t d = iblk V c 5 t :=
  ((dat0 V c).before_in_eq_fetched 5 rfl (fun _ => rfl) (fun _ _ _ => rfl)
    (fun t => by rw [after0_5]; unfold Dat.blockOf iblk; rw [A_eq0]; try rfl) t d).trans
    (by unfold Dat.fetched Dat.blockOf iblk; rw [A_eq0]; try rfl)

/-! ## The kept buffers across a point -/

/-- The invariant with the kernel's own two buffers in owned form. -/
theorem PhiR_eq (c : Dev nD) (n : ℕ) :
    PhiR V c n = iprop((∃ f0 : Vec F S10000x128 .bf16, owns (c : Thread nD τ) (Memref.whole cc0_scratch0) fullShare f0 ∗ ⌜0 < n → f0 = S1 V c⌝)
      ∗ (∃ f1 : Vec F S10000x128 .bf16, owns (c : Thread nD τ) (Memref.whole cc0_scratch1) fullShare f1
          ∗ ⌜∀ y : S10000x128.Idx, (y 0).val < 200 * min n 50 → f1 y = H2 V c y⌝)
      ∗ others (F := F) c) := by
  unfold PhiR; simp only [owns_whole]; rfl

/-- A point of the first pass stores its block's rows of the second layer's support at rows `200 · t`: the kept rows, named
    on the blocks before `t`, are then named on the blocks up to `t`. -/
theorem rows_step (c : Dev nD) (f1 : Vec F S10000x128 .bf16) (t : Fin cfg0.N) (ht : t.val < 50)
    (hP : ∀ y : S10000x128.Idx, (y 0).val < 200 * t.val → f1 y = H2 V c y) :
    ∀ y : S10000x128.Idx, (y 0).val < 200 * (t.val + 1) →
      rowsUpd f1 (200 * (t.val % 50)) (k0_pay4 (adjB V c t) (S1 V c) (b1B V c t) (w2B V c t)) y = H2 V c y := by
  intro y hy
  have hmod : t.val % 50 = t.val := Nat.mod_eq_of_lt ht
  unfold rowsUpd
  by_cases h : 200 * (t.val % 50) ≤ (y 0).val ∧ (y 0).val < 200 * (t.val % 50) + 200
  · rw [dif_pos h]
    have hpt : rowPt y = t := Fin.ext (by show (y 0).val / 200 = t.val; omega)
    unfold H2 rowLoc
    rw [hpt]
    congr 2
    apply Fin.ext
    show (y 0).val - 200 * (t.val % 50) = (y 0).val % 200
    omega
  · rw [dif_neg h]
    exact hP y (by omega)

/-- What the result's block holds after a point of the first pass, and after one of the second. -/
theorem out6_lt (c : Dev nD) (t : Fin cfg0.N) (ht : t.val < 50) :
    out6 V c t = k0_pay5 (adjB V c t) (S1 V c) (b1B V c t) (w2B V c t) := by
  unfold out6; rw [if_pos ht]
theorem out6_ge (c : Dev nD) (t : Fin cfg0.N) (ht : 50 ≤ t.val) :
    out6 V c t = k0_pay6 (adjB V c t) (H2 V c) (b2B V c t) := by
  unfold out6; rw [if_neg (Nat.not_lt.mpr ht)]

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point. The operands' buffers hold their blocks; the invariant says what the kernel's own two buffers hold.
    At the first point the body fills the product and the first block's rows; at the other points of the first pass it reads
    the product back and fills its block's rows; in the second pass it reads the finished rows. Each time the invariant
    of the next point holds, and the result's block is what `out6` says. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_adj, before_feat, before_w1, before_b1, before_w2, before_b2]
  rw [show (dat0 V c).Φ t.castSucc = PhiR V c t.val from rfl, show (dat0 V c).Φ t.succ = PhiR V c (t.val + 1) from rfl,
    show (dat0 V c).owesAt () t.succ = (dat0 V c).owesAt () t.castSucc from rfl,
    after0_0, after0_1, after0_2, after0_3, after0_4, after0_5, after0_6, PhiR_eq, PhiR_eq]
  iintro ⟨⟨⟨%f0, Hs, %hf0⟩, ⟨%f1, Hk, %hf1⟩, Hoth⟩, Ho, ⟨%d0, Ha⟩, ⟨%d1, Hx⟩, ⟨%d2, Hw1⟩, ⟨%d3, Hb1⟩, ⟨%d4, Hw2⟩, ⟨%d5, Hb2⟩, ⟨%d6, Hr⟩⟩
  rcases Nat.eq_zero_or_pos t.val with h0 | h0
  · -- the first point: the product is made here, from the operands as the first point finds them
    have hc1 : cond1 (grid0.coords t) := (hcond1 t).mpr h0
    have hc2 : k0_cond2 (grid0.coords t) = 1#1 := (hcond2 t).mpr (by omega)
    have hc3 : ¬k0_cond3 (grid0.coords t) = 1#1 := fun h => by have := (hcond3 t).mp h; omega
    have ht : t.val < 50 := by omega
    have hS : k0_pay1 (featB V c t) (w1B V c t) = S1 V c := by unfold S1; rw [show t = t0 from Fin.ext h0]
    rw [out6_lt V c t ht]
    iapply (runA c (grid0.coords t) _ _ _ _ _ _ _ _ _ _ _ _ _ _ _ _ _ _ hc1 hc2 hc3 (200 * (t.val % 50)) (hoff t)
      (adjB V c t) (featB V c t) (w1B V c t) (b1B V c t) (w2B V c t) f1 Set.univ _)
    isplitl [Ha]; · iexact Ha
    isplitl [Hx]; · iexact Hx
    isplitl [Hw1]; · iexact Hw1
    isplitl [Hb1]; · iexact Hb1
    isplitl [Hw2]; · iexact Hw2
    isplitl [Hr]; · iexists _; iexact Hr
    isplitl [Hs]; · iexists _; iexact Hs
    isplitl [Hk]; · iexact Hk
    rw [hS]
    iintro ⟨Ha, Hx, Hw1, Hb1, Hw2, Hr, Hs, Hk⟩
    isplitl [Hs Hk Hoth]
    · isplitl [Hs]
      · iexists _; isplitl [Hs]; · iexact Hs
        ipureintro; intro _; rfl
      isplitl [Hk]
      · iexists _; isplitl [Hk]; · iexact Hk
        ipureintro; intro y hy
        exact rows_step V c f1 t ht (fun y hy => hf1 y (by omega)) y (by omega)
      iexact Hoth
    isplitl [Ho]; · iexact Ho
    isplitl [Ha]; · iexact Ha
    isplitl [Hx]; · iexact Hx
    isplitl [Hw1]; · iexact Hw1
    isplitl [Hb1]; · iexact Hb1
    isplitl [Hw2]; · iexact Hw2
    isplitl [Hb2]; · iexact Hb2
    iexact Hr
  rcases Nat.lt_or_ge t.val 50 with h50 | h50
  · -- another point of the first pass: the product is read back
    have hc1 : ¬cond1 (grid0.coords t) := fun h => by have := (hcond1 t).mp h; omega
    have hc2 : k0_cond2 (grid0.coords t) = 1#1 := (hcond2 t).mpr h50
    have hc3 : ¬k0_cond3 (grid0.coords t) = 1#1 := fun h => by have := (hcond3 t).mp h; omega
    obtain rfl := hf0 h0
    rw [out6_lt V c t h50]
    iapply (runB c (grid0.coords t) _ _ _ _ _ _ _ _ _ _ _ _ _ _ _ _ _ _ hc1 hc2 hc3 (200 * (t.val % 50)) (hoff t)
      (adjB V c t) (S1 V c) (b1B V c t) (w2B V c t) f1 Set.univ _)
    isplitl [Ha]; · iexact Ha
    isplitl [Hb1]; · iexact Hb1
    isplitl [Hw2]; · iexact Hw2
    isplitl [Hr]; · iexists _; iexact Hr
    isplitl [Hs]; · iexact Hs
    isplitl [Hk]; · iexact Hk
    iintro ⟨Ha, Hb1, Hw2, Hr, Hs, Hk⟩
    isplitl [Hs Hk Hoth]
    · isplitl [Hs]
      · iexists _; isplitl [Hs]; · iexact Hs
        ipureintro; intro _; rfl
      isplitl [Hk]
      · iexists _; isplitl [Hk]; · iexact Hk
        ipureintro; intro y hy
        exact rows_step V c f1 t h50 (fun y hy => hf1 y (by omega)) y (by omega)
      iexact Hoth
    isplitl [Ho]; · iexact Ho
    isplitl [Ha]; · iexact Ha
    isplitl [Hx]; · iexact Hx
    isplitl [Hw1]; · iexact Hw1
    isplitl [Hb1]; · iexact Hb1
    isplitl [Hw2]; · iexact Hw2
    isplitl [Hb2]; · iexact Hb2
    iexact Hr
  · -- a point of the second pass: every row of the kept buffer is named
    have hc1 : ¬cond1 (grid0.coords t) := fun h => by have := (hcond1 t).mp h; omega
    have hc2 : ¬k0_cond2 (grid0.coords t) = 1#1 := fun h => by have := (hcond2 t).mp h; omega
    have hc3 : k0_cond3 (grid0.coords t) = 1#1 := (hcond3 t).mpr h50
    obtain rfl : f1 = H2 V c := funext fun y => hf1 y (by have := row_lt y; omega)
    rw [out6_ge V c t h50]
    iapply (runC c (grid0.coords t) _ _ _ _ _ _ _ _ _ _ _ _ _ _ _ _ _ _ hc1 hc2 hc3
      (adjB V c t) (b2B V c t) (H2 V c) Set.univ _)
    isplitl [Ha]; · iexact Ha
    isplitl [Hb2]; · iexact Hb2
    isplitl [Hr]; · iexists _; iexact Hr
    isplitl [Hk]; · iexact Hk
    iintro ⟨Ha, Hb2, Hr, Hk⟩
    isplitl [Hs Hk Hoth]
    · isplitl [Hs]
      · iexists _; isplitl [Hs]; · iexact Hs
        ipureintro; intro _; exact hf0 (by omega)
      isplitl [Hk]
      · iexists _; isplitl [Hk]; · iexact Hk
        ipureintro; intro y _; rfl
      iexact Hoth
    isplitl [Ho]; · iexact Ho
    isplitl [Ha]; · iexact Ha
    isplitl [Hx]; · iexact Hx
    isplitl [Hw1]; · iexact Hw1
    isplitl [Hb1]; · iexact Hb1
    isplitl [Hw2]; · iexact Hw2
    isplitl [Hb2]; · iexact Hb2
    iexact Hr

/-- The body obligation at every point. -/
theorem body_obligation0 (c : Dev nD) : BodyObligation (dat0 (F := F) V c) (defs₀ (F := F)) Variants.none () Set.univ := fun t => by
  rw [bigSep_W0, bigSep_W0]
  rw [hidle6 t]
  exact sound_body V c t

/-- What the region's entry hands the kernel is the invariant before the first point. -/
theorem hin0 (c : Dev nD) :
    (Pipeline.scopedRest (Ix := Unit) (Name := ℕ) (U := UR sig nD τ) (Lvl := ℕ) (Val := Elt F) spec0 c : sProp 𝕄) ⊢ (dat0 V c).Φ 0 := by
  rw [scopedRest_split, show (dat0 V c).Φ 0 = PhiR V c 0 from rfl]
  unfold PhiR
  iintro ⟨⟨%f0, H0⟩, ⟨%f1, H1⟩, Ho⟩
  isplitl [H0]
  · iexists f0; isplitl [H0]; · iexact H0
    ipureintro; intro h; exact absurd h (Nat.lt_irrefl 0)
  isplitl [H1]
  · iexists f1; isplitl [H1]; · iexact H1
    ipureintro; intro y hy; omega
  iexact Ho

/-- The invariant after the last point gives the scoped buffers back, their contents forgotten. -/
theorem hout0 (c : Dev nD) :
    (dat0 V c).Φ (Fin.last cfg0.N) ⊢ (Pipeline.scopedRest (Ix := Unit) (Name := ℕ) (U := UR sig nD τ) (Lvl := ℕ) (Val := Elt F) spec0 c : sProp 𝕄) := by
  rw [scopedRest_split, show (dat0 V c).Φ (Fin.last cfg0.N) = PhiR V c cfg0.N from rfl]
  unfold PhiR
  iintro ⟨⟨%f0, H0, -⟩, ⟨%f1, H1, -⟩, Ho⟩
  isplitl [H0]; · iexists f0; iexact H0
  isplitl [H1]; · iexists f1; iexact H1
  iexact Ho

end Cert.KernelIdeal.R0

end
-- ==== Proof.KI.Defs1.lean ====
/-
  The first graph convolution's kernel region, as mathematics. The grid has 100 points: point `t < 50` is block `t` of the
  first pass, point `50 + m` is block `m` of the second pass. A block is 200 rows of the adjacency matrix. The first
  pass computes, block by block, the rows of `relu (A · (X · W1) + b1) · W2`, keeps them in a buffer the kernel owns
  between points, and also writes them to half 0 of the result; the second pass computes the rows of
  `A · (that buffer) + b2` into half 1 of the result. Named here: each operand's block at a point, the product `X · W1`
  the first point leaves, the rows the first pass has left after all its points, and what the result's block holds after
  each point.
-/
import proofs.«126728_g73796128079920_cont_9to1c4b_223_8_alg».proof.Proof.Gen.KernelIdeal.Launch
import proofs.«126728_g73796128079920_cont_9to1c4b_223_8_alg».proof.Proof.Gen.KernelIdeal.Skeleton
import proofs.«126728_g73796128079920_cont_9to1c4b_223_8_alg».proof.Proof.Gen.KernelIdeal.Points
import Idealize.ShloMosaic.Lib.Pipeline.FrameBody
import Idealize.ShloMosaic.Lib.Pipeline.Value
import Idealize.ShloMosaic.Lib.ValueIdx
import Idealize.ShloMosaic.Lib.WritesUnit
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

-- the TensorCore's buffer contents when the region is entered
variable (V : (c : Dev nD) → (b : Ref sig .tc) → Buf (Elt F) ((c : Thread nD τ).loc b))

/-- The condition of the body's first branch (the first point of the first pass), from the grid coordinates. -/
abbrev cond1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The six operands' blocks at a point, at their literal types: 200 rows of the adjacency matrix; the features, the two
    weight matrices and the two bias rows whole. -/
abbrev adjB (c : Dev nD) (t : Fin cfg1.N) : Vec F S200x10000 .f32 := iblk V c 0 t
abbrev featB (c : Dev nD) (t : Fin cfg1.N) : Vec F S10000x128 .f32 := iblk V c 1 t
abbrev w1B (c : Dev nD) (t : Fin cfg1.N) : Vec F S128x128 .f32 := iblk V c 2 t
abbrev b1B (c : Dev nD) (t : Fin cfg1.N) : Vec F S1x128 .f32 := iblk V c 3 t
abbrev w2B (c : Dev nD) (t : Fin cfg1.N) : Vec F S128x128 .f32 := iblk V c 4 t
abbrev b2B (c : Dev nD) (t : Fin cfg1.N) : Vec F S1x128 .f32 := iblk V c 5 t

/-- The first point. -/
def t0 : Fin cfg1.N := ⟨0, by decide⟩

/-- `X · W1`, as the first point computes and keeps it. -/
def S1 (c : Dev nD) : Vec F S10000x128 .bf16 := k1_pay1 (featB V c t0) (w1B V c t0)

theorem row_lt (y : S10000x128.Idx) : (y 0).val < 10000 := (y 0).isLt
theorem col_lt (y : S10000x128.Idx) : (y 1).val < 128 := (y 1).isLt

/-- The point of the first pass whose block holds row `y 0`, and the row's place in that block. -/
def rowPt (y : S10000x128.Idx) : Fin cfg1.N := ⟨(y 0).val / 200, by have := row_lt y; have : cfg1.N = 100 := N_1; omega⟩
def rowLoc (y : S10000x128.Idx) : S200x128.Idx :=
  ix2 (⟨(y 0).val % 200, Nat.mod_lt _ (by decide)⟩ : Fin 200) (⟨(y 1).val, col_lt y⟩ : Fin 128)

/-- The rows the first pass leaves in the buffer it keeps: row `y 0` is computed at point `rowPt y` from that point's 200
    rows of the adjacency matrix. -/
def H2 (c : Dev nD) : Vec F S10000x128 .bf16 :=
  fun y => k1_pay4 (adjB V c (rowPt y)) (S1 V c) (b1B V c (rowPt y)) (w2B V c (rowPt y)) (rowLoc y)

/-- What the result's block holds after point `t`: in the first pass the block's rows of the second layer's support, in the
    second pass the block's rows of the network's output. -/
def out6 (c : Dev nD) (t : Fin cfg1.N) : Vec F S1x200x128 .f32 :=
  if t.val < 50 then k1_pay5 (adjB V c t) (S1 V c) (b1B V c t) (w2B V c t)
  else k1_pay6 (adjB V c t) (H2 V c) (b2B V c t)

end Cert.KernelIdeal.R1

end
-- ==== Proof.KI.Upd1.lean ====
/-
  A buffer of 10000 rows after a block of 200 rows has been stored into it at row `o`: the block's entries on rows
  `[o, o + 200)`, the old entries elsewhere.
-/
import proofs.«126728_g73796128079920_cont_9to1c4b_223_8_alg».proof.Proof.KI.Defs1

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- `old` with the 200 rows from row `o` replaced by the block `p`. -/
def rowsUpd (old : Vec F S10000x128 .bf16) (o : ℕ) (p : Vec F S200x128 .bf16) : Vec F S10000x128 .bf16 :=
  fun y => if h : o ≤ (y 0).val ∧ (y 0).val < o + 200 then
      p (ix2 (⟨(y 0).val - o, by omega⟩ : Fin 200) (⟨(y 1).val, col_lt y⟩ : Fin 128))
    else old y

end Cert.KernelIdeal.R1

end
-- ==== Proof.KI.Run1A.lean ====
/-
  The body at the first point: the first branch computes `X · W1` from the features and `W1` and stores it (narrowed)
  into the buffer kept for it; then the second branch runs as at every point of the first pass, reading that product
  back: the block `relu (A_block · (X · W1) + b1) · W2` goes (narrowed) into the kept rows buffer at the block's rows and
  (as computed) into the result's block.
-/
import proofs.«126728_g73796128079920_cont_9to1c4b_223_8_alg».proof.Proof.KI.Upd1

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace RunA

open Idealize.ShloMosaic.ValueIdx

theorem zeros2 : (![0, 0] : Fin 2 → ℕ) = fun _ => 0 := by funext a; fin_cases a <;> rfl
theorem zeros3 : (![0, 0, 0] : Fin 3 → ℕ) = fun _ => 0 := by funext a; fin_cases a <;> rfl

/-- A whole memref read through the whole-shape rectangle at zero offsets reads its contents. -/
theorem readAt_whole {S : Shape} {e : EltTy} (m : Memref sig .tc .vmem S e) (hm : m.IsWhole) {off : Fin S.rank → ℕ}
    (hz : off = fun _ => 0) (inb : ∀ a, off a + S.size a ≤ S.size a) (X : Vec F S e) :
    View.readAt (Elt F) m.view (Rect.unit off S.size inb).toLoadRect (hm.unread X) = X := by
  rw [View.readAt_eq_ld, hm.read_unread, View.ld_unit_zero hz]

/-- One store through the whole-shape rectangle at zero offsets, last, leaves its payload. -/
theorem read_writes_whole {S : Shape} {e : EltTy} (m : Memref sig .tc .vmem S e) (f : m.view.ty.Contents (Elt F)) {off : Fin S.rank → ℕ}
    (hz : off = fun _ => 0) (inb : ∀ a, off a + S.size a ≤ S.size a) (w : S.Idx → Elt F e) (L : List (View.Piece (Elt F) S e)) :
    m.view.read (Elt F) (m.view.writes (Elt F) f (⟨Rect.unit off S.size inb, w⟩ :: L)) = w :=
  (View.read_writes_eq_canon _ _ _ (fun y => ⟨_, List.mem_cons_self, View.mem_set_unit_zero hz inb y⟩)).trans
    (View.canon_cons_unit_zero hz inb w L)

/-- A block of 200 rows stored at row `o` over whole contents reads as the contents with those rows replaced. -/
theorem read_writes_rows (m : Memref sig .tc .vmem S10000x128 .bf16) (hm : m.IsWhole) (h10 : Vec F S10000x128 .bf16)
    {off : Fin 2 → ℕ} {o : ℕ} (hoff : off = ![o, 0]) (inb : ∀ a : Fin 2, off a + S200x128.size a ≤ S10000x128.size a)
    (p : Vec F S200x128 .bf16) :
    m.view.read (Elt F) (m.view.writes (Elt F) (hm.unread h10) [⟨Rect.unit (s := S10000x128) off S200x128.size inb, p⟩])
      = rowsUpd h10 o p := by
  funext y
  rw [View.read_writes_cons_rows (v := m.view) (f := hm.unread h10) inb p [] y hoff (W := 200) rfl rfl]
  unfold rowsUpd
  by_cases h : o ≤ (y 0).val ∧ (y 0).val < o + 200
  · rw [dif_pos h, dif_pos h]
    refine congrArg p (funext fun a => Fin.ext ?_)
    rw [Rect.unitLocal_val]
    fin_cases a
    · rfl
    · show (y 1).val - 0 = (y 1).val
      omega
  · rw [dif_neg h, dif_neg h, View.writes_nil, hm.read_unread]

end RunA

open RunA in
set_option maxHeartbeats 1000000 in
theorem runA (c : Dev nD) (i : grid1.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x200x128 .f32) (harg8 : arg8.IsWhole) (arg9 : Memref sig .tc .vmem S10000x128 .bf16) (harg9 : arg9.IsWhole) (arg10 : Memref sig .tc .vmem S10000x128 .bf16) (harg10 : arg10.IsWhole)
    (hc1 : cond1 i) (hc2 : k1_cond2 i = 1#1) (hc3 : ¬k1_cond3 i = 1#1) (o : ℕ) (hoff : k1_off1 i = ![o, 0])
    (a : Vec F S200x10000 .f32) (x : Vec F S10000x128 .f32) (w1 : Vec F S128x128 .f32) (b1 : Vec F S1x128 .f32) (w2 : Vec F S128x128 .f32)
    (h10 : Vec F S10000x128 .bf16) (E : Set ℕ) (K : PUnit → sProp 𝕄) :
    iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2 ∗ (∃ d, owns (c : Thread nD τ) arg8 fullShare d) ∗ (∃ d, owns (c : Thread nD τ) arg9 fullShare d) ∗ owns (c : Thread nD τ) arg10 fullShare h10
        ∗ (iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2
            ∗ owns (c : Thread nD τ) arg8 fullShare (k1_pay5 a (k1_pay1 x w1) b1 w2) ∗ owns (c : Thread nD τ) arg9 fullShare (k1_pay1 x w1)
            ∗ owns (c : Thread nD τ) arg10 fullShare (rowsUpd h10 o (k1_pay4 a (k1_pay1 x w1) b1 w2))) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9 arg10 harg10) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg10.eq_unread hf10
  -- each operand, loaded whole, reads as the contents owned
  have e2 := readAt_whole arg2 harg2 zeros2 inb_S200x10000_S200x10000_0_0 a
  have e3 := readAt_whole arg3 harg3 zeros2 inb_S10000x128_S10000x128_0_0 x
  have e4 := readAt_whole arg4 harg4 zeros2 inb_S128x128_S128x128_0_0 w1
  have e5 := readAt_whole arg5 harg5 zeros2 inb_S1x128_S1x128_0_0 b1
  have e6 := readAt_whole arg6 harg6 zeros2 inb_S128x128_S128x128_0_0 w2
  sl_exec (disch := first | exact hc1 | exact hc2 | exact hc3)
  sl_step
  iapply Hk
  -- the five operands are as they were
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  -- the result's block: one whole store; the product read back is the product stored
  isplitl [H8]
  · iexists _; isplitr; swap; · iexact H8
    ipureintro
    sl_unfold_run_names
    rw [read_writes_whole arg8 f8 zeros3, View.readCov_unit_zero _ zeros2]
  -- the product's buffer: one whole store
  isplitl [H9]
  · iexists _; isplitr; swap; · iexact H9
    ipureintro
    sl_unfold_run_names
    exact read_writes_whole arg9 f9 zeros2 _ _ []
  -- the kept rows: the block's 200 rows replaced
  iexists _; isplitr; swap; · iexact H10
  ipureintro
  sl_unfold_run_names
  rw [View.readCov_unit_zero _ zeros2]
  exact read_writes_rows arg10 harg10 h10 hoff _ _

end Cert.KernelIdeal.R1

end
-- ==== Proof.KI.Run1B.lean ====
/-
  The body at a point of the first pass other than the first: only the second branch runs. It loads the point's 200 rows of
  the adjacency matrix, the kept product `X · W1`, the first bias row and `W2`, computes the block
  `relu (A_block · (X · W1) + b1) · W2`, stores it (narrowed) into the kept rows buffer at the block's rows and (as
  computed) into the result's block.
-/
import proofs.«126728_g73796128079920_cont_9to1c4b_223_8_alg».proof.Proof.KI.Upd1

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

namespace RunB

/-- A load of a whole buffer through the full rectangle at zero offsets reads the buffer's contents. -/
theorem readAt_whole {S : Shape} {e : EltTy} (m : Memref sig .tc .vmem S e) (hm : m.IsWhole) {off : Fin S.rank → ℕ}
    (hz : off = fun _ => 0) (inb : ∀ a, off a + S.size a ≤ S.size a) (X : Vec F S e) :
    View.readAt (Elt F) m.view (Rect.unit (s := S) off S.size inb).toLoadRect (hm.unread X) = X := by
  rw [View.readAt_eq_ld, hm.read_unread, View.ld_unit_zero hz]

theorem zero2 : (![0, 0] : Fin 2 → ℕ) = fun _ => 0 :=
  funext fun a => by match a with | ⟨0, _⟩ => rfl | ⟨1, _⟩ => rfl

theorem zero3 : (![0, 0, 0] : Fin 3 → ℕ) = fun _ => 0 :=
  funext fun a => by match a with | ⟨0, _⟩ => rfl | ⟨1, _⟩ => rfl | ⟨2, _⟩ => rfl

/-- One store through the full rectangle at zero offsets leaves its payload, whatever was there. -/
theorem read_store_whole {S : Shape} {e : EltTy} (m : Memref sig .tc .vmem S e) (f : m.view.ty.Contents (Elt F))
    {off : Fin S.rank → ℕ} (hz : off = fun _ => 0) (inb : ∀ a, off a + S.size a ≤ S.size a) (w : Vec F S e) :
    m.view.read (Elt F) (m.view.writes (Elt F) f [(⟨Rect.unit (s := S) off S.size inb, w⟩ : View.Piece (Elt F) S e)]) = w := by
  refine (View.read_writes_eq_canon _ _ _ (fun y => ⟨_, List.mem_singleton_self _, View.mem_set_unit_zero hz inb y⟩)).trans ?_
  exact View.canon_unit_zero hz inb w

/-- One store of a block of 200 whole rows at row `o` into a whole buffer reading `h10` leaves `rowsUpd h10 o` of the block. -/
theorem read_store_rows (m : Memref sig .tc .vmem S10000x128 .bf16) (hm : m.IsWhole) (h10 : Vec F S10000x128 .bf16)
    {off : Fin 2 → ℕ} {o : ℕ} (hoff : off = ![o, 0]) (inb : ∀ a, off a + S200x128.size a ≤ S10000x128.size a)
    (p : Vec F S200x128 .bf16) :
    m.view.read (Elt F) (m.view.writes (Elt F) (hm.unread h10)
        [(⟨Rect.unit (s := S10000x128) off S200x128.size inb, p⟩ : View.Piece (Elt F) S10000x128 .bf16)])
      = rowsUpd h10 o p := by
  funext y
  rw [View.read_writes_cons_rows m.view (hm.unread h10) inb p [] y hoff (W := 200) rfl rfl]
  unfold rowsUpd
  by_cases h : o ≤ (y 0).val ∧ (y 0).val < o + 200
  · rw [dif_pos h, dif_pos h]
    refine congrArg p (funext fun a => ?_)
    match a with
    | ⟨0, _⟩ => exact Fin.ext (by show (y 0).val - (![o, 0] : Fin 2 → ℕ) 0 = (y 0).val - o; rfl)
    | ⟨1, _⟩ => exact Fin.ext (by show (y 1).val - (![o, 0] : Fin 2 → ℕ) 1 = (y 1).val; exact Nat.sub_zero _)
  · rw [dif_neg h, dif_neg h, View.writes_nil, hm.read_unread]

end RunB

set_option maxHeartbeats 1000000 in
theorem runB (c : Dev nD) (i : grid1.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x200x128 .f32) (harg8 : arg8.IsWhole) (arg9 : Memref sig .tc .vmem S10000x128 .bf16) (harg9 : arg9.IsWhole) (arg10 : Memref sig .tc .vmem S10000x128 .bf16) (harg10 : arg10.IsWhole)
    (hc1 : ¬cond1 i) (hc2 : k1_cond2 i = 1#1) (hc3 : ¬k1_cond3 i = 1#1) (o : ℕ) (hoff : k1_off1 i = ![o, 0])
    (a : Vec F S200x10000 .f32) (s : Vec F S10000x128 .bf16) (b1 : Vec F S1x128 .f32) (w2 : Vec F S128x128 .f32)
    (h10 : Vec F S10000x128 .bf16) (E : Set ℕ) (K : PUnit → sProp 𝕄) :
    iprop(owns (c : Thread nD τ) arg2 fullShare a ∗ owns (c : Thread nD τ) arg5 fullShare b1 ∗ owns (c : Thread nD τ) arg6 fullShare w2 ∗ (∃ d, owns (c : Thread nD τ) arg8 fullShare d) ∗ owns (c : Thread nD τ) arg9 fullShare s ∗ owns (c : Thread nD τ) arg10 fullShare h10
        ∗ (iprop(owns (c : Thread nD τ) arg2 fullShare a ∗ owns (c : Thread nD τ) arg5 fullShare b1 ∗ owns (c : Thread nD τ) arg6 fullShare w2 ∗ owns (c : Thread nD τ) arg8 fullShare (k1_pay5 a s b1 w2) ∗ owns (c : Thread nD τ) arg9 fullShare s
            ∗ owns (c : Thread nD τ) arg10 fullShare (rowsUpd h10 o (k1_pay4 a s b1 w2))) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9 arg10 harg10) K := by
  simp only [cc1__gcn_kernel_eq_skeleton]; unfold cc1__gcn_kernel_skel
  unfold owns
  iintro ⟨⟨%f2, %hf2, H2⟩, ⟨%f5, %hf5, H5⟩, ⟨%f6, %hf6, H6⟩, ⟨%d8, %f8, -, H8⟩, ⟨%f9, %hf9, H9⟩, ⟨%f10, %hf10, H10⟩, Hk⟩
  obtain rfl := harg2.eq_unread hf2; obtain rfl := harg5.eq_unread hf5; obtain rfl := harg6.eq_unread hf6
  obtain rfl := harg9.eq_unread hf9; obtain rfl := harg10.eq_unread hf10
  -- what each of the four whole-buffer loads reads: the owned contents
  have e2 := RunB.readAt_whole (F := F) arg2 harg2 RunB.zero2 inb_S200x10000_S200x10000_0_0 a
  have e9 := RunB.readAt_whole (F := F) arg9 harg9 RunB.zero2 inb_S10000x128_S10000x128_0_0 s
  have e5 := RunB.readAt_whole (F := F) arg5 harg5 RunB.zero2 inb_S1x128_S1x128_0_0 b1
  have e6 := RunB.readAt_whole (F := F) arg6 harg6 RunB.zero2 inb_S128x128_S128x128_0_0 w2
  sl_exec (disch := first | exact hc1 | exact hc2 | exact hc3)
  sl_step
  iapply Hk
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H8]
  · -- the result's block: one store through the whole buffer leaves its payload
    iexists _; isplitr; swap; · iexact H8
    ipureintro
    exact RunB.read_store_whole arg8 f8 RunB.zero3 _ _
  isplitl [H9]
  · iexists _; isplitr; · ipureintro; exact harg9.read_unread _
    iexact H9
  -- the kept rows: one store of the block at its rows over the old contents
  iexists _; isplitr; swap; · iexact H10
  ipureintro
  exact RunB.read_store_rows arg10 harg10 h10 hoff _ _

end Cert.KernelIdeal.R1

end
-- ==== Proof.KI.Run1C.lean ====
/-
  The body at a point of the second pass: only the third branch runs. It loads the point's 200 rows of the adjacency matrix,
  the kept buffer whole and the second bias row, and stores `A_block · kept + b2` into the result's block; nothing else
  is touched.
-/
import proofs.«126728_g73796128079920_cont_9to1c4b_223_8_alg».proof.Proof.KI.Upd1

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace RunC

/-- An offset of zeros, of rank 2 and of rank 3, is the zero function. -/
theorem zero2 : (![0, 0] : Fin 2 → ℕ) = fun _ => 0 := funext fun a => by match a with | ⟨0, _⟩ => rfl | ⟨1, _⟩ => rfl
theorem zero3 : (![0, 0, 0] : Fin 3 → ℕ) = fun _ => 0 := funext fun a => by match a with | ⟨0, _⟩ => rfl | ⟨1, _⟩ => rfl | ⟨2, _⟩ => rfl

/-- What the result's buffer reads after the one whole store of the third branch: the payload at the contents the three
    whole loads read, which are the owned contents themselves. -/
theorem read_storeC (arg2 : Memref sig .tc .vmem S200x10000 .f32) (harg2 : arg2.IsWhole) (arg7 : Memref sig .tc .vmem S1x128 .f32) (harg7 : arg7.IsWhole)
    (arg8 : Memref sig .tc .vmem S1x200x128 .f32) (arg10 : Memref sig .tc .vmem S10000x128 .bf16) (harg10 : arg10.IsWhole)
    (a : Vec F S200x10000 .f32) (b2 : Vec F S1x128 .f32) (h : Vec F S10000x128 .bf16) (f8 : arg8.view.ty.Contents (Elt F)) :
    arg8.view.read (Elt F) (arg8.view.writes (Elt F) f8
      [⟨Rect.unit ![0, 0, 0] S1x200x128.size inb_S1x200x128_S1x200x128_0_0_0,
          k1_pay6 (View.readAt (Elt F) arg2.view (Rect.unit ![0, 0] S200x10000.size inb_S200x10000_S200x10000_0_0).toLoadRect (harg2.unread a))
                  (View.readAt (Elt F) arg10.view (Rect.unit ![0, 0] S10000x128.size inb_S10000x128_S10000x128_0_0).toLoadRect (harg10.unread h))
                  (View.readAt (Elt F) arg7.view (Rect.unit ![0, 0] S1x128.size inb_S1x128_S1x128_0_0).toLoadRect (harg7.unread b2))⟩])
      = k1_pay6 a h b2 := by
  refine (View.read_writes_eq_canon _ _ _ (fun y => ⟨_, List.mem_singleton_self _, View.mem_set_unit_zero zero3 inb_S1x200x128_S1x200x128_0_0_0 y⟩)).trans ?_
  rw [View.canon_unit_zero zero3]
  simp only [View.readAt_eq_ld, harg2.read_unread, harg7.read_unread, harg10.read_unread,
    View.ld_unit_zero (S := S200x10000) zero2, View.ld_unit_zero (S := S10000x128) zero2, View.ld_unit_zero (S := S1x128) zero2]

end RunC

set_option maxHeartbeats 1000000 in
theorem runC (c : Dev nD) (i : grid1.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x200x128 .f32) (harg8 : arg8.IsWhole) (arg9 : Memref sig .tc .vmem S10000x128 .bf16) (harg9 : arg9.IsWhole) (arg10 : Memref sig .tc .vmem S10000x128 .bf16) (harg10 : arg10.IsWhole)
    (hc1 : ¬cond1 i) (hc2 : ¬k1_cond2 i = 1#1) (hc3 : k1_cond3 i = 1#1)
    (a : Vec F S200x10000 .f32) (b2 : Vec F S1x128 .f32) (h : Vec F S10000x128 .bf16) (E : Set ℕ) (K : PUnit → sProp 𝕄) :
    iprop(owns (c : Thread nD τ) arg2 fullShare a ∗ owns (c : Thread nD τ) arg7 fullShare b2 ∗ (∃ d, owns (c : Thread nD τ) arg8 fullShare d) ∗ owns (c : Thread nD τ) arg10 fullShare h
        ∗ (iprop(owns (c : Thread nD τ) arg2 fullShare a ∗ owns (c : Thread nD τ) arg7 fullShare b2 ∗ owns (c : Thread nD τ) arg8 fullShare (k1_pay6 a h b2) ∗ owns (c : Thread nD τ) arg10 fullShare h) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9 arg10 harg10) K := by
  simp only [cc1__gcn_kernel_eq_skeleton]; unfold cc1__gcn_kernel_skel
  unfold owns
  iintro ⟨⟨%f2, %hf2, H2⟩, ⟨%f7, %hf7, H7⟩, ⟨%d8, %f8, -, H8⟩, ⟨%f10, %hf10, H10⟩, Hk⟩
  obtain rfl := harg2.eq_unread hf2; obtain rfl := harg7.eq_unread hf7; obtain rfl := harg10.eq_unread hf10
  sl_exec (disch := first | exact hc1 | exact hc2 | exact hc3)
  sl_step
  iapply Hk
  isplitl [H2]
  · iexists _; isplitr; · ipureintro; exact harg2.read_unread _
    iexact H2
  isplitl [H7]
  · iexists _; isplitr; · ipureintro; exact harg7.read_unread _
    iexact H7
  isplitl [H8]
  · iexists _; isplitr; swap; · iexact H8
    ipureintro
    exact RunC.read_storeC arg2 harg2 arg7 harg7 arg8 arg10 harg10 a b2 h f8
  iexists _; isplitr; · ipureintro; exact harg10.read_unread _
  iexact H10

end Cert.KernelIdeal.R1

end
-- ==== Proof.KI.Cases1.lean ====
/-
  Which branch of the body each grid point takes, and where it stores: decided over the 100 points. Point `t` has
  pass `t / 50` and block `t % 50`; the first branch is taken at point 0 only, the second at the first pass's points, the
  third at the second pass's; the rows a first-pass point stores into the kept buffer start at `200 · (t % 50)`; the result's
  window is never idle.
-/
import proofs.«126728_g73796128079920_cont_9to1c4b_223_8_alg».proof.Proof.KI.Defs1

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hcond1 : ∀ t : Fin cfg1.N, cond1 (grid1.coords t) ↔ t.val = 0 :=
  (by decide +kernel : ∀ t : Fin grid1.N, cond1 (grid1.coords t) ↔ t.val = 0)

theorem hcond2 : ∀ t : Fin cfg1.N, k1_cond2 (grid1.coords t) = 1#1 ↔ t.val < 50 :=
  (by decide +kernel : ∀ t : Fin grid1.N, k1_cond2 (grid1.coords t) = 1#1 ↔ t.val < 50)

theorem hcond3 : ∀ t : Fin cfg1.N, k1_cond3 (grid1.coords t) = 1#1 ↔ 50 ≤ t.val :=
  (by decide +kernel : ∀ t : Fin grid1.N, k1_cond3 (grid1.coords t) = 1#1 ↔ 50 ≤ t.val)

theorem hoff0 : ∀ t : Fin cfg1.N, k1_off1 (grid1.coords t) 0 = 200 * (t.val % 50) :=
  (by decide +kernel : ∀ t : Fin grid1.N, k1_off1 (grid1.coords t) 0 = 200 * (t.val % 50))

theorem hoff1 : ∀ t : Fin cfg1.N, k1_off1 (grid1.coords t) 1 = 0 :=
  (by decide +kernel : ∀ t : Fin grid1.N, k1_off1 (grid1.coords t) 1 = 0)

theorem hoff : ∀ t : Fin cfg1.N, k1_off1 (grid1.coords t) = ![200 * (t.val % 50), 0] := fun t =>
  funext fun a => by
    match a with
    | ⟨0, _⟩ => exact hoff0 t
    | ⟨1, _⟩ => exact hoff1 t

theorem hidle6 : ∀ t : Fin cfg1.N, cfg1.idle 6 (grid1.coords t) = false :=
  (by decide +kernel : ∀ t : Fin grid1.N, idle1 6 (grid1.coords t) = false)

end Cert.KernelIdeal.R1

end
-- ==== Proof.KI.Dat1.lean ====
/-
  The first region's proof data. Between two points the kernel's own two buffers hold: the first, from the first point
  on, the product `X · W1`; the second, on the rows of the blocks the first pass has done so far, the rows of
  `relu (A · (X · W1) + b1) · W2` (after the first pass, on every row). Each operand's staging buffer holds the operand's
  block at every point; the result's holds what `out6` says. With that invariant every point's body runs: the first point
  by the run that also fills `X · W1`, the other points of the first pass by the run that reads it back, the second pass by
  the run that reads the finished rows.
-/
import proofs.«126728_g73796128079920_cont_9to1c4b_223_8_alg».proof.Proof.KI.Run1A
import proofs.«126728_g73796128079920_cont_9to1c4b_223_8_alg».proof.Proof.KI.Run1B
import proofs.«126728_g73796128079920_cont_9to1c4b_223_8_alg».proof.Proof.KI.Run1C
import proofs.«126728_g73796128079920_cont_9to1c4b_223_8_alg».proof.Proof.KI.Cases1

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The core's scoped buffers that the region neither stages nor keeps, each whole at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The scoped buffers no window of the region stages are the kernel's own two and `others`. -/
theorem scopedRest_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ others (F := F) c) := by
  unfold others
  exact Pipeline.scopedRest_eq_of_list spec1 c [cc1_scratch0, cc1_scratch1, cc0_stg0_0, cc0_stg0_1, cc0_stg1_0, cc0_stg2_0, cc0_stg3_0, cc0_stg4_0, cc0_stg5_0, cc0_stg6_0, cc0_stg6_1, cc0_scratch0, cc0_scratch1] (by decide) (by decide)

/-- The invariant before point `n` (after point `n - 1`): the kept product named once a point has run, the kept rows named on the
    rows of the first `min n 50` blocks. -/
def PhiR (c : Dev nD) (n : ℕ) : sProp 𝕄 :=
  iprop((∃ f0 : Buf (Elt F) ((c : Thread nD τ).loc cc1_scratch0), (((c : Thread nD τ).loc cc1_scratch0) ↦{fullShare} f0) ∗ ⌜0 < n → f0 = S1 V c⌝)
    ∗ (∃ f1 : Buf (Elt F) ((c : Thread nD τ).loc cc1_scratch1), (((c : Thread nD τ).loc cc1_scratch1) ↦{fullShare} f1)
        ∗ ⌜∀ y : S10000x128.Idx, (y 0).val < 200 * min n 50 → f1 y = H2 V c y⌝)
    ∗ others (F := F) c)

/-- The proof data of the region on core `c`: the arrays as the region finds them; after the body at point `t` each operand's
    buffer at its block and the result's at `out6`; the invariant `PhiR`; nothing owed; full shares. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 V c t
  Φ t := PhiR V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk V c 0 t := by dsimp only [dat1]
theorem after1_1 (c : Dev nD) (t : Fin cfg1.N) : (dat1 V c).after 1 t = iblk V c 1 t := by dsimp only [dat1]
theorem after1_2 (c : Dev nD) (t : Fin cfg1.N) : (dat1 V c).after 2 t = iblk V c 2 t := by dsimp only [dat1]
theorem after1_3 (c : Dev nD) (t : Fin cfg1.N) : (dat1 V c).after 3 t = iblk V c 3 t := by dsimp only [dat1]
theorem after1_4 (c : Dev nD) (t : Fin cfg1.N) : (dat1 V c).after 4 t = iblk V c 4 t := by dsimp only [dat1]
theorem after1_5 (c : Dev nD) (t : Fin cfg1.N) : (dat1 V c).after 5 t = iblk V c 5 t := by dsimp only [dat1]
theorem after1_6 (c : Dev nD) (t : Fin cfg1.N) : (dat1 V c).after 6 t = out6 V c t := by dsimp only [dat1]

/-! ## What the body finds in each operand's staging buffer -/

/-- Operand window 0's current staging buffer holds its block at every point, fetched there or not: unfetched, the block
    index has not moved, and the body leaves the block in place. -/
theorem before_adj (c : Dev nD) (t : Fin cfg1.N) (d) : (dat1 V c).before 0 t d = iblk V c 0 t :=
  ((dat1 V c).before_in_eq_fetched 0 rfl (fun _ => rfl) (fun _ _ _ => rfl)
    (fun t => by rw [after1_0]; unfold Dat.blockOf iblk; rw [A_eq1]; try rfl) t d).trans
    (by unfold Dat.fetched Dat.blockOf iblk; rw [A_eq1]; try rfl)

/-- Operand window 1's current staging buffer holds its block at every point, fetched there or not: unfetched, the block
    index has not moved, and the body leaves the block in place. -/
theorem before_feat (c : Dev nD) (t : Fin cfg1.N) (d) : (dat1 V c).before 1 t d = iblk V c 1 t :=
  ((dat1 V c).before_in_eq_fetched 1 rfl (fun _ => rfl) (fun _ _ _ => rfl)
    (fun t => by rw [after1_1]; unfold Dat.blockOf iblk; rw [A_eq1]; try rfl) t d).trans
    (by unfold Dat.fetched Dat.blockOf iblk; rw [A_eq1]; try rfl)

/-- Operand window 2's current staging buffer holds its block at every point, fetched there or not: unfetched, the block
    index has not moved, and the body leaves the block in place. -/
theorem before_w1 (c : Dev nD) (t : Fin cfg1.N) (d) : (dat1 V c).before 2 t d = iblk V c 2 t :=
  ((dat1 V c).before_in_eq_fetched 2 rfl (fun _ => rfl) (fun _ _ _ => rfl)
    (fun t => by rw [after1_2]; unfold Dat.blockOf iblk; rw [A_eq1]; try rfl) t d).trans
    (by unfold Dat.fetched Dat.blockOf iblk; rw [A_eq1]; try rfl)

/-- Operand window 3's current staging buffer holds its block at every point, fetched there or not: unfetched, the block
    index has not moved, and the body leaves the block in place. -/
theorem before_b1 (c : Dev nD) (t : Fin cfg1.N) (d) : (dat1 V c).before 3 t d = iblk V c 3 t :=
  ((dat1 V c).before_in_eq_fetched 3 rfl (fun _ => rfl) (fun _ _ _ => rfl)
    (fun t => by rw [after1_3]; unfold Dat.blockOf iblk; rw [A_eq1]; try rfl) t d).trans
    (by unfold Dat.fetched Dat.blockOf iblk; rw [A_eq1]; try rfl)

/-- Operand window 4's current staging buffer holds its block at every point, fetched there or not: unfetched, the block
    index has not moved, and the body leaves the block in place. -/
theorem before_w2 (c : Dev nD) (t : Fin cfg1.N) (d) : (dat1 V c).before 4 t d = iblk V c 4 t :=
  ((dat1 V c).before_in_eq_fetched 4 rfl (fun _ => rfl) (fun _ _ _ => rfl)
    (fun t => by rw [after1_4]; unfold Dat.blockOf iblk; rw [A_eq1]; try rfl) t d).trans
    (by unfold Dat.fetched Dat.blockOf iblk; rw [A_eq1]; try rfl)

/-- Operand window 5's current staging buffer holds its block at every point, fetched there or not: unfetched, the block
    index has not moved, and the body leaves the block in place. -/
theorem before_b2 (c : Dev nD) (t : Fin cfg1.N) (d) : (dat1 V c).before 5 t d = iblk V c 5 t :=
  ((dat1 V c).before_in_eq_fetched 5 rfl (fun _ => rfl) (fun _ _ _ => rfl)
    (fun t => by rw [after1_5]; unfold Dat.blockOf iblk; rw [A_eq1]; try rfl) t d).trans
    (by unfold Dat.fetched Dat.blockOf iblk; rw [A_eq1]; try rfl)

/-! ## The kept buffers across a point -/

/-- The invariant with the kernel's own two buffers in owned form. -/
theorem PhiR_eq (c : Dev nD) (n : ℕ) :
    PhiR V c n = iprop((∃ f0 : Vec F S10000x128 .bf16, owns (c : Thread nD τ) (Memref.whole cc1_scratch0) fullShare f0 ∗ ⌜0 < n → f0 = S1 V c⌝)
      ∗ (∃ f1 : Vec F S10000x128 .bf16, owns (c : Thread nD τ) (Memref.whole cc1_scratch1) fullShare f1
          ∗ ⌜∀ y : S10000x128.Idx, (y 0).val < 200 * min n 50 → f1 y = H2 V c y⌝)
      ∗ others (F := F) c) := by
  unfold PhiR; simp only [owns_whole]; rfl

/-- A point of the first pass stores its block's rows of the second layer's support at rows `200 · t`: the kept rows, named
    on the blocks before `t`, are then named on the blocks up to `t`. -/
theorem rows_step (c : Dev nD) (f1 : Vec F S10000x128 .bf16) (t : Fin cfg1.N) (ht : t.val < 50)
    (hP : ∀ y : S10000x128.Idx, (y 0).val < 200 * t.val → f1 y = H2 V c y) :
    ∀ y : S10000x128.Idx, (y 0).val < 200 * (t.val + 1) →
      rowsUpd f1 (200 * (t.val % 50)) (k1_pay4 (adjB V c t) (S1 V c) (b1B V c t) (w2B V c t)) y = H2 V c y := by
  intro y hy
  have hmod : t.val % 50 = t.val := Nat.mod_eq_of_lt ht
  unfold rowsUpd
  by_cases h : 200 * (t.val % 50) ≤ (y 0).val ∧ (y 0).val < 200 * (t.val % 50) + 200
  · rw [dif_pos h]
    have hpt : rowPt y = t := Fin.ext (by show (y 0).val / 200 = t.val; omega)
    unfold H2 rowLoc
    rw [hpt]
    congr 2
    apply Fin.ext
    show (y 0).val - 200 * (t.val % 50) = (y 0).val % 200
    omega
  · rw [dif_neg h]
    exact hP y (by omega)

/-- What the result's block holds after a point of the first pass, and after one of the second. -/
theorem out6_lt (c : Dev nD) (t : Fin cfg1.N) (ht : t.val < 50) :
    out6 V c t = k1_pay5 (adjB V c t) (S1 V c) (b1B V c t) (w2B V c t) := by
  unfold out6; rw [if_pos ht]
theorem out6_ge (c : Dev nD) (t : Fin cfg1.N) (ht : 50 ≤ t.val) :
    out6 V c t = k1_pay6 (adjB V c t) (H2 V c) (b2B V c t) := by
  unfold out6; rw [if_neg (Nat.not_lt.mpr ht)]

/-! ## The body obligation, at a generic point -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at any point. The operands' buffers hold their blocks; the invariant says what the kernel's own two buffers hold.
    At the first point the body fills the product and the first block's rows; at the other points of the first pass it reads
    the product back and fills its block's rows; in the second pass it reads the finished rows. Each time the invariant
    of the next point holds, and the result's block is what `out6` says. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_adj, before_feat, before_w1, before_b1, before_w2, before_b2]
  rw [show (dat1 V c).Φ t.castSucc = PhiR V c t.val from rfl, show (dat1 V c).Φ t.succ = PhiR V c (t.val + 1) from rfl,
    show (dat1 V c).owesAt () t.succ = (dat1 V c).owesAt () t.castSucc from rfl,
    after1_0, after1_1, after1_2, after1_3, after1_4, after1_5, after1_6, PhiR_eq, PhiR_eq]
  iintro ⟨⟨⟨%f0, Hs, %hf0⟩, ⟨%f1, Hk, %hf1⟩, Hoth⟩, Ho, ⟨%d0, Ha⟩, ⟨%d1, Hx⟩, ⟨%d2, Hw1⟩, ⟨%d3, Hb1⟩, ⟨%d4, Hw2⟩, ⟨%d5, Hb2⟩, ⟨%d6, Hr⟩⟩
  rcases Nat.eq_zero_or_pos t.val with h0 | h0
  · -- the first point: the product is made here, from the operands as the first point finds them
    have hc1 : cond1 (grid1.coords t) := (hcond1 t).mpr h0
    have hc2 : k1_cond2 (grid1.coords t) = 1#1 := (hcond2 t).mpr (by omega)
    have hc3 : ¬k1_cond3 (grid1.coords t) = 1#1 := fun h => by have := (hcond3 t).mp h; omega
    have ht : t.val < 50 := by omega
    have hS : k1_pay1 (featB V c t) (w1B V c t) = S1 V c := by unfold S1; rw [show t = t0 from Fin.ext h0]
    rw [out6_lt V c t ht]
    iapply (runA c (grid1.coords t) _ _ _ _ _ _ _ _ _ _ _ _ _ _ _ _ _ _ hc1 hc2 hc3 (200 * (t.val % 50)) (hoff t)
      (adjB V c t) (featB V c t) (w1B V c t) (b1B V c t) (w2B V c t) f1 Set.univ _)
    isplitl [Ha]; · iexact Ha
    isplitl [Hx]; · iexact Hx
    isplitl [Hw1]; · iexact Hw1
    isplitl [Hb1]; · iexact Hb1
    isplitl [Hw2]; · iexact Hw2
    isplitl [Hr]; · iexists _; iexact Hr
    isplitl [Hs]; · iexists _; iexact Hs
    isplitl [Hk]; · iexact Hk
    rw [hS]
    iintro ⟨Ha, Hx, Hw1, Hb1, Hw2, Hr, Hs, Hk⟩
    isplitl [Hs Hk Hoth]
    · isplitl [Hs]
      · iexists _; isplitl [Hs]; · iexact Hs
        ipureintro; intro _; rfl
      isplitl [Hk]
      · iexists _; isplitl [Hk]; · iexact Hk
        ipureintro; intro y hy
        exact rows_step V c f1 t ht (fun y hy => hf1 y (by omega)) y (by omega)
      iexact Hoth
    isplitl [Ho]; · iexact Ho
    isplitl [Ha]; · iexact Ha
    isplitl [Hx]; · iexact Hx
    isplitl [Hw1]; · iexact Hw1
    isplitl [Hb1]; · iexact Hb1
    isplitl [Hw2]; · iexact Hw2
    isplitl [Hb2]; · iexact Hb2
    iexact Hr
  rcases Nat.lt_or_ge t.val 50 with h50 | h50
  · -- another point of the first pass: the product is read back
    have hc1 : ¬cond1 (grid1.coords t) := fun h => by have := (hcond1 t).mp h; omega
    have hc2 : k1_cond2 (grid1.coords t) = 1#1 := (hcond2 t).mpr h50
    have hc3 : ¬k1_cond3 (grid1.coords t) = 1#1 := fun h => by have := (hcond3 t).mp h; omega
    obtain rfl := hf0 h0
    rw [out6_lt V c t h50]
    iapply (runB c (grid1.coords t) _ _ _ _ _ _ _ _ _ _ _ _ _ _ _ _ _ _ hc1 hc2 hc3 (200 * (t.val % 50)) (hoff t)
      (adjB V c t) (S1 V c) (b1B V c t) (w2B V c t) f1 Set.univ _)
    isplitl [Ha]; · iexact Ha
    isplitl [Hb1]; · iexact Hb1
    isplitl [Hw2]; · iexact Hw2
    isplitl [Hr]; · iexists _; iexact Hr
    isplitl [Hs]; · iexact Hs
    isplitl [Hk]; · iexact Hk
    iintro ⟨Ha, Hb1, Hw2, Hr, Hs, Hk⟩
    isplitl [Hs Hk Hoth]
    · isplitl [Hs]
      · iexists _; isplitl [Hs]; · iexact Hs
        ipureintro; intro _; rfl
      isplitl [Hk]
      · iexists _; isplitl [Hk]; · iexact Hk
        ipureintro; intro y hy
        exact rows_step V c f1 t h50 (fun y hy => hf1 y (by omega)) y (by omega)
      iexact Hoth
    isplitl [Ho]; · iexact Ho
    isplitl [Ha]; · iexact Ha
    isplitl [Hx]; · iexact Hx
    isplitl [Hw1]; · iexact Hw1
    isplitl [Hb1]; · iexact Hb1
    isplitl [Hw2]; · iexact Hw2
    isplitl [Hb2]; · iexact Hb2
    iexact Hr
  · -- a point of the second pass: every row of the kept buffer is named
    have hc1 : ¬cond1 (grid1.coords t) := fun h => by have := (hcond1 t).mp h; omega
    have hc2 : ¬k1_cond2 (grid1.coords t) = 1#1 := fun h => by have := (hcond2 t).mp h; omega
    have hc3 : k1_cond3 (grid1.coords t) = 1#1 := (hcond3 t).mpr h50
    obtain rfl : f1 = H2 V c := funext fun y => hf1 y (by have := row_lt y; omega)
    rw [out6_ge V c t h50]
    iapply (runC c (grid1.coords t) _ _ _ _ _ _ _ _ _ _ _ _ _ _ _ _ _ _ hc1 hc2 hc3
      (adjB V c t) (b2B V c t) (H2 V c) Set.univ _)
    isplitl [Ha]; · iexact Ha
    isplitl [Hb2]; · iexact Hb2
    isplitl [Hr]; · iexists _; iexact Hr
    isplitl [Hk]; · iexact Hk
    iintro ⟨Ha, Hb2, Hr, Hk⟩
    isplitl [Hs Hk Hoth]
    · isplitl [Hs]
      · iexists _; isplitl [Hs]; · iexact Hs
        ipureintro; intro _; exact hf0 (by omega)
      isplitl [Hk]
      · iexists _; isplitl [Hk]; · iexact Hk
        ipureintro; intro y _; rfl
      iexact Hoth
    isplitl [Ho]; · iexact Ho
    isplitl [Ha]; · iexact Ha
    isplitl [Hx]; · iexact Hx
    isplitl [Hw1]; · iexact Hw1
    isplitl [Hb1]; · iexact Hb1
    isplitl [Hw2]; · iexact Hw2
    isplitl [Hb2]; · iexact Hb2
    iexact Hr

/-- The body obligation at every point. -/
theorem body_obligation1 (c : Dev nD) : BodyObligation (dat1 (F := F) V c) (defs₀ (F := F)) Variants.none () Set.univ := fun t => by
  rw [bigSep_W1, bigSep_W1]
  rw [hidle6 t]
  exact sound_body V c t

/-- What the region's entry hands the kernel is the invariant before the first point. -/
theorem hin1 (c : Dev nD) :
    (Pipeline.scopedRest (Ix := Unit) (Name := ℕ) (U := UR sig nD τ) (Lvl := ℕ) (Val := Elt F) spec1 c : sProp 𝕄) ⊢ (dat1 V c).Φ 0 := by
  rw [scopedRest_split, show (dat1 V c).Φ 0 = PhiR V c 0 from rfl]
  unfold PhiR
  iintro ⟨⟨%f0, H0⟩, ⟨%f1, H1⟩, Ho⟩
  isplitl [H0]
  · iexists f0; isplitl [H0]; · iexact H0
    ipureintro; intro h; exact absurd h (Nat.lt_irrefl 0)
  isplitl [H1]
  · iexists f1; isplitl [H1]; · iexact H1
    ipureintro; intro y hy; omega
  iexact Ho

/-- The invariant after the last point gives the scoped buffers back, their contents forgotten. -/
theorem hout1 (c : Dev nD) :
    (dat1 V c).Φ (Fin.last cfg1.N) ⊢ (Pipeline.scopedRest (Ix := Unit) (Name := ℕ) (U := UR sig nD τ) (Lvl := ℕ) (Val := Elt F) spec1 c : sProp 𝕄) := by
  rw [scopedRest_split, show (dat1 V c).Φ (Fin.last cfg1.N) = PhiR V c cfg1.N from rfl]
  unfold PhiR
  iintro ⟨⟨%f0, H0, -⟩, ⟨%f1, H1, -⟩, Ho⟩
  isplitl [H0]; · iexists f0; iexact H0
  isplitl [H1]; · iexists f1; iexact H1
  iexact Ho

end Cert.KernelIdeal.R1

end
-- ==== Proof.KI.Vals.lean ====
/-
  What the core's unscoped buffers hold at each boundary between two items of the program: as launched; after the two
  bias reshapes; after the first kernel region (its result array at what the region's write-backs leave, everything else
  as entered); after the slice and reshapes that make the first result and the second region's bias rows; after the
  second kernel region; after the slice and reshape that make the second result.
-/
import proofs.«126728_g73796128079920_cont_9to1c4b_223_8_alg».proof.Proof.KI.Dat0
import proofs.«126728_g73796128079920_cont_9to1c4b_223_8_alg».proof.Proof.KI.Dat1
import Idealize.ShloMosaic.Lib.Pipeline.FrameSuffix
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the two bias reshapes (the first region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (R0.dat0 (V1 m) c).arrAt w cfg0.N
theorem W2_arr (c : Dev nD) (w : Fin cfg0.W) :
    W2 m c (Proc.devRef .tc (Pipeline.arrRef spec0 w)) = (R0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the first result's slice and reshape and the second pair of bias reshapes (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (R1.dat1 (V3 m) c).arrAt w cfg1.N
theorem W4_arr (c : Dev nD) (w : Fin cfg1.W) :
    W4 m c (Proc.devRef .tc (Pipeline.arrRef spec1 w)) = (R1.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
/-- After the second result's slice and reshape: the end. -/
abbrev W5 : Dev nD → Valuation τ sig (Elt F) := fun c => StableHlo.after hostOps2 (W4 m c)

end Cert.KernelIdeal.Run

end
-- ==== Proof.KI.Launch.lean ====
/-
  The whole program from the launch to the return. Between two of its five items (host operations, the first kernel
  region, host operations, the second kernel region, host operations) every core holds each of its unscoped buffers whole
  at the boundary's contents, beside its generator register at some state and nothing owed. A kernel region takes its seven
  arrays out of the unscoped buffers, hands its invariant the scoped buffers no window stages, and puts the arrays back at
  what its write-backs made of them; the generator register and the buffers that are no array of the region pass it by.
  The launch makes the first such state on every core; the last one is read against the final memory.
-/
import proofs.«126728_g73796128079920_cont_9to1c4b_223_8_alg».proof.Proof.KI.Dat0
import proofs.«126728_g73796128079920_cont_9to1c4b_223_8_alg».proof.Proof.KI.Dat1
import proofs.«126728_g73796128079920_cont_9to1c4b_223_8_alg».proof.Proof.KI.Vals
import proofs.«126728_g73796128079920_cont_9to1c4b_223_8_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run
import Idealize.ShloMosaic.Lib.Pipeline.Value

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What a kernel region leaves: its arrays at the write-backs' result, every other buffer as entered -/

theorem hF0 (c : Dev nD) (w : Fin cfg0.W) : (R0.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (R1.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The proof data of both regions and the thread state -/

/-- Both regions' proof data, each at the contents its region is entered from. -/
def pdats : (p : Fin 2) → (c : Dev nD) → Dat τ (Elt F) Unit ℕ (UR sig nD τ) ℕ (Pipeline.pin (pcfgs (F := F)) adm p) c
  | ⟨0, _⟩ => fun c => R0.dat0 (V1 m) c
  | ⟨1, _⟩ => fun c => R1.dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A stretch of host operations as a segment: over the unscoped references from the contents `W`, `R` riding along;
    it leaves those references at the operations applied to `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those held between two items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W5 m c) ∗ ∃ r, prngReg c r)

/-! ## The kernel regions as segments -/

set_option backward.isDefEq.respectTransparency.types false in
/-- KERNEL REGION 0 over the thread state: entered from every unscoped buffer at `W1`, left at `W2`. Its seven arrays
    are split out of the unscoped buffers and put back at what the write-backs leave; the invariant takes the scoped
    buffers no window stages and gives them back; the generator register and the other unscoped buffers pass the region
    by; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(emp)
  Y c := iprop(emp)
  Z c := iprop(Pipeline.unscopedRest (Ix := Unit) (Name := ℕ) (U := UR sig nD τ) (Lvl := ℕ) spec0 c (V1 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = (R0.dat0 (V1 m) c).Φ 0 from rfl]
    iintro ⟨-, -, Hr⟩
    iapply (R0.hin0 (V1 m) c)
    iexact Hr
  hout c := by
    rw [Pipeline.ownSems0_none, show (pdats m 0 c).Φ (Fin.last _) = (R0.dat0 (V1 m) c).Φ (Fin.last cfg0.N) from rfl]
    iintro H
    isplitr; · iempintro
    isplitr; · iempintro
    iapply (R0.hout0 (V1 m) c)
    iexact H
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- KERNEL REGION 1 over the thread state: entered from every unscoped buffer at `W3`, left at `W4`. Its seven arrays
    are split out of the unscoped buffers and put back at what the write-backs leave; the invariant takes the scoped
    buffers no window stages and gives them back; the generator register and the other unscoped buffers pass the region
    by; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(emp)
  Y c := iprop(emp)
  Z c := iprop(Pipeline.unscopedRest (Ix := Unit) (Name := ℕ) (U := UR sig nD τ) (Lvl := ℕ) spec1 c (V3 m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = (R1.dat1 (V3 m) c).Φ 0 from rfl]
    iintro ⟨-, -, Hr⟩
    iapply (R1.hin1 (V3 m) c)
    iexact Hr
  hout c := by
    rw [Pipeline.ownSems0_none, show (pdats m 1 c).Φ (Fin.last _) = (R1.dat1 (V3 m) c).Φ (Fin.last cfg1.N) from rfl]
    iintro H
    isplitr; · iempintro
    isplitr; · iempintro
    iapply (R1.hout1 (V3 m) c)
    iexact H
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The program as segments, and the launch -/

/-- The program's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- The program IS the run of the segments: it is the chain of its items, and the segments' run is the same chain. -/
theorem main_run (c : Dev nD) : main (F := F) c = Pipeline.Seg.run (segs m) := (main_chain c).trans (by chain_rfl)

set_option backward.isDefEq.respectTransparency.types false in
/-- THE RUN: from any memory with zero counters every weakly fair execution of the program terminates, and every final
    memory holds each unscoped buffer of each core at the last boundary's contents. -/
theorem run_main (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Run

end
-- ==== Proof.KI.Reads.lean ====
/-
  The core's buffers read back at the boundaries of the program: every argument reaches the end as launched (no host
  operation writes one, a region reads it through an input window or does not touch it); the two results are the slices
  `[1, :, :]` of the regions' result arrays, reshaped; the bias rows the regions read are the bias vectors, reshaped.
-/
import proofs.«126728_g73796128079920_cont_9to1c4b_223_8_alg».proof.Proof.KI.Vals
import proofs.«126728_g73796128079920_cont_9to1c4b_223_8_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

namespace Reads

/-! ## What each item leaves of a buffer it does not write -/

theorem W1_of (c : Dev nD) (r : Ref sig .tc) (h : r ∉ hostOps0_W) :
    W1 m c (Proc.devRef .tc r) = W0 m c (Proc.devRef .tc r) :=
  StableHlo.after_of_writes_sub hostOps0 _ hostOps0_writes h
theorem W3_of (c : Dev nD) (r : Ref sig .tc) (h : r ∉ hostOps1_W) :
    W3 m c (Proc.devRef .tc r) = W2 m c (Proc.devRef .tc r) :=
  StableHlo.after_of_writes_sub hostOps1 _ hostOps1_writes h
theorem W5_of (c : Dev nD) (r : Ref sig .tc) (h : r ∉ hostOps2_W) :
    W5 m c (Proc.devRef .tc r) = W4 m c (Proc.devRef .tc r) :=
  StableHlo.after_of_writes_sub hostOps2 _ hostOps2_writes h

/-- An input window's array leaves the first region as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((R0.dat0 (V1 m) c).arrAt_in w hw _).trans (R0.A_eq0 (V1 m) c w))
/-- An input window's array leaves the second region as it entered. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((R1.dat1 (V3 m) c).arrAt_in w hw _).trans (R1.A_eq1 (V3 m) c w))

/-- What the first region and the two reshapes before it leave of a bias vector the second region's rows are made of. -/
theorem W2_bias (c : Dev nD) (r : Ref sig .tc) (h2 : ∀ w, Pipeline.arrRef spec0 w ≠ r) (h0 : r ∉ hostOps0_W) :
    W2 m c (Proc.devRef .tc r) = m ((c : Thread nD τ).loc r) :=
  (W2_of_ne m c r h2).trans (W1_of m c r h0)

/-! ## A half of a result array, reshaped -/

/-- The slice `[1, :, :]` of a `[2, 10000, 128]` array, reshaped to `[10000, 128]`, reads at `(r, j)` the array at `(1, r, j)`. -/
theorem half1_apply (X : S2x10000x128.Idx → Elt F .f32) (r : Fin 10000) (j : Fin 128) :
    shapeCast S10000x128 (extractStridedSlice S1x10000x128 ![1, 0, 0] X slices_S2x10000x128_S1x10000x128_1_0_0)
        shapeCasts_S1x10000x128_S10000x128 (ix2 r j)
      = X (ix3 (1 : Fin 2) r j) := by
  refine (shapeCast_1ab_ab_apply _ _ r j).trans ?_
  exact extractStridedSlice_apply _ _ _ _ _ (fun ax => by
    match ax with
    | ⟨0, _⟩ => rfl
    | ⟨1, _⟩ => exact (Nat.zero_add _).symm
    | ⟨2, _⟩ => exact (Nat.zero_add _).symm)

theorem W3_v4 (c : Dev nD) :
    (W3 m c (Proc.devRef .tc main_v4) : S10000x128.Idx → Elt F .f32)
      = shapeCast S10000x128 (extractStridedSlice S1x10000x128 ![1, 0, 0]
          (W2 m c (Proc.devRef .tc main_v2) : S2x10000x128.Idx → Elt F .f32) slices_S2x10000x128_S1x10000x128_1_0_0)
          shapeCasts_S1x10000x128_S10000x128 := by
  show StableHlo.after hostOps1 (W2 m c) (Proc.devRef .tc main_v4) = _
  after_results
  rfl

theorem W5_v9 (c : Dev nD) :
    (W5 m c (Proc.devRef .tc main_v9) : S10000x128.Idx → Elt F .f32)
      = shapeCast S10000x128 (extractStridedSlice S1x10000x128 ![1, 0, 0]
          (W4 m c (Proc.devRef .tc main_v7) : S2x10000x128.Idx → Elt F .f32) slices_S2x10000x128_S1x10000x128_1_0_0)
          shapeCasts_S1x10000x128_S10000x128 := by
  show StableHlo.after hostOps2 (W4 m c) (Proc.devRef .tc main_v9) = _
  after_results
  rfl

end Reads

open Reads

/-! ## The arguments end as launched -/
/-- `main_arg0` reaches the end as launched: no host operation writes it; the first region reads it through an input window, the second does not touch it. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_in m c 0 rfl
    _ = W0 m c (Proc.devRef .tc main_arg0) := W1_of m c main_arg0 (by decide)
    _ = m ((c : Thread nD τ).loc main_arg0) := rfl
/-- `main_arg1` reaches the end as launched: no host operation writes it; the first region reads it through an input window, the second does not touch it. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_in m c 1 rfl
    _ = W0 m c (Proc.devRef .tc main_arg1) := W1_of m c main_arg1 (by decide)
    _ = m ((c : Thread nD τ).loc main_arg1) := rfl
/-- `main_arg2` reaches the end as launched: no host operation writes it; the first region does not touch it, the second reads it through an input window. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of m c main_arg2 (by decide)
    _ = W3 m c (Proc.devRef .tc main_arg2) := W4_in m c 0 rfl
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
/-- `main_arg3` reaches the end as launched: no host operation writes it; the first region does not touch it, the second reads it through an input window. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of m c main_arg3 (by decide)
    _ = W3 m c (Proc.devRef .tc main_arg3) := W4_in m c 1 rfl
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
/-- `main_arg4` reaches the end as launched: no host operation writes it; the first region reads it through an input window, the second does not touch it. -/
theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_in m c 2 rfl
    _ = W0 m c (Proc.devRef .tc main_arg4) := W1_of m c main_arg4 (by decide)
    _ = m ((c : Thread nD τ).loc main_arg4) := rfl
/-- `main_arg5` reaches the end as launched: no host operation writes it; no region touches it. -/
theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_of m c main_arg5 (by decide)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
/-- `main_arg6` reaches the end as launched: no host operation writes it; the first region reads it through an input window, the second does not touch it. -/
theorem W5_main_arg6 (c : Dev nD) : W5 m c (Proc.devRef .tc main_arg6) = m ((c : Thread nD τ).loc main_arg6) :=
  calc W5 m c (Proc.devRef .tc main_arg6)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_in m c 4 rfl
    _ = W0 m c (Proc.devRef .tc main_arg6) := W1_of m c main_arg6 (by decide)
    _ = m ((c : Thread nD τ).loc main_arg6) := rfl
/-- `main_arg7` reaches the end as launched: no host operation writes it; no region touches it. -/
theorem W5_main_arg7 (c : Dev nD) : W5 m c (Proc.devRef .tc main_arg7) = m ((c : Thread nD τ).loc main_arg7) :=
  calc W5 m c (Proc.devRef .tc main_arg7)
    _ = W4 m c (Proc.devRef .tc main_arg7) := W5_of m c main_arg7 (by decide)
    _ = W3 m c (Proc.devRef .tc main_arg7) := W4_of_ne m c main_arg7 (by decide)
    _ = W2 m c (Proc.devRef .tc main_arg7) := W3_of m c main_arg7 (by decide)
    _ = W1 m c (Proc.devRef .tc main_arg7) := W2_of_ne m c main_arg7 (by decide)
    _ = W0 m c (Proc.devRef .tc main_arg7) := W1_of m c main_arg7 (by decide)
    _ = m ((c : Thread nD τ).loc main_arg7) := rfl
/-- `main_arg8` reaches the end as launched: no host operation writes it; the first region does not touch it, the second reads it through an input window. -/
theorem W5_main_arg8 (c : Dev nD) : W5 m c (Proc.devRef .tc main_arg8) = m ((c : Thread nD τ).loc main_arg8) :=
  calc W5 m c (Proc.devRef .tc main_arg8)
    _ = W4 m c (Proc.devRef .tc main_arg8) := W5_of m c main_arg8 (by decide)
    _ = W3 m c (Proc.devRef .tc main_arg8) := W4_in m c 2 rfl
    _ = W2 m c (Proc.devRef .tc main_arg8) := W3_of m c main_arg8 (by decide)
    _ = W1 m c (Proc.devRef .tc main_arg8) := W2_of_ne m c main_arg8 (by decide)
    _ = W0 m c (Proc.devRef .tc main_arg8) := W1_of m c main_arg8 (by decide)
    _ = m ((c : Thread nD τ).loc main_arg8) := rfl
/-- `main_arg9` reaches the end as launched: no host operation writes it; no region touches it. -/
theorem W5_main_arg9 (c : Dev nD) : W5 m c (Proc.devRef .tc main_arg9) = m ((c : Thread nD τ).loc main_arg9) :=
  calc W5 m c (Proc.devRef .tc main_arg9)
    _ = W4 m c (Proc.devRef .tc main_arg9) := W5_of m c main_arg9 (by decide)
    _ = W3 m c (Proc.devRef .tc main_arg9) := W4_of_ne m c main_arg9 (by decide)
    _ = W2 m c (Proc.devRef .tc main_arg9) := W3_of m c main_arg9 (by decide)
    _ = W1 m c (Proc.devRef .tc main_arg9) := W2_of_ne m c main_arg9 (by decide)
    _ = W0 m c (Proc.devRef .tc main_arg9) := W1_of m c main_arg9 (by decide)
    _ = m ((c : Thread nD τ).loc main_arg9) := rfl
/-- `main_arg10` reaches the end as launched: no host operation writes it; the first region does not touch it, the second reads it through an input window. -/
theorem W5_main_arg10 (c : Dev nD) : W5 m c (Proc.devRef .tc main_arg10) = m ((c : Thread nD τ).loc main_arg10) :=
  calc W5 m c (Proc.devRef .tc main_arg10)
    _ = W4 m c (Proc.devRef .tc main_arg10) := W5_of m c main_arg10 (by decide)
    _ = W3 m c (Proc.devRef .tc main_arg10) := W4_in m c 4 rfl
    _ = W2 m c (Proc.devRef .tc main_arg10) := W3_of m c main_arg10 (by decide)
    _ = W1 m c (Proc.devRef .tc main_arg10) := W2_of_ne m c main_arg10 (by decide)
    _ = W0 m c (Proc.devRef .tc main_arg10) := W1_of m c main_arg10 (by decide)
    _ = m ((c : Thread nD τ).loc main_arg10) := rfl
/-- `main_arg11` reaches the end as launched: no host operation writes it; no region touches it. -/
theorem W5_main_arg11 (c : Dev nD) : W5 m c (Proc.devRef .tc main_arg11) = m ((c : Thread nD τ).loc main_arg11) :=
  calc W5 m c (Proc.devRef .tc main_arg11)
    _ = W4 m c (Proc.devRef .tc main_arg11) := W5_of m c main_arg11 (by decide)
    _ = W3 m c (Proc.devRef .tc main_arg11) := W4_of_ne m c main_arg11 (by decide)
    _ = W2 m c (Proc.devRef .tc main_arg11) := W3_of m c main_arg11 (by decide)
    _ = W1 m c (Proc.devRef .tc main_arg11) := W2_of_ne m c main_arg11 (by decide)
    _ = W0 m c (Proc.devRef .tc main_arg11) := W1_of m c main_arg11 (by decide)
    _ = m ((c : Thread nD τ).loc main_arg11) := rfl

/-! ## The regions' entry contents at the arguments and the bias rows -/

theorem V1_arg (c : Dev nD) : V1 m c main_arg0 = m ((c : Thread nD τ).loc main_arg0) ∧ V1 m c main_arg1 = m ((c : Thread nD τ).loc main_arg1)
    ∧ V1 m c main_arg4 = m ((c : Thread nD τ).loc main_arg4) ∧ V1 m c main_arg6 = m ((c : Thread nD τ).loc main_arg6) :=
  ⟨W1_of m c main_arg0 (by decide), W1_of m c main_arg1 (by decide), W1_of m c main_arg4 (by decide), W1_of m c main_arg6 (by decide)⟩

/-- A bias vector reshaped to one row reads, at `(0, l)`, the vector at `l`. -/
theorem V1_v0_apply (c : Dev nD) (l : Fin 128) :
    (V1 m c main_v0 : S1x128.Idx → Elt F .f32) (ix2 (0 : Fin 1) l) = (m ((c : Thread nD τ).loc main_arg5) : S128.Idx → Elt F .f32) (ix1 l) := by
  have e : (V1 m c main_v0 : S1x128.Idx → Elt F .f32)
      = shapeCast S1x128 (m ((c : Thread nD τ).loc main_arg5) : S128.Idx → Elt F .f32) shapeCasts_S128_S1x128 := by
    show StableHlo.after hostOps0 (W0 m c) (Proc.devRef .tc main_v0) = _
    after_results
    rfl
  rw [e]
  exact shapeCast_a_1a_apply _ _ _ _
theorem V1_v1_apply (c : Dev nD) (l : Fin 128) :
    (V1 m c main_v1 : S1x128.Idx → Elt F .f32) (ix2 (0 : Fin 1) l) = (m ((c : Thread nD τ).loc main_arg7) : S128.Idx → Elt F .f32) (ix1 l) := by
  have e : (V1 m c main_v1 : S1x128.Idx → Elt F .f32)
      = shapeCast S1x128 (m ((c : Thread nD τ).loc main_arg7) : S128.Idx → Elt F .f32) shapeCasts_S128_S1x128 := by
    show StableHlo.after hostOps0 (W0 m c) (Proc.devRef .tc main_v1) = _
    after_results
    rfl
  rw [e]
  exact shapeCast_a_1a_apply _ _ _ _

theorem V3_arg (c : Dev nD) : V3 m c main_arg2 = m ((c : Thread nD τ).loc main_arg2) ∧ V3 m c main_arg3 = m ((c : Thread nD τ).loc main_arg3)
    ∧ V3 m c main_arg8 = m ((c : Thread nD τ).loc main_arg8) ∧ V3 m c main_arg10 = m ((c : Thread nD τ).loc main_arg10) :=
  ⟨(W3_of m c main_arg2 (by decide)).trans ((W2_of_ne m c main_arg2 (by decide)).trans (W1_of m c main_arg2 (by decide))),
   (W3_of m c main_arg3 (by decide)).trans ((W2_of_ne m c main_arg3 (by decide)).trans (W1_of m c main_arg3 (by decide))),
   (W3_of m c main_arg8 (by decide)).trans ((W2_of_ne m c main_arg8 (by decide)).trans (W1_of m c main_arg8 (by decide))),
   (W3_of m c main_arg10 (by decide)).trans ((W2_of_ne m c main_arg10 (by decide)).trans (W1_of m c main_arg10 (by decide)))⟩

theorem V3_v5_apply (c : Dev nD) (l : Fin 128) :
    (V3 m c main_v5 : S1x128.Idx → Elt F .f32) (ix2 (0 : Fin 1) l) = (m ((c : Thread nD τ).loc main_arg9) : S128.Idx → Elt F .f32) (ix1 l) := by
  have e : (V3 m c main_v5 : S1x128.Idx → Elt F .f32)
      = shapeCast S1x128 (W2 m c (Proc.devRef .tc main_arg9) : S128.Idx → Elt F .f32) shapeCasts_S128_S1x128 := by
    show StableHlo.after hostOps1 (W2 m c) (Proc.devRef .tc main_v5) = _
    after_results
    rfl
  rw [e, W2_bias m c main_arg9 (by decide) (by decide)]
  exact shapeCast_a_1a_apply _ _ _ _
theorem V3_v6_apply (c : Dev nD) (l : Fin 128) :
    (V3 m c main_v6 : S1x128.Idx → Elt F .f32) (ix2 (0 : Fin 1) l) = (m ((c : Thread nD τ).loc main_arg11) : S128.Idx → Elt F .f32) (ix1 l) := by
  have e : (V3 m c main_v6 : S1x128.Idx → Elt F .f32)
      = shapeCast S1x128 (W2 m c (Proc.devRef .tc main_arg11) : S128.Idx → Elt F .f32) shapeCasts_S128_S1x128 := by
    show StableHlo.after hostOps1 (W2 m c) (Proc.devRef .tc main_v6) = _
    after_results
    rfl
  rw [e, W2_bias m c main_arg11 (by decide) (by decide)]
  exact shapeCast_a_1a_apply _ _ _ _

/-! ## The two results -/

/-- The first result at the end: the first region's result array at half 1. -/
theorem W5_v4_apply (c : Dev nD) (r : Fin 10000) (j : Fin 128) :
    (W5 m c (Proc.devRef .tc main_v4) : S10000x128.Idx → Elt F .f32) (ix2 r j)
      = ((R0.dat0 (V1 m) c).arrAt 6 cfg0.N : S2x10000x128.Idx → Elt F .f32) (ix3 (1 : Fin 2) r j) := by
  have e54 : W5 m c (Proc.devRef .tc main_v4) = W3 m c (Proc.devRef .tc main_v4) :=
    (W5_of m c main_v4 (by decide)).trans (W4_of_ne m c main_v4 (by decide))
  rw [e54, W3_v4 m c, half1_apply]
  exact congrFun (W2_arr m c 6) _

/-- The second result at the end: the second region's result array at half 1. -/
theorem W5_v9_apply (c : Dev nD) (r : Fin 10000) (j : Fin 128) :
    (W5 m c (Proc.devRef .tc main_v9) : S10000x128.Idx → Elt F .f32) (ix2 r j)
      = ((R1.dat1 (V3 m) c).arrAt 6 cfg1.N : S2x10000x128.Idx → Elt F .f32) (ix3 (1 : Fin 2) r j) := by
  rw [W5_v9 m c, half1_apply]
  exact congrFun (W4_arr m c 6) _

end Cert.KernelIdeal.Run

end
-- ==== Proof.KB.Defs0.lean ====
/-
  The first graph convolution's kernel region, as mathematics. The grid has 100 points: point `t < 50` is block `t` of the
  first pass, point `50 + m` is block `m` of the second pass. A block is 200 rows of the adjacency matrix. The first
  pass computes, block by block, the rows of `relu (A · (X · W1) + b1) · W2`, keeps them in a buffer the kernel owns
  between points, and also writes them to half 0 of the result; the second pass computes the rows of
  `A · (that buffer) + b2` into half 1 of the result. Named here: each operand's block at a point, the product `X · W1`
  the first point leaves, the rows the first pass has left after all its points, and what the result's block holds after
  each point.
-/
import proofs.«126728_g73796128079920_cont_9to1c4b_223_8_alg».proof.Proof.Gen.Kernel.Launch
import proofs.«126728_g73796128079920_cont_9to1c4b_223_8_alg».proof.Proof.Gen.Kernel.Skeleton
import proofs.«126728_g73796128079920_cont_9to1c4b_223_8_alg».proof.Proof.Gen.Kernel.Points
import Idealize.ShloMosaic.Lib.Pipeline.FrameBody
import Idealize.ShloMosaic.Lib.Pipeline.Value
import Idealize.ShloMosaic.Lib.ValueIdx
import Idealize.ShloMosaic.Lib.WritesUnit
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

-- the TensorCore's buffer contents when the region is entered
variable (V : (c : Dev nD) → (b : Ref sig .tc) → Buf (Elt F) ((c : Thread nD τ).loc b))

/-- The condition of the body's first branch (the first point of the first pass), from the grid coordinates. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The six operands' blocks at a point, at their literal types: 200 rows of the adjacency matrix; the features, the two
    weight matrices and the two bias rows whole. -/
abbrev adjB (c : Dev nD) (t : Fin cfg0.N) : Vec F S200x10000 .f32 := iblk V c 0 t
abbrev featB (c : Dev nD) (t : Fin cfg0.N) : Vec F S10000x128 .f32 := iblk V c 1 t
abbrev w1B (c : Dev nD) (t : Fin cfg0.N) : Vec F S128x128 .f32 := iblk V c 2 t
abbrev b1B (c : Dev nD) (t : Fin cfg0.N) : Vec F S1x128 .f32 := iblk V c 3 t
abbrev w2B (c : Dev nD) (t : Fin cfg0.N) : Vec F S128x128 .f32 := iblk V c 4 t
abbrev b2B (c : Dev nD) (t : Fin cfg0.N) : Vec F S1x128 .f32 := iblk V c 5 t

/-- The first point. -/
def t0 : Fin cfg0.N := ⟨0, by decide⟩

/-- `X · W1`, as the first point computes and keeps it. -/
def S1 (c : Dev nD) : Vec F S10000x128 .bf16 := k0_pay1 (featB V c t0) (w1B V c t0)

theorem row_lt (y : S10000x128.Idx) : (y 0).val < 10000 := (y 0).isLt
theorem col_lt (y : S10000x128.Idx) : (y 1).val < 128 := (y 1).isLt

/-- The point of the first pass whose block holds row `y 0`, and the row's place in that block. -/
def rowPt (y : S10000x128.Idx) : Fin cfg0.N := ⟨(y 0).val / 200, by have := row_lt y; have : cfg0.N = 100 := N_0; omega⟩
def rowLoc (y : S10000x128.Idx) : S200x128.Idx :=
  ix2 (⟨(y 0).val % 200, Nat.mod_lt _ (by decide)⟩ : Fin 200) (⟨(y 1).val, col_lt y⟩ : Fin 128)

/-- The rows the first pass leaves in the buffer it keeps: row `y 0` is computed at point `rowPt y` from that point's 200
    rows of the adjacency matrix. -/
def H2 (c : Dev nD) : Vec F S10000x128 .bf16 :=
  fun y => k0_pay4 (adjB V c (rowPt y)) (S1 V c) (b1B V c (rowPt y)) (w2B V c (rowPt y)) (rowLoc y)

/-- What the result's block holds after point `t`: in the first pass the block's rows of the second layer's support, in the
    second pass the block's rows of the network's output. -/
def out6 (c : Dev nD) (t : Fin cfg0.N) : Vec F S1x200x128 .f32 :=
  if t.val < 50 then k0_pay5 (adjB V c t) (S1 V c) (b1B V c t) (w2B V c t)
  else k0_pay6 (adjB V c t) (H2 V c) (b2B V c t)

end Cert.Kernel.R0

end
-- ==== Proof.KB.Upd.lean ====
/-
  A buffer of 10000 rows after a block of 200 rows has been stored into it at row `o`: the block's entries on rows
  `[o, o + 200)`, the old entries elsewhere.
-/
import proofs.«126728_g73796128079920_cont_9to1c4b_223_8_alg».proof.Proof.KB.Defs0

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- `old` with the 200 rows from row `o` replaced by the block `p`. -/
def rowsUpd (old : Vec F S10000x128 .bf16) (o : ℕ) (p : Vec F S200x128 .bf16) : Vec F S10000x128 .bf16 :=
  fun y => if h : o ≤ (y 0).val ∧ (y 0).val < o + 200 then
      p (ix2 (⟨(y 0).val - o, by omega⟩ : Fin 200) (⟨(y 1).val, col_lt y⟩ : Fin 128))
    else old y

end Cert.Kernel.R0

end
-- ==== Proof.KB.Run0A.lean ====
/-
  The body at the first point: the first branch computes `X · W1` from the features and `W1` and stores it (narrowed)
  into the buffer kept for it; then the second branch runs as at every point of the first pass, reading that product
  back: the block `relu (A_block · (X · W1) + b1) · W2` goes (narrowed) into the kept rows buffer at the block's rows and
  (as computed) into the result's block.
-/
import proofs.«126728_g73796128079920_cont_9to1c4b_223_8_alg».proof.Proof.KB.Upd

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace RunA

open Idealize.ShloMosaic.ValueIdx

theorem zeros2 : (![0, 0] : Fin 2 → ℕ) = fun _ => 0 := by funext a; fin_cases a <;> rfl
theorem zeros3 : (![0, 0, 0] : Fin 3 → ℕ) = fun _ => 0 := by funext a; fin_cases a <;> rfl

/-- A whole memref read through the whole-shape rectangle at zero offsets reads its contents. -/
theorem readAt_whole {S : Shape} {e : EltTy} (m : Memref sig .tc .vmem S e) (hm : m.IsWhole) {off : Fin S.rank → ℕ}
    (hz : off = fun _ => 0) (inb : ∀ a, off a + S.size a ≤ S.size a) (X : Vec F S e) :
    View.readAt (Elt F) m.view (Rect.unit off S.size inb).toLoadRect (hm.unread X) = X := by
  rw [View.readAt_eq_ld, hm.read_unread, View.ld_unit_zero hz]

/-- One store through the whole-shape rectangle at zero offsets, last, leaves its payload. -/
theorem read_writes_whole {S : Shape} {e : EltTy} (m : Memref sig .tc .vmem S e) (f : m.view.ty.Contents (Elt F)) {off : Fin S.rank → ℕ}
    (hz : off = fun _ => 0) (inb : ∀ a, off a + S.size a ≤ S.size a) (w : S.Idx → Elt F e) (L : List (View.Piece (Elt F) S e)) :
    m.view.read (Elt F) (m.view.writes (Elt F) f (⟨Rect.unit off S.size inb, w⟩ :: L)) = w :=
  (View.read_writes_eq_canon _ _ _ (fun y => ⟨_, List.mem_cons_self, View.mem_set_unit_zero hz inb y⟩)).trans
    (View.canon_cons_unit_zero hz inb w L)

/-- A block of 200 rows stored at row `o` over whole contents reads as the contents with those rows replaced. -/
theorem read_writes_rows (m : Memref sig .tc .vmem S10000x128 .bf16) (hm : m.IsWhole) (h10 : Vec F S10000x128 .bf16)
    {off : Fin 2 → ℕ} {o : ℕ} (hoff : off = ![o, 0]) (inb : ∀ a : Fin 2, off a + S200x128.size a ≤ S10000x128.size a)
    (p : Vec F S200x128 .bf16) :
    m.view.read (Elt F) (m.view.writes (Elt F) (hm.unread h10) [⟨Rect.unit (s := S10000x128) off S200x128.size inb, p⟩])
      = rowsUpd h10 o p := by
  funext y
  rw [View.read_writes_cons_rows (v := m.view) (f := hm.unread h10) inb p [] y hoff (W := 200) rfl rfl]
  unfold rowsUpd
  by_cases h : o ≤ (y 0).val ∧ (y 0).val < o + 200
  · rw [dif_pos h, dif_pos h]
    refine congrArg p (funext fun a => Fin.ext ?_)
    rw [Rect.unitLocal_val]
    fin_cases a
    · rfl
    · show (y 1).val - 0 = (y 1).val
      omega
  · rw [dif_neg h, dif_neg h, View.writes_nil, hm.read_unread]

end RunA

open RunA in
set_option maxHeartbeats 1000000 in
theorem runA (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x200x128 .f32) (harg8 : arg8.IsWhole) (arg9 : Memref sig .tc .vmem S10000x128 .bf16) (harg9 : arg9.IsWhole) (arg10 : Memref sig .tc .vmem S10000x128 .bf16) (harg10 : arg10.IsWhole)
    (hc1 : cond1 i) (hc2 : k0_cond2 i = 1#1) (hc3 : ¬k0_cond3 i = 1#1) (o : ℕ) (hoff : k0_off1 i = ![o, 0])
    (a : Vec F S200x10000 .f32) (x : Vec F S10000x128 .f32) (w1 : Vec F S128x128 .f32) (b1 : Vec F S1x128 .f32) (w2 : Vec F S128x128 .f32)
    (h10 : Vec F S10000x128 .bf16) (E : Set ℕ) (K : PUnit → sProp 𝕄) :
    iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2 ∗ (∃ d, owns (c : Thread nD τ) arg8 fullShare d) ∗ (∃ d, owns (c : Thread nD τ) arg9 fullShare d) ∗ owns (c : Thread nD τ) arg10 fullShare h10
        ∗ (iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2
            ∗ owns (c : Thread nD τ) arg8 fullShare (k0_pay5 a (k0_pay1 x w1) b1 w2) ∗ owns (c : Thread nD τ) arg9 fullShare (k0_pay1 x w1)
            ∗ owns (c : Thread nD τ) arg10 fullShare (rowsUpd h10 o (k0_pay4 a (k0_pay1 x w1) b1 w2))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg10.eq_unread hf10
  -- each operand, loaded whole, reads as the contents owned
  have e2 := readAt_whole arg2 harg2 zeros2 inb_S200x10000_S200x10000_0_0 a
  have e3 := readAt_whole arg3 harg3 zeros2 inb_S10000x128_S10000x128_0_0 x
  have e4 := readAt_whole arg4 harg4 zeros2 inb_S128x128_S128x128_0_0 w1
  have e5 := readAt_whole arg5 harg5 zeros2 inb_S1x128_S1x128_0_0 b1
  have e6 := readAt_whole arg6 harg6 zeros2 inb_S128x128_S128x128_0_0 w2
  sl_exec (disch := first | exact hc1 | exact hc2 | exact hc3)
  sl_step
  iapply Hk
  -- the five operands are as they were
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  -- the result's block: one whole store; the product read back is the product stored
  isplitl [H8]
  · iexists _; isplitr; swap; · iexact H8
    ipureintro
    sl_unfold_run_names
    rw [read_writes_whole arg8 f8 zeros3, View.readCov_unit_zero _ zeros2]
  -- the product's buffer: one whole store
  isplitl [H9]
  · iexists _; isplitr; swap; · iexact H9
    ipureintro
    sl_unfold_run_names
    exact read_writes_whole arg9 f9 zeros2 _ _ []
  -- the kept rows: the block's 200 rows replaced
  iexists _; isplitr; swap; · iexact H10
  ipureintro
  sl_unfold_run_names
  rw [View.readCov_unit_zero _ zeros2]
  exact read_writes_rows arg10 harg10 h10 hoff _ _

end Cert.Kernel.R0

end
-- ==== Proof.KB.Run0B.lean ====
/-
  The body at a point of the first pass other than the first: only the second branch runs. It loads the point's 200 rows of
  the adjacency matrix, the kept product `X · W1`, the first bias row and `W2`, computes the block
  `relu (A_block · (X · W1) + b1) · W2`, stores it (narrowed) into the kept rows buffer at the block's rows and (as
  computed) into the result's block.
-/
import proofs.«126728_g73796128079920_cont_9to1c4b_223_8_alg».proof.Proof.KB.Upd

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

namespace RunB

/-- A load of a whole buffer through the full rectangle at zero offsets reads the buffer's contents. -/
theorem readAt_whole {S : Shape} {e : EltTy} (m : Memref sig .tc .vmem S e) (hm : m.IsWhole) {off : Fin S.rank → ℕ}
    (hz : off = fun _ => 0) (inb : ∀ a, off a + S.size a ≤ S.size a) (X : Vec F S e) :
    View.readAt (Elt F) m.view (Rect.unit (s := S) off S.size inb).toLoadRect (hm.unread X) = X := by
  rw [View.readAt_eq_ld, hm.read_unread, View.ld_unit_zero hz]

theorem zero2 : (![0, 0] : Fin 2 → ℕ) = fun _ => 0 :=
  funext fun a => by match a with | ⟨0, _⟩ => rfl | ⟨1, _⟩ => rfl

theorem zero3 : (![0, 0, 0] : Fin 3 → ℕ) = fun _ => 0 :=
  funext fun a => by match a with | ⟨0, _⟩ => rfl | ⟨1, _⟩ => rfl | ⟨2, _⟩ => rfl

/-- One store through the full rectangle at zero offsets leaves its payload, whatever was there. -/
theorem read_store_whole {S : Shape} {e : EltTy} (m : Memref sig .tc .vmem S e) (f : m.view.ty.Contents (Elt F))
    {off : Fin S.rank → ℕ} (hz : off = fun _ => 0) (inb : ∀ a, off a + S.size a ≤ S.size a) (w : Vec F S e) :
    m.view.read (Elt F) (m.view.writes (Elt F) f [(⟨Rect.unit (s := S) off S.size inb, w⟩ : View.Piece (Elt F) S e)]) = w := by
  refine (View.read_writes_eq_canon _ _ _ (fun y => ⟨_, List.mem_singleton_self _, View.mem_set_unit_zero hz inb y⟩)).trans ?_
  exact View.canon_unit_zero hz inb w

/-- One store of a block of 200 whole rows at row `o` into a whole buffer reading `h10` leaves `rowsUpd h10 o` of the block. -/
theorem read_store_rows (m : Memref sig .tc .vmem S10000x128 .bf16) (hm : m.IsWhole) (h10 : Vec F S10000x128 .bf16)
    {off : Fin 2 → ℕ} {o : ℕ} (hoff : off = ![o, 0]) (inb : ∀ a, off a + S200x128.size a ≤ S10000x128.size a)
    (p : Vec F S200x128 .bf16) :
    m.view.read (Elt F) (m.view.writes (Elt F) (hm.unread h10)
        [(⟨Rect.unit (s := S10000x128) off S200x128.size inb, p⟩ : View.Piece (Elt F) S10000x128 .bf16)])
      = rowsUpd h10 o p := by
  funext y
  rw [View.read_writes_cons_rows m.view (hm.unread h10) inb p [] y hoff (W := 200) rfl rfl]
  unfold rowsUpd
  by_cases h : o ≤ (y 0).val ∧ (y 0).val < o + 200
  · rw [dif_pos h, dif_pos h]
    refine congrArg p (funext fun a => ?_)
    match a with
    | ⟨0, _⟩ => exact Fin.ext (by show (y 0).val - (![o, 0] : Fin 2 → ℕ) 0 = (y 0).val - o; rfl)
    | ⟨1, _⟩ => exact Fin.ext (by show (y 1).val - (![o, 0] : Fin 2 → ℕ) 1 = (y 1).val; exact Nat.sub_zero _)
  · rw [dif_neg h, dif_neg h, View.writes_nil, hm.read_unread]

end RunB

set_option maxHeartbeats 1000000 in
theorem runB (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x200x128 .f32) (harg8 : arg8.IsWhole) (arg9 : Memref sig .tc .vmem S10000x128 .bf16) (harg9 : arg9.IsWhole) (arg10 : Memref sig .tc .vmem S10000x128 .bf16) (harg10 : arg10.IsWhole)
    (hc1 : ¬cond1 i) (hc2 : k0_cond2 i = 1#1) (hc3 : ¬k0_cond3 i = 1#1) (o : ℕ) (hoff : k0_off1 i = ![o, 0])
    (a : Vec F S200x10000 .f32) (s : Vec F S10000x128 .bf16) (b1 : Vec F S1x128 .f32) (w2 : Vec F S128x128 .f32)
    (h10 : Vec F S10000x128 .bf16) (E : Set ℕ) (K : PUnit → sProp 𝕄) :
    iprop(owns (c : Thread nD τ) arg2 fullShare a ∗ owns (c : Thread nD τ) arg5 fullShare b1 ∗ owns (c : Thread nD τ) arg6 fullShare w2 ∗ (∃ d, owns (c : Thread nD τ) arg8 fullShare d) ∗ owns (c : Thread nD τ) arg9 fullShare s ∗ owns (c : Thread nD τ) arg10 fullShare h10
        ∗ (iprop(owns (c : Thread nD τ) arg2 fullShare a ∗ owns (c : Thread nD τ) arg5 fullShare b1 ∗ owns (c : Thread nD τ) arg6 fullShare w2 ∗ owns (c : Thread nD τ) arg8 fullShare (k0_pay5 a s b1 w2) ∗ owns (c : Thread nD τ) arg9 fullShare s
            ∗ owns (c : Thread nD τ) arg10 fullShare (rowsUpd h10 o (k0_pay4 a s b1 w2))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f2, %hf2, H2⟩, ⟨%f5, %hf5, H5⟩, ⟨%f6, %hf6, H6⟩, ⟨%d8, %f8, -, H8⟩, ⟨%f9, %hf9, H9⟩, ⟨%f10, %hf10, H10⟩, Hk⟩
  obtain rfl := harg2.eq_unread hf2; obtain rfl := harg5.eq_unread hf5; obtain rfl := harg6.eq_unread hf6
  obtain rfl := harg9.eq_unread hf9; obtain rfl := harg10.eq_unread hf10
  -- what each of the four whole-buffer loads reads: the owned contents
  have e2 := RunB.readAt_whole (F := F) arg2 harg2 RunB.zero2 inb_S200x10000_S200x10000_0_0 a
  have e9 := RunB.readAt_whole (F := F) arg9 harg9 RunB.zero2 inb_S10000x128_S10000x128_0_0 s
  have e5 := RunB.readAt_whole (F := F) arg5 harg5 RunB.zero2 inb_S1x128_S1x128_0_0 b1
  have e6 := RunB.readAt_whole (F := F) arg6 harg6 RunB.zero2 inb_S128x128_S128x128_0_0 w2
  sl_exec (disch := first | exact hc1 | exact hc2 | exact hc3)
  sl_step
  iapply Hk
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H8]
  · -- the result's block: one store through the whole buffer leaves its payload
    iexists _; isplitr; swap; · iexact H8
    ipureintro
    exact RunB.read_store_whole arg8 f8 RunB.zero3 _ _
  isplitl [H9]
  · iexists _; isplitr; · ipureintro; exact harg9.read_unread _
    iexact H9
  -- the kept rows: one store of the block at its rows over the old contents
  iexists _; isplitr; swap; · iexact H10
  ipureintro
  exact RunB.read_store_rows arg10 harg10 h10 hoff _ _

end Cert.Kernel.R0

end
-- ==== Proof.KB.Run0C.lean ====
/-
  The body at a point of the second pass: only the third branch runs. It loads the point's 200 rows of the adjacency matrix,
  the kept buffer whole and the second bias row, and stores `A_block · kept + b2` into the result's block; nothing else
  is touched.
-/
import proofs.«126728_g73796128079920_cont_9to1c4b_223_8_alg».proof.Proof.KB.Upd

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace RunC

/-- An offset of zeros, of rank 2 and of rank 3, is the zero function. -/
theorem zero2 : (![0, 0] : Fin 2 → ℕ) = fun _ => 0 := funext fun a => by match a with | ⟨0, _⟩ => rfl | ⟨1, _⟩ => rfl
theorem zero3 : (![0, 0, 0] : Fin 3 → ℕ) = fun _ => 0 := funext fun a => by match a with | ⟨0, _⟩ => rfl | ⟨1, _⟩ => rfl | ⟨2, _⟩ => rfl

/-- What the result's buffer reads after the one whole store of the third branch: the payload at the contents the three
    whole loads read, which are the owned contents themselves. -/
theorem read_storeC (arg2 : Memref sig .tc .vmem S200x10000 .f32) (harg2 : arg2.IsWhole) (arg7 : Memref sig .tc .vmem S1x128 .f32) (harg7 : arg7.IsWhole)
    (arg8 : Memref sig .tc .vmem S1x200x128 .f32) (arg10 : Memref sig .tc .vmem S10000x128 .bf16) (harg10 : arg10.IsWhole)
    (a : Vec F S200x10000 .f32) (b2 : Vec F S1x128 .f32) (h : Vec F S10000x128 .bf16) (f8 : arg8.view.ty.Contents (Elt F)) :
    arg8.view.read (Elt F) (arg8.view.writes (Elt F) f8
      [⟨Rect.unit ![0, 0, 0] S1x200x128.size inb_S1x200x128_S1x200x128_0_0_0,
          k0_pay6 (View.readAt (Elt F) arg2.view (Rect.unit ![0, 0] S200x10000.size inb_S200x10000_S200x10000_0_0).toLoadRect (harg2.unread a))
                  (View.readAt (Elt F) arg10.view (Rect.unit ![0, 0] S10000x128.size inb_S10000x128_S10000x128_0_0).toLoadRect (harg10.unread h))
                  (View.readAt (Elt F) arg7.view (Rect.unit ![0, 0] S1x128.size inb_S1x128_S1x128_0_0).toLoadRect (harg7.unread b2))⟩])
      = k0_pay6 a h b2 := by
  refine (View.read_writes_eq_canon _ _ _ (fun y => ⟨_, List.mem_singleton_self _, View.mem_set_unit_zero zero3 inb_S1x200x128_S1x200x128_0_0_0 y⟩)).trans ?_
  rw [View.canon_unit_zero zero3]
  simp only [View.readAt_eq_ld, harg2.read_unread, harg7.read_unread, harg10.read_unread,
    View.ld_unit_zero (S := S200x10000) zero2, View.ld_unit_zero (S := S10000x128) zero2, View.ld_unit_zero (S := S1x128) zero2]

end RunC

set_option maxHeartbeats 1000000 in
theorem runC (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x200x128 .f32) (harg8 : arg8.IsWhole) (arg9 : Memref sig .tc .vmem S10000x128 .bf16) (harg9 : arg9.IsWhole) (arg10 : Memref sig .tc .vmem S10000x128 .bf16) (harg10 : arg10.IsWhole)
    (hc1 : ¬cond1 i) (hc2 : ¬k0_cond2 i = 1#1) (hc3 : k0_cond3 i = 1#1)
    (a : Vec F S200x10000 .f32) (b2 : Vec F S1x128 .f32) (h : Vec F S10000x128 .bf16) (E : Set ℕ) (K : PUnit → sProp 𝕄) :
    iprop(owns (c : Thread nD τ) arg2 fullShare a ∗ owns (c : Thread nD τ) arg7 fullShare b2 ∗ (∃ d, owns (c : Thread nD τ) arg8 fullShare d) ∗ owns (c : Thread nD τ) arg10 fullShare h
        ∗ (iprop(owns (c : Thread nD τ) arg2 fullShare a ∗ owns (c : Thread nD τ) arg7 fullShare b2 ∗ owns (c : Thread nD τ) arg8 fullShare (k0_pay6 a h b2) ∗ owns (c : Thread nD τ) arg10 fullShare h) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f2, %hf2, H2⟩, ⟨%f7, %hf7, H7⟩, ⟨%d8, %f8, -, H8⟩, ⟨%f10, %hf10, H10⟩, Hk⟩
  obtain rfl := harg2.eq_unread hf2; obtain rfl := harg7.eq_unread hf7; obtain rfl := harg10.eq_unread hf10
  sl_exec (disch := first | exact hc1 | exact hc2 | exact hc3)
  sl_step
  iapply Hk
  isplitl [H2]
  · iexists _; isplitr; · ipureintro; exact harg2.read_unread _
    iexact H2
  isplitl [H7]
  · iexists _; isplitr; · ipureintro; exact harg7.read_unread _
    iexact H7
  isplitl [H8]
  · iexists _; isplitr; swap; · iexact H8
    ipureintro
    exact RunC.read_storeC arg2 harg2 arg7 harg7 arg8 arg10 harg10 a b2 h f8
  iexists _; isplitr; · ipureintro; exact harg10.read_unread _
  iexact H10

end Cert.Kernel.R0

end
-- ==== Proof.KB.Cases0.lean ====
/-
  Which branch of the body each grid point takes, and where it stores: decided over the 100 points. Point `t` has
  pass `t / 50` and block `t % 50`; the first branch is taken at point 0 only, the second at the first pass's points, the
  third at the second pass's; the rows a first-pass point stores into the kept buffer start at `200 · (t % 50)`; the result's
  window is never idle.
-/
import proofs.«126728_g73796128079920_cont_9to1c4b_223_8_alg».proof.Proof.KB.Defs0

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hcond1 : ∀ t : Fin cfg0.N, cond1 (grid0.coords t) ↔ t.val = 0 :=
  (by decide +kernel : ∀ t : Fin grid0.N, cond1 (grid0.coords t) ↔ t.val = 0)

theorem hcond2 : ∀ t : Fin cfg0.N, k0_cond2 (grid0.coords t) = 1#1 ↔ t.val < 50 :=
  (by decide +kernel : ∀ t : Fin grid0.N, k0_cond2 (grid0.coords t) = 1#1 ↔ t.val < 50)

theorem hcond3 : ∀ t : Fin cfg0.N, k0_cond3 (grid0.coords t) = 1#1 ↔ 50 ≤ t.val :=
  (by decide +kernel : ∀ t : Fin grid0.N, k0_cond3 (grid0.coords t) = 1#1 ↔ 50 ≤ t.val)

theorem hoff0 : ∀ t : Fin cfg0.N, k0_off1 (grid0.coords t) 0 = 200 * (t.val % 50) :=
  (by decide +kernel : ∀ t : Fin grid0.N, k0_off1 (grid0.coords t) 0 = 200 * (t.val % 50))

theorem hoff1 : ∀ t : Fin cfg0.N, k0_off1 (grid0.coords t) 1 = 0 :=
  (by decide +kernel : ∀ t : Fin grid0.N, k0_off1 (grid0.coords t) 1 = 0)

theorem hoff : ∀ t : Fin cfg0.N, k0_off1 (grid0.coords t) = ![200 * (t.val % 50), 0] := fun t =>
  funext fun a => by
    match a with
    | ⟨0, _⟩ => exact hoff0 t
    | ⟨1, _⟩ => exact hoff1 t

theorem hidle6 : ∀ t : Fin cfg0.N, cfg0.idle 6 (grid0.coords t) = false :=
  (by decide +kernel : ∀ t : Fin grid0.N, idle0 6 (grid0.coords t) = false)

end Cert.Kernel.R0

end
-- ==== Proof.KB.Dat0.lean ====
/-
  The first region's proof data. Between two points the kernel's own two buffers hold: the first, from the first point
  on, the product `X · W1`; the second, on the rows of the blocks the first pass has done so far, the rows of
  `relu (A · (X · W1) + b1) · W2` (after the first pass, on every row). Each operand's staging buffer holds the operand's
  block at every point; the result's holds what `out6` says. With that invariant every point's body runs: the first point
  by the run that also fills `X · W1`, the other points of the first pass by the run that reads it back, the second pass by
  the run that reads the finished rows.
-/
import proofs.«126728_g73796128079920_cont_9to1c4b_223_8_alg».proof.Proof.KB.Run0A
import proofs.«126728_g73796128079920_cont_9to1c4b_223_8_alg».proof.Proof.KB.Run0B
import proofs.«126728_g73796128079920_cont_9to1c4b_223_8_alg».proof.Proof.KB.Run0C
import proofs.«126728_g73796128079920_cont_9to1c4b_223_8_alg».proof.Proof.KB.Cases0

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The core's scoped buffers that the region neither stages nor keeps, each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The scoped buffers no window of the region stages are the kernel's own two and `others`. -/
theorem scopedRest_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ others (F := F) c) := by
  unfold others
  exact Pipeline.scopedRest_eq_of_list spec0 c [cc0_scratch0, cc0_scratch1, cc1_stg0_0, cc1_stg0_1, cc1_stg1_0, cc1_stg2_0, cc1_stg3_0, cc1_stg4_0, cc1_stg5_0, cc1_stg6_0, cc1_stg6_1, cc1_scratch0, cc1_scratch1] (by decide) (by decide)

/-- The invariant before point `n` (after point `n - 1`): the kept product named once a point has run, the kept rows named on the
    rows of the first `min n 50` blocks. -/
def PhiR (c : Dev nD) (n : ℕ) : sProp 𝕄 :=
  iprop((∃ f0 : Buf (Elt F) ((c : Thread nD τ).loc cc0_scratch0), (((c : Thread nD τ).loc cc0_scratch0) ↦{fullShare} f0) ∗ ⌜0 < n → f0 = S1 V c⌝)
    ∗ (∃ f1 : Buf (Elt F) ((c : Thread nD τ).loc cc0_scratch1), (((c : Thread nD τ).loc cc0_scratch1) ↦{fullShare} f1)
        ∗ ⌜∀ y : S10000x128.Idx, (y 0).val < 200 * min n 50 → f1 y = H2 V c y⌝)
    ∗ others (F := F) c)

/-- The proof data of the region on core `c`: the arrays as the region finds them; after the body at point `t` each operand's
    buffer at its block and the result's at `out6`; the invariant `PhiR`; nothing owed; full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 V c t
  Φ t := PhiR V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = iblk V c 4 t := by dsimp only [dat0]
theorem after0_5 (c : Dev nD) (t : Fin cfg0.N) : (dat0 V c).after 5 t = iblk V c 5 t := by dsimp only [dat0]
theorem after0_6 (c : Dev nD) (t : Fin cfg0.N) : (dat0 V c).after 6 t = out6 V c t := by dsimp only [dat0]

/-! ## What the body finds in each operand's staging buffer -/

/-- Operand window 0's current staging buffer holds its block at every point, fetched there or not: unfetched, the block
    index has not moved, and the body leaves the block in place. -/
theorem before_adj (c : Dev nD) (t : Fin cfg0.N) (d) : (dat0 V c).before 0 t d = iblk V c 0 t :=
  ((dat0 V c).before_in_eq_fetched 0 rfl (fun _ => rfl) (fun _ _ _ => rfl)
    (fun t => by rw [after0_0]; unfold Dat.blockOf iblk; rw [A_eq0]; try rfl) t d).trans
    (by unfold Dat.fetched Dat.blockOf iblk; rw [A_eq0]; try rfl)

/-- Operand window 1's current staging buffer holds its block at every point, fetched there or not: unfetched, the block
    index has not moved, and the body leaves the block in place. -/
theorem before_feat (c : Dev nD) (t : Fin cfg0.N) (d) : (dat0 V c).before 1 t d = iblk V c 1 t :=
  ((dat0 V c).before_in_eq_fetched 1 rfl (fun _ => rfl) (fun _ _ _ => rfl)
    (fun t => by rw [after0_1]; unfold Dat.blockOf iblk; rw [A_eq0]; try rfl) t d).trans
    (by unfold Dat.fetched Dat.blockOf iblk; rw [A_eq0]; try rfl)

/-- Operand window 2's current staging buffer holds its block at every point, fetched there or not: unfetched, the block
    index has not moved, and the body leaves the block in place. -/
theorem before_w1 (c : Dev nD) (t : Fin cfg0.N) (d) : (dat0 V c).before 2 t d = iblk V c 2 t :=
  ((dat0 V c).before_in_eq_fetched 2 rfl (fun _ => rfl) (fun _ _ _ => rfl)
    (fun t => by rw [after0_2]; unfold Dat.blockOf iblk; rw [A_eq0]; try rfl) t d).trans
    (by unfold Dat.fetched Dat.blockOf iblk; rw [A_eq0]; try rfl)

/-- Operand window 3's current staging buffer holds its block at every point, fetched there or not: unfetched, the block
    index has not moved, and the body leaves the block in place. -/
theorem before_b1 (c : Dev nD) (t : Fin cfg0.N) (d) : (dat0 V c).before 3 t d = iblk V c 3 t :=
  ((dat0 V c).before_in_eq_fetched 3 rfl (fun _ => rfl) (fun _ _ _ => rfl)
    (fun t => by rw [after0_3]; unfold Dat.blockOf iblk; rw [A_eq0]; try rfl) t d).trans
    (by unfold Dat.fetched Dat.blockOf iblk; rw [A_eq0]; try rfl)

/-- Operand window 4's current staging buffer holds its block at every point, fetched there or not: unfetched, the block
    index has not moved, and the body leaves the block in place. -/
theorem before_w2 (c : Dev nD) (t : Fin cfg0.N) (d) : (dat0 V c).before 4 t d = iblk V c 4 t :=
  ((dat0 V c).before_in_eq_fetched 4 rfl (fun _ => rfl) (fun _ _ _ => rfl)
    (fun t => by rw [after0_4]; unfold Dat.blockOf iblk; rw [A_eq0]; try rfl) t d).trans
    (by unfold Dat.fetched Dat.blockOf iblk; rw [A_eq0]; try rfl)

/-- Operand window 5's current staging buffer holds its block at every point, fetched there or not: unfetched, the block
    index has not moved, and the body leaves the block in place. -/
theorem before_b2 (c : Dev nD) (t : Fin cfg0.N) (d) : (dat0 V c).before 5 t d = iblk V c 5 t :=
  ((dat0 V c).before_in_eq_fetched 5 rfl (fun _ => rfl) (fun _ _ _ => rfl)
    (fun t => by rw [after0_5]; unfold Dat.blockOf iblk; rw [A_eq0]; try rfl) t d).trans
    (by unfold Dat.fetched Dat.blockOf iblk; rw [A_eq0]; try rfl)

/-! ## The kept buffers across a point -/

/-- The invariant with the kernel's own two buffers in owned form. -/
theorem PhiR_eq (c : Dev nD) (n : ℕ) :
    PhiR V c n = iprop((∃ f0 : Vec F S10000x128 .bf16, owns (c : Thread nD τ) (Memref.whole cc0_scratch0) fullShare f0 ∗ ⌜0 < n → f0 = S1 V c⌝)
      ∗ (∃ f1 : Vec F S10000x128 .bf16, owns (c : Thread nD τ) (Memref.whole cc0_scratch1) fullShare f1
          ∗ ⌜∀ y : S10000x128.Idx, (y 0).val < 200 * min n 50 → f1 y = H2 V c y⌝)
      ∗ others (F := F) c) := by
  unfold PhiR; simp only [owns_whole]; rfl

/-- A point of the first pass stores its block's rows of the second layer's support at rows `200 · t`: the kept rows, named
    on the blocks before `t`, are then named on the blocks up to `t`. -/
theorem rows_step (c : Dev nD) (f1 : Vec F S10000x128 .bf16) (t : Fin cfg0.N) (ht : t.val < 50)
    (hP : ∀ y : S10000x128.Idx, (y 0).val < 200 * t.val → f1 y = H2 V c y) :
    ∀ y : S10000x128.Idx, (y 0).val < 200 * (t.val + 1) →
      rowsUpd f1 (200 * (t.val % 50)) (k0_pay4 (adjB V c t) (S1 V c) (b1B V c t) (w2B V c t)) y = H2 V c y := by
  intro y hy
  have hmod : t.val % 50 = t.val := Nat.mod_eq_of_lt ht
  unfold rowsUpd
  by_cases h : 200 * (t.val % 50) ≤ (y 0).val ∧ (y 0).val < 200 * (t.val % 50) + 200
  · rw [dif_pos h]
    have hpt : rowPt y = t := Fin.ext (by show (y 0).val / 200 = t.val; omega)
    unfold H2 rowLoc
    rw [hpt]
    congr 2
    apply Fin.ext
    show (y 0).val - 200 * (t.val % 50) = (y 0).val % 200
    omega
  · rw [dif_neg h]
    exact hP y (by omega)

/-- What the result's block holds after a point of the first pass, and after one of the second. -/
theorem out6_lt (c : Dev nD) (t : Fin cfg0.N) (ht : t.val < 50) :
    out6 V c t = k0_pay5 (adjB V c t) (S1 V c) (b1B V c t) (w2B V c t) := by
  unfold out6; rw [if_pos ht]
theorem out6_ge (c : Dev nD) (t : Fin cfg0.N) (ht : 50 ≤ t.val) :
    out6 V c t = k0_pay6 (adjB V c t) (H2 V c) (b2B V c t) := by
  unfold out6; rw [if_neg (Nat.not_lt.mpr ht)]

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point. The operands' buffers hold their blocks; the invariant says what the kernel's own two buffers hold.
    At the first point the body fills the product and the first block's rows; at the other points of the first pass it reads
    the product back and fills its block's rows; in the second pass it reads the finished rows. Each time the invariant
    of the next point holds, and the result's block is what `out6` says. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_adj, before_feat, before_w1, before_b1, before_w2, before_b2]
  rw [show (dat0 V c).Φ t.castSucc = PhiR V c t.val from rfl, show (dat0 V c).Φ t.succ = PhiR V c (t.val + 1) from rfl,
    show (dat0 V c).owesAt () t.succ = (dat0 V c).owesAt () t.castSucc from rfl,
    after0_0, after0_1, after0_2, after0_3, after0_4, after0_5, after0_6, PhiR_eq, PhiR_eq]
  iintro ⟨⟨⟨%f0, Hs, %hf0⟩, ⟨%f1, Hk, %hf1⟩, Hoth⟩, Ho, ⟨%d0, Ha⟩, ⟨%d1, Hx⟩, ⟨%d2, Hw1⟩, ⟨%d3, Hb1⟩, ⟨%d4, Hw2⟩, ⟨%d5, Hb2⟩, ⟨%d6, Hr⟩⟩
  rcases Nat.eq_zero_or_pos t.val with h0 | h0
  · -- the first point: the product is made here, from the operands as the first point finds them
    have hc1 : cond1 (grid0.coords t) := (hcond1 t).mpr h0
    have hc2 : k0_cond2 (grid0.coords t) = 1#1 := (hcond2 t).mpr (by omega)
    have hc3 : ¬k0_cond3 (grid0.coords t) = 1#1 := fun h => by have := (hcond3 t).mp h; omega
    have ht : t.val < 50 := by omega
    have hS : k0_pay1 (featB V c t) (w1B V c t) = S1 V c := by unfold S1; rw [show t = t0 from Fin.ext h0]
    rw [out6_lt V c t ht]
    iapply (runA c (grid0.coords t) _ _ _ _ _ _ _ _ _ _ _ _ _ _ _ _ _ _ hc1 hc2 hc3 (200 * (t.val % 50)) (hoff t)
      (adjB V c t) (featB V c t) (w1B V c t) (b1B V c t) (w2B V c t) f1 Set.univ _)
    isplitl [Ha]; · iexact Ha
    isplitl [Hx]; · iexact Hx
    isplitl [Hw1]; · iexact Hw1
    isplitl [Hb1]; · iexact Hb1
    isplitl [Hw2]; · iexact Hw2
    isplitl [Hr]; · iexists _; iexact Hr
    isplitl [Hs]; · iexists _; iexact Hs
    isplitl [Hk]; · iexact Hk
    rw [hS]
    iintro ⟨Ha, Hx, Hw1, Hb1, Hw2, Hr, Hs, Hk⟩
    isplitl [Hs Hk Hoth]
    · isplitl [Hs]
      · iexists _; isplitl [Hs]; · iexact Hs
        ipureintro; intro _; rfl
      isplitl [Hk]
      · iexists _; isplitl [Hk]; · iexact Hk
        ipureintro; intro y hy
        exact rows_step V c f1 t ht (fun y hy => hf1 y (by omega)) y (by omega)
      iexact Hoth
    isplitl [Ho]; · iexact Ho
    isplitl [Ha]; · iexact Ha
    isplitl [Hx]; · iexact Hx
    isplitl [Hw1]; · iexact Hw1
    isplitl [Hb1]; · iexact Hb1
    isplitl [Hw2]; · iexact Hw2
    isplitl [Hb2]; · iexact Hb2
    iexact Hr
  rcases Nat.lt_or_ge t.val 50 with h50 | h50
  · -- another point of the first pass: the product is read back
    have hc1 : ¬cond1 (grid0.coords t) := fun h => by have := (hcond1 t).mp h; omega
    have hc2 : k0_cond2 (grid0.coords t) = 1#1 := (hcond2 t).mpr h50
    have hc3 : ¬k0_cond3 (grid0.coords t) = 1#1 := fun h => by have := (hcond3 t).mp h; omega
    obtain rfl := hf0 h0
    rw [out6_lt V c t h50]
    iapply (runB c (grid0.coords t) _ _ _ _ _ _ _ _ _ _ _ _ _ _ _ _ _ _ hc1 hc2 hc3 (200 * (t.val % 50)) (hoff t)
      (adjB V c t) (S1 V c) (b1B V c t) (w2B V c t) f1 Set.univ _)
    isplitl [Ha]; · iexact Ha
    isplitl [Hb1]; · iexact Hb1
    isplitl [Hw2]; · iexact Hw2
    isplitl [Hr]; · iexists _; iexact Hr
    isplitl [Hs]; · iexact Hs
    isplitl [Hk]; · iexact Hk
    iintro ⟨Ha, Hb1, Hw2, Hr, Hs, Hk⟩
    isplitl [Hs Hk Hoth]
    · isplitl [Hs]
      · iexists _; isplitl [Hs]; · iexact Hs
        ipureintro; intro _; rfl
      isplitl [Hk]
      · iexists _; isplitl [Hk]; · iexact Hk
        ipureintro; intro y hy
        exact rows_step V c f1 t h50 (fun y hy => hf1 y (by omega)) y (by omega)
      iexact Hoth
    isplitl [Ho]; · iexact Ho
    isplitl [Ha]; · iexact Ha
    isplitl [Hx]; · iexact Hx
    isplitl [Hw1]; · iexact Hw1
    isplitl [Hb1]; · iexact Hb1
    isplitl [Hw2]; · iexact Hw2
    isplitl [Hb2]; · iexact Hb2
    iexact Hr
  · -- a point of the second pass: every row of the kept buffer is named
    have hc1 : ¬cond1 (grid0.coords t) := fun h => by have := (hcond1 t).mp h; omega
    have hc2 : ¬k0_cond2 (grid0.coords t) = 1#1 := fun h => by have := (hcond2 t).mp h; omega
    have hc3 : k0_cond3 (grid0.coords t) = 1#1 := (hcond3 t).mpr h50
    obtain rfl : f1 = H2 V c := funext fun y => hf1 y (by have := row_lt y; omega)
    rw [out6_ge V c t h50]
    iapply (runC c (grid0.coords t) _ _ _ _ _ _ _ _ _ _ _ _ _ _ _ _ _ _ hc1 hc2 hc3
      (adjB V c t) (b2B V c t) (H2 V c) Set.univ _)
    isplitl [Ha]; · iexact Ha
    isplitl [Hb2]; · iexact Hb2
    isplitl [Hr]; · iexists _; iexact Hr
    isplitl [Hk]; · iexact Hk
    iintro ⟨Ha, Hb2, Hr, Hk⟩
    isplitl [Hs Hk Hoth]
    · isplitl [Hs]
      · iexists _; isplitl [Hs]; · iexact Hs
        ipureintro; intro _; exact hf0 (by omega)
      isplitl [Hk]
      · iexists _; isplitl [Hk]; · iexact Hk
        ipureintro; intro y _; rfl
      iexact Hoth
    isplitl [Ho]; · iexact Ho
    isplitl [Ha]; · iexact Ha
    isplitl [Hx]; · iexact Hx
    isplitl [Hw1]; · iexact Hw1
    isplitl [Hb1]; · iexact Hb1
    isplitl [Hw2]; · iexact Hw2
    isplitl [Hb2]; · iexact Hb2
    iexact Hr

/-- The body obligation at every point. -/
theorem body_obligation0 (c : Dev nD) : BodyObligation (dat0 (F := F) V c) (defs₀ (F := F)) Variants.none () Set.univ := fun t => by
  rw [bigSep_W0, bigSep_W0]
  rw [hidle6 t]
  exact sound_body V c t

/-- What the region's entry hands the kernel is the invariant before the first point. -/
theorem hin0 (c : Dev nD) :
    (Pipeline.scopedRest (Ix := Unit) (Name := ℕ) (U := UR sig nD τ) (Lvl := ℕ) (Val := Elt F) spec0 c : sProp 𝕄) ⊢ (dat0 V c).Φ 0 := by
  rw [scopedRest_split, show (dat0 V c).Φ 0 = PhiR V c 0 from rfl]
  unfold PhiR
  iintro ⟨⟨%f0, H0⟩, ⟨%f1, H1⟩, Ho⟩
  isplitl [H0]
  · iexists f0; isplitl [H0]; · iexact H0
    ipureintro; intro h; exact absurd h (Nat.lt_irrefl 0)
  isplitl [H1]
  · iexists f1; isplitl [H1]; · iexact H1
    ipureintro; intro y hy; omega
  iexact Ho

/-- The invariant after the last point gives the scoped buffers back, their contents forgotten. -/
theorem hout0 (c : Dev nD) :
    (dat0 V c).Φ (Fin.last cfg0.N) ⊢ (Pipeline.scopedRest (Ix := Unit) (Name := ℕ) (U := UR sig nD τ) (Lvl := ℕ) (Val := Elt F) spec0 c : sProp 𝕄) := by
  rw [scopedRest_split, show (dat0 V c).Φ (Fin.last cfg0.N) = PhiR V c cfg0.N from rfl]
  unfold PhiR
  iintro ⟨⟨%f0, H0, -⟩, ⟨%f1, H1, -⟩, Ho⟩
  isplitl [H0]; · iexists f0; iexact H0
  isplitl [H1]; · iexists f1; iexact H1
  iexact Ho

end Cert.Kernel.R0

end
-- ==== Proof.KB.Defs1.lean ====
/-
  The first graph convolution's kernel region, as mathematics. The grid has 100 points: point `t < 50` is block `t` of the
  first pass, point `50 + m` is block `m` of the second pass. A block is 200 rows of the adjacency matrix. The first
  pass computes, block by block, the rows of `relu (A · (X · W1) + b1) · W2`, keeps them in a buffer the kernel owns
  between points, and also writes them to half 0 of the result; the second pass computes the rows of
  `A · (that buffer) + b2` into half 1 of the result. Named here: each operand's block at a point, the product `X · W1`
  the first point leaves, the rows the first pass has left after all its points, and what the result's block holds after
  each point.
-/
import proofs.«126728_g73796128079920_cont_9to1c4b_223_8_alg».proof.Proof.Gen.Kernel.Launch
import proofs.«126728_g73796128079920_cont_9to1c4b_223_8_alg».proof.Proof.Gen.Kernel.Skeleton
import proofs.«126728_g73796128079920_cont_9to1c4b_223_8_alg».proof.Proof.Gen.Kernel.Points
import Idealize.ShloMosaic.Lib.Pipeline.FrameBody
import Idealize.ShloMosaic.Lib.Pipeline.Value
import Idealize.ShloMosaic.Lib.ValueIdx
import Idealize.ShloMosaic.Lib.WritesUnit
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

-- the TensorCore's buffer contents when the region is entered
variable (V : (c : Dev nD) → (b : Ref sig .tc) → Buf (Elt F) ((c : Thread nD τ).loc b))

/-- The condition of the body's first branch (the first point of the first pass), from the grid coordinates. -/
abbrev cond1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The six operands' blocks at a point, at their literal types: 200 rows of the adjacency matrix; the features, the two
    weight matrices and the two bias rows whole. -/
abbrev adjB (c : Dev nD) (t : Fin cfg1.N) : Vec F S200x10000 .f32 := iblk V c 0 t
abbrev featB (c : Dev nD) (t : Fin cfg1.N) : Vec F S10000x128 .f32 := iblk V c 1 t
abbrev w1B (c : Dev nD) (t : Fin cfg1.N) : Vec F S128x128 .f32 := iblk V c 2 t
abbrev b1B (c : Dev nD) (t : Fin cfg1.N) : Vec F S1x128 .f32 := iblk V c 3 t
abbrev w2B (c : Dev nD) (t : Fin cfg1.N) : Vec F S128x128 .f32 := iblk V c 4 t
abbrev b2B (c : Dev nD) (t : Fin cfg1.N) : Vec F S1x128 .f32 := iblk V c 5 t

/-- The first point. -/
def t0 : Fin cfg1.N := ⟨0, by decide⟩

/-- `X · W1`, as the first point computes and keeps it. -/
def S1 (c : Dev nD) : Vec F S10000x128 .bf16 := k1_pay1 (featB V c t0) (w1B V c t0)

theorem row_lt (y : S10000x128.Idx) : (y 0).val < 10000 := (y 0).isLt
theorem col_lt (y : S10000x128.Idx) : (y 1).val < 128 := (y 1).isLt

/-- The point of the first pass whose block holds row `y 0`, and the row's place in that block. -/
def rowPt (y : S10000x128.Idx) : Fin cfg1.N := ⟨(y 0).val / 200, by have := row_lt y; have : cfg1.N = 100 := N_1; omega⟩
def rowLoc (y : S10000x128.Idx) : S200x128.Idx :=
  ix2 (⟨(y 0).val % 200, Nat.mod_lt _ (by decide)⟩ : Fin 200) (⟨(y 1).val, col_lt y⟩ : Fin 128)

/-- The rows the first pass leaves in the buffer it keeps: row `y 0` is computed at point `rowPt y` from that point's 200
    rows of the adjacency matrix. -/
def H2 (c : Dev nD) : Vec F S10000x128 .bf16 :=
  fun y => k1_pay4 (adjB V c (rowPt y)) (S1 V c) (b1B V c (rowPt y)) (w2B V c (rowPt y)) (rowLoc y)

/-- What the result's block holds after point `t`: in the first pass the block's rows of the second layer's support, in the
    second pass the block's rows of the network's output. -/
def out6 (c : Dev nD) (t : Fin cfg1.N) : Vec F S1x200x128 .f32 :=
  if t.val < 50 then k1_pay5 (adjB V c t) (S1 V c) (b1B V c t) (w2B V c t)
  else k1_pay6 (adjB V c t) (H2 V c) (b2B V c t)

end Cert.Kernel.R1

end
-- ==== Proof.KB.Upd1.lean ====
/-
  A buffer of 10000 rows after a block of 200 rows has been stored into it at row `o`: the block's entries on rows
  `[o, o + 200)`, the old entries elsewhere.
-/
import proofs.«126728_g73796128079920_cont_9to1c4b_223_8_alg».proof.Proof.KB.Defs1

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- `old` with the 200 rows from row `o` replaced by the block `p`. -/
def rowsUpd (old : Vec F S10000x128 .bf16) (o : ℕ) (p : Vec F S200x128 .bf16) : Vec F S10000x128 .bf16 :=
  fun y => if h : o ≤ (y 0).val ∧ (y 0).val < o + 200 then
      p (ix2 (⟨(y 0).val - o, by omega⟩ : Fin 200) (⟨(y 1).val, col_lt y⟩ : Fin 128))
    else old y

end Cert.Kernel.R1

end
-- ==== Proof.KB.Run1A.lean ====
/-
  The body at the first point: the first branch computes `X · W1` from the features and `W1` and stores it (narrowed)
  into the buffer kept for it; then the second branch runs as at every point of the first pass, reading that product
  back: the block `relu (A_block · (X · W1) + b1) · W2` goes (narrowed) into the kept rows buffer at the block's rows and
  (as computed) into the result's block.
-/
import proofs.«126728_g73796128079920_cont_9to1c4b_223_8_alg».proof.Proof.KB.Upd1

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace RunA

open Idealize.ShloMosaic.ValueIdx

theorem zeros2 : (![0, 0] : Fin 2 → ℕ) = fun _ => 0 := by funext a; fin_cases a <;> rfl
theorem zeros3 : (![0, 0, 0] : Fin 3 → ℕ) = fun _ => 0 := by funext a; fin_cases a <;> rfl

/-- A whole memref read through the whole-shape rectangle at zero offsets reads its contents. -/
theorem readAt_whole {S : Shape} {e : EltTy} (m : Memref sig .tc .vmem S e) (hm : m.IsWhole) {off : Fin S.rank → ℕ}
    (hz : off = fun _ => 0) (inb : ∀ a, off a + S.size a ≤ S.size a) (X : Vec F S e) :
    View.readAt (Elt F) m.view (Rect.unit off S.size inb).toLoadRect (hm.unread X) = X := by
  rw [View.readAt_eq_ld, hm.read_unread, View.ld_unit_zero hz]

/-- One store through the whole-shape rectangle at zero offsets, last, leaves its payload. -/
theorem read_writes_whole {S : Shape} {e : EltTy} (m : Memref sig .tc .vmem S e) (f : m.view.ty.Contents (Elt F)) {off : Fin S.rank → ℕ}
    (hz : off = fun _ => 0) (inb : ∀ a, off a + S.size a ≤ S.size a) (w : S.Idx → Elt F e) (L : List (View.Piece (Elt F) S e)) :
    m.view.read (Elt F) (m.view.writes (Elt F) f (⟨Rect.unit off S.size inb, w⟩ :: L)) = w :=
  (View.read_writes_eq_canon _ _ _ (fun y => ⟨_, List.mem_cons_self, View.mem_set_unit_zero hz inb y⟩)).trans
    (View.canon_cons_unit_zero hz inb w L)

/-- A block of 200 rows stored at row `o` over whole contents reads as the contents with those rows replaced. -/
theorem read_writes_rows (m : Memref sig .tc .vmem S10000x128 .bf16) (hm : m.IsWhole) (h10 : Vec F S10000x128 .bf16)
    {off : Fin 2 → ℕ} {o : ℕ} (hoff : off = ![o, 0]) (inb : ∀ a : Fin 2, off a + S200x128.size a ≤ S10000x128.size a)
    (p : Vec F S200x128 .bf16) :
    m.view.read (Elt F) (m.view.writes (Elt F) (hm.unread h10) [⟨Rect.unit (s := S10000x128) off S200x128.size inb, p⟩])
      = rowsUpd h10 o p := by
  funext y
  rw [View.read_writes_cons_rows (v := m.view) (f := hm.unread h10) inb p [] y hoff (W := 200) rfl rfl]
  unfold rowsUpd
  by_cases h : o ≤ (y 0).val ∧ (y 0).val < o + 200
  · rw [dif_pos h, dif_pos h]
    refine congrArg p (funext fun a => Fin.ext ?_)
    rw [Rect.unitLocal_val]
    fin_cases a
    · rfl
    · show (y 1).val - 0 = (y 1).val
      omega
  · rw [dif_neg h, dif_neg h, View.writes_nil, hm.read_unread]

end RunA

open RunA in
set_option maxHeartbeats 1000000 in
theorem runA (c : Dev nD) (i : grid1.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x200x128 .f32) (harg8 : arg8.IsWhole) (arg9 : Memref sig .tc .vmem S10000x128 .bf16) (harg9 : arg9.IsWhole) (arg10 : Memref sig .tc .vmem S10000x128 .bf16) (harg10 : arg10.IsWhole)
    (hc1 : cond1 i) (hc2 : k1_cond2 i = 1#1) (hc3 : ¬k1_cond3 i = 1#1) (o : ℕ) (hoff : k1_off1 i = ![o, 0])
    (a : Vec F S200x10000 .f32) (x : Vec F S10000x128 .f32) (w1 : Vec F S128x128 .f32) (b1 : Vec F S1x128 .f32) (w2 : Vec F S128x128 .f32)
    (h10 : Vec F S10000x128 .bf16) (E : Set ℕ) (K : PUnit → sProp 𝕄) :
    iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2 ∗ (∃ d, owns (c : Thread nD τ) arg8 fullShare d) ∗ (∃ d, owns (c : Thread nD τ) arg9 fullShare d) ∗ owns (c : Thread nD τ) arg10 fullShare h10
        ∗ (iprop(owns (c : Thread nD τ) arg2 fullShare a ∗ owns (c : Thread nD τ) arg3 fullShare x ∗ owns (c : Thread nD τ) arg4 fullShare w1 ∗ owns (c : Thread nD τ) arg5 fullShare b1 ∗ owns (c : Thread nD τ) arg6 fullShare w2
            ∗ owns (c : Thread nD τ) arg8 fullShare (k1_pay5 a (k1_pay1 x w1) b1 w2) ∗ owns (c : Thread nD τ) arg9 fullShare (k1_pay1 x w1)
            ∗ owns (c : Thread nD τ) arg10 fullShare (rowsUpd h10 o (k1_pay4 a (k1_pay1 x w1) b1 w2))) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9 arg10 harg10) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg10.eq_unread hf10
  -- each operand, loaded whole, reads as the contents owned
  have e2 := readAt_whole arg2 harg2 zeros2 inb_S200x10000_S200x10000_0_0 a
  have e3 := readAt_whole arg3 harg3 zeros2 inb_S10000x128_S10000x128_0_0 x
  have e4 := readAt_whole arg4 harg4 zeros2 inb_S128x128_S128x128_0_0 w1
  have e5 := readAt_whole arg5 harg5 zeros2 inb_S1x128_S1x128_0_0 b1
  have e6 := readAt_whole arg6 harg6 zeros2 inb_S128x128_S128x128_0_0 w2
  sl_exec (disch := first | exact hc1 | exact hc2 | exact hc3)
  sl_step
  iapply Hk
  -- the five operands are as they were
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  -- the result's block: one whole store; the product read back is the product stored
  isplitl [H8]
  · iexists _; isplitr; swap; · iexact H8
    ipureintro
    sl_unfold_run_names
    rw [read_writes_whole arg8 f8 zeros3, View.readCov_unit_zero _ zeros2]
  -- the product's buffer: one whole store
  isplitl [H9]
  · iexists _; isplitr; swap; · iexact H9
    ipureintro
    sl_unfold_run_names
    exact read_writes_whole arg9 f9 zeros2 _ _ []
  -- the kept rows: the block's 200 rows replaced
  iexists _; isplitr; swap; · iexact H10
  ipureintro
  sl_unfold_run_names
  rw [View.readCov_unit_zero _ zeros2]
  exact read_writes_rows arg10 harg10 h10 hoff _ _

end Cert.Kernel.R1

end
-- ==== Proof.KB.Run1B.lean ====
/-
  The body at a point of the first pass other than the first: only the second branch runs. It loads the point's 200 rows of
  the adjacency matrix, the kept product `X · W1`, the first bias row and `W2`, computes the block
  `relu (A_block · (X · W1) + b1) · W2`, stores it (narrowed) into the kept rows buffer at the block's rows and (as
  computed) into the result's block.
-/
import proofs.«126728_g73796128079920_cont_9to1c4b_223_8_alg».proof.Proof.KB.Upd1

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

namespace RunB

/-- A load of a whole buffer through the full rectangle at zero offsets reads the buffer's contents. -/
theorem readAt_whole {S : Shape} {e : EltTy} (m : Memref sig .tc .vmem S e) (hm : m.IsWhole) {off : Fin S.rank → ℕ}
    (hz : off = fun _ => 0) (inb : ∀ a, off a + S.size a ≤ S.size a) (X : Vec F S e) :
    View.readAt (Elt F) m.view (Rect.unit (s := S) off S.size inb).toLoadRect (hm.unread X) = X := by
  rw [View.readAt_eq_ld, hm.read_unread, View.ld_unit_zero hz]

theorem zero2 : (![0, 0] : Fin 2 → ℕ) = fun _ => 0 :=
  funext fun a => by match a with | ⟨0, _⟩ => rfl | ⟨1, _⟩ => rfl

theorem zero3 : (![0, 0, 0] : Fin 3 → ℕ) = fun _ => 0 :=
  funext fun a => by match a with | ⟨0, _⟩ => rfl | ⟨1, _⟩ => rfl | ⟨2, _⟩ => rfl

/-- One store through the full rectangle at zero offsets leaves its payload, whatever was there. -/
theorem read_store_whole {S : Shape} {e : EltTy} (m : Memref sig .tc .vmem S e) (f : m.view.ty.Contents (Elt F))
    {off : Fin S.rank → ℕ} (hz : off = fun _ => 0) (inb : ∀ a, off a + S.size a ≤ S.size a) (w : Vec F S e) :
    m.view.read (Elt F) (m.view.writes (Elt F) f [(⟨Rect.unit (s := S) off S.size inb, w⟩ : View.Piece (Elt F) S e)]) = w := by
  refine (View.read_writes_eq_canon _ _ _ (fun y => ⟨_, List.mem_singleton_self _, View.mem_set_unit_zero hz inb y⟩)).trans ?_
  exact View.canon_unit_zero hz inb w

/-- One store of a block of 200 whole rows at row `o` into a whole buffer reading `h10` leaves `rowsUpd h10 o` of the block. -/
theorem read_store_rows (m : Memref sig .tc .vmem S10000x128 .bf16) (hm : m.IsWhole) (h10 : Vec F S10000x128 .bf16)
    {off : Fin 2 → ℕ} {o : ℕ} (hoff : off = ![o, 0]) (inb : ∀ a, off a + S200x128.size a ≤ S10000x128.size a)
    (p : Vec F S200x128 .bf16) :
    m.view.read (Elt F) (m.view.writes (Elt F) (hm.unread h10)
        [(⟨Rect.unit (s := S10000x128) off S200x128.size inb, p⟩ : View.Piece (Elt F) S10000x128 .bf16)])
      = rowsUpd h10 o p := by
  funext y
  rw [View.read_writes_cons_rows m.view (hm.unread h10) inb p [] y hoff (W := 200) rfl rfl]
  unfold rowsUpd
  by_cases h : o ≤ (y 0).val ∧ (y 0).val < o + 200
  · rw [dif_pos h, dif_pos h]
    refine congrArg p (funext fun a => ?_)
    match a with
    | ⟨0, _⟩ => exact Fin.ext (by show (y 0).val - (![o, 0] : Fin 2 → ℕ) 0 = (y 0).val - o; rfl)
    | ⟨1, _⟩ => exact Fin.ext (by show (y 1).val - (![o, 0] : Fin 2 → ℕ) 1 = (y 1).val; exact Nat.sub_zero _)
  · rw [dif_neg h, dif_neg h, View.writes_nil, hm.read_unread]

end RunB

set_option maxHeartbeats 1000000 in
theorem runB (c : Dev nD) (i : grid1.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x200x128 .f32) (harg8 : arg8.IsWhole) (arg9 : Memref sig .tc .vmem S10000x128 .bf16) (harg9 : arg9.IsWhole) (arg10 : Memref sig .tc .vmem S10000x128 .bf16) (harg10 : arg10.IsWhole)
    (hc1 : ¬cond1 i) (hc2 : k1_cond2 i = 1#1) (hc3 : ¬k1_cond3 i = 1#1) (o : ℕ) (hoff : k1_off1 i = ![o, 0])
    (a : Vec F S200x10000 .f32) (s : Vec F S10000x128 .bf16) (b1 : Vec F S1x128 .f32) (w2 : Vec F S128x128 .f32)
    (h10 : Vec F S10000x128 .bf16) (E : Set ℕ) (K : PUnit → sProp 𝕄) :
    iprop(owns (c : Thread nD τ) arg2 fullShare a ∗ owns (c : Thread nD τ) arg5 fullShare b1 ∗ owns (c : Thread nD τ) arg6 fullShare w2 ∗ (∃ d, owns (c : Thread nD τ) arg8 fullShare d) ∗ owns (c : Thread nD τ) arg9 fullShare s ∗ owns (c : Thread nD τ) arg10 fullShare h10
        ∗ (iprop(owns (c : Thread nD τ) arg2 fullShare a ∗ owns (c : Thread nD τ) arg5 fullShare b1 ∗ owns (c : Thread nD τ) arg6 fullShare w2 ∗ owns (c : Thread nD τ) arg8 fullShare (k1_pay5 a s b1 w2) ∗ owns (c : Thread nD τ) arg9 fullShare s
            ∗ owns (c : Thread nD τ) arg10 fullShare (rowsUpd h10 o (k1_pay4 a s b1 w2))) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9 arg10 harg10) K := by
  simp only [cc1__gcn_kernel_eq_skeleton]; unfold cc1__gcn_kernel_skel
  unfold owns
  iintro ⟨⟨%f2, %hf2, H2⟩, ⟨%f5, %hf5, H5⟩, ⟨%f6, %hf6, H6⟩, ⟨%d8, %f8, -, H8⟩, ⟨%f9, %hf9, H9⟩, ⟨%f10, %hf10, H10⟩, Hk⟩
  obtain rfl := harg2.eq_unread hf2; obtain rfl := harg5.eq_unread hf5; obtain rfl := harg6.eq_unread hf6
  obtain rfl := harg9.eq_unread hf9; obtain rfl := harg10.eq_unread hf10
  -- what each of the four whole-buffer loads reads: the owned contents
  have e2 := RunB.readAt_whole (F := F) arg2 harg2 RunB.zero2 inb_S200x10000_S200x10000_0_0 a
  have e9 := RunB.readAt_whole (F := F) arg9 harg9 RunB.zero2 inb_S10000x128_S10000x128_0_0 s
  have e5 := RunB.readAt_whole (F := F) arg5 harg5 RunB.zero2 inb_S1x128_S1x128_0_0 b1
  have e6 := RunB.readAt_whole (F := F) arg6 harg6 RunB.zero2 inb_S128x128_S128x128_0_0 w2
  sl_exec (disch := first | exact hc1 | exact hc2 | exact hc3)
  sl_step
  iapply Hk
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H8]
  · -- the result's block: one store through the whole buffer leaves its payload
    iexists _; isplitr; swap; · iexact H8
    ipureintro
    exact RunB.read_store_whole arg8 f8 RunB.zero3 _ _
  isplitl [H9]
  · iexists _; isplitr; · ipureintro; exact harg9.read_unread _
    iexact H9
  -- the kept rows: one store of the block at its rows over the old contents
  iexists _; isplitr; swap; · iexact H10
  ipureintro
  exact RunB.read_store_rows arg10 harg10 h10 hoff _ _

end Cert.Kernel.R1

end
-- ==== Proof.KB.Run1C.lean ====
/-
  The body at a point of the second pass: only the third branch runs. It loads the point's 200 rows of the adjacency matrix,
  the kept buffer whole and the second bias row, and stores `A_block · kept + b2` into the result's block; nothing else
  is touched.
-/
import proofs.«126728_g73796128079920_cont_9to1c4b_223_8_alg».proof.Proof.KB.Upd1

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace RunC

/-- An offset of zeros, of rank 2 and of rank 3, is the zero function. -/
theorem zero2 : (![0, 0] : Fin 2 → ℕ) = fun _ => 0 := funext fun a => by match a with | ⟨0, _⟩ => rfl | ⟨1, _⟩ => rfl
theorem zero3 : (![0, 0, 0] : Fin 3 → ℕ) = fun _ => 0 := funext fun a => by match a with | ⟨0, _⟩ => rfl | ⟨1, _⟩ => rfl | ⟨2, _⟩ => rfl

/-- What the result's buffer reads after the one whole store of the third branch: the payload at the contents the three
    whole loads read, which are the owned contents themselves. -/
theorem read_storeC (arg2 : Memref sig .tc .vmem S200x10000 .f32) (harg2 : arg2.IsWhole) (arg7 : Memref sig .tc .vmem S1x128 .f32) (harg7 : arg7.IsWhole)
    (arg8 : Memref sig .tc .vmem S1x200x128 .f32) (arg10 : Memref sig .tc .vmem S10000x128 .bf16) (harg10 : arg10.IsWhole)
    (a : Vec F S200x10000 .f32) (b2 : Vec F S1x128 .f32) (h : Vec F S10000x128 .bf16) (f8 : arg8.view.ty.Contents (Elt F)) :
    arg8.view.read (Elt F) (arg8.view.writes (Elt F) f8
      [⟨Rect.unit ![0, 0, 0] S1x200x128.size inb_S1x200x128_S1x200x128_0_0_0,
          k1_pay6 (View.readAt (Elt F) arg2.view (Rect.unit ![0, 0] S200x10000.size inb_S200x10000_S200x10000_0_0).toLoadRect (harg2.unread a))
                  (View.readAt (Elt F) arg10.view (Rect.unit ![0, 0] S10000x128.size inb_S10000x128_S10000x128_0_0).toLoadRect (harg10.unread h))
                  (View.readAt (Elt F) arg7.view (Rect.unit ![0, 0] S1x128.size inb_S1x128_S1x128_0_0).toLoadRect (harg7.unread b2))⟩])
      = k1_pay6 a h b2 := by
  refine (View.read_writes_eq_canon _ _ _ (fun y => ⟨_, List.mem_singleton_self _, View.mem_set_unit_zero zero3 inb_S1x200x128_S1x200x128_0_0_0 y⟩)).trans ?_
  rw [View.canon_unit_zero zero3]
  simp only [View.readAt_eq_ld, harg2.read_unread, harg7.read_unread, harg10.read_unread,
    View.ld_unit_zero (S := S200x10000) zero2, View.ld_unit_zero (S := S10000x128) zero2, View.ld_unit_zero (S := S1x128) zero2]

end RunC

set_option maxHeartbeats 1000000 in
theorem runC (c : Dev nD) (i : grid1.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x200x128 .f32) (harg8 : arg8.IsWhole) (arg9 : Memref sig .tc .vmem S10000x128 .bf16) (harg9 : arg9.IsWhole) (arg10 : Memref sig .tc .vmem S10000x128 .bf16) (harg10 : arg10.IsWhole)
    (hc1 : ¬cond1 i) (hc2 : ¬k1_cond2 i = 1#1) (hc3 : k1_cond3 i = 1#1)
    (a : Vec F S200x10000 .f32) (b2 : Vec F S1x128 .f32) (h : Vec F S10000x128 .bf16) (E : Set ℕ) (K : PUnit → sProp 𝕄) :
    iprop(owns (c : Thread nD τ) arg2 fullShare a ∗ owns (c : Thread nD τ) arg7 fullShare b2 ∗ (∃ d, owns (c : Thread nD τ) arg8 fullShare d) ∗ owns (c : Thread nD τ) arg10 fullShare h
        ∗ (iprop(owns (c : Thread nD τ) arg2 fullShare a ∗ owns (c : Thread nD τ) arg7 fullShare b2 ∗ owns (c : Thread nD τ) arg8 fullShare (k1_pay6 a h b2) ∗ owns (c : Thread nD τ) arg10 fullShare h) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9 arg10 harg10) K := by
  simp only [cc1__gcn_kernel_eq_skeleton]; unfold cc1__gcn_kernel_skel
  unfold owns
  iintro ⟨⟨%f2, %hf2, H2⟩, ⟨%f7, %hf7, H7⟩, ⟨%d8, %f8, -, H8⟩, ⟨%f10, %hf10, H10⟩, Hk⟩
  obtain rfl := harg2.eq_unread hf2; obtain rfl := harg7.eq_unread hf7; obtain rfl := harg10.eq_unread hf10
  sl_exec (disch := first | exact hc1 | exact hc2 | exact hc3)
  sl_step
  iapply Hk
  isplitl [H2]
  · iexists _; isplitr; · ipureintro; exact harg2.read_unread _
    iexact H2
  isplitl [H7]
  · iexists _; isplitr; · ipureintro; exact harg7.read_unread _
    iexact H7
  isplitl [H8]
  · iexists _; isplitr; swap; · iexact H8
    ipureintro
    exact RunC.read_storeC arg2 harg2 arg7 harg7 arg8 arg10 harg10 a b2 h f8
  iexists _; isplitr; · ipureintro; exact harg10.read_unread _
  iexact H10

end Cert.Kernel.R1

end
-- ==== Proof.KB.Cases1.lean ====
/-
  Which branch of the body each grid point takes, and where it stores: decided over the 100 points. Point `t` has
  pass `t / 50` and block `t % 50`; the first branch is taken at point 0 only, the second at the first pass's points, the
  third at the second pass's; the rows a first-pass point stores into the kept buffer start at `200 · (t % 50)`; the result's
  window is never idle.
-/
import proofs.«126728_g73796128079920_cont_9to1c4b_223_8_alg».proof.Proof.KB.Defs1

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hcond1 : ∀ t : Fin cfg1.N, cond1 (grid1.coords t) ↔ t.val = 0 :=
  (by decide +kernel : ∀ t : Fin grid1.N, cond1 (grid1.coords t) ↔ t.val = 0)

theorem hcond2 : ∀ t : Fin cfg1.N, k1_cond2 (grid1.coords t) = 1#1 ↔ t.val < 50 :=
  (by decide +kernel : ∀ t : Fin grid1.N, k1_cond2 (grid1.coords t) = 1#1 ↔ t.val < 50)

theorem hcond3 : ∀ t : Fin cfg1.N, k1_cond3 (grid1.coords t) = 1#1 ↔ 50 ≤ t.val :=
  (by decide +kernel : ∀ t : Fin grid1.N, k1_cond3 (grid1.coords t) = 1#1 ↔ 50 ≤ t.val)

theorem hoff0 : ∀ t : Fin cfg1.N, k1_off1 (grid1.coords t) 0 = 200 * (t.val % 50) :=
  (by decide +kernel : ∀ t : Fin grid1.N, k1_off1 (grid1.coords t) 0 = 200 * (t.val % 50))

theorem hoff1 : ∀ t : Fin cfg1.N, k1_off1 (grid1.coords t) 1 = 0 :=
  (by decide +kernel : ∀ t : Fin grid1.N, k1_off1 (grid1.coords t) 1 = 0)

theorem hoff : ∀ t : Fin cfg1.N, k1_off1 (grid1.coords t) = ![200 * (t.val % 50), 0] := fun t =>
  funext fun a => by
    match a with
    | ⟨0, _⟩ => exact hoff0 t
    | ⟨1, _⟩ => exact hoff1 t

theorem hidle6 : ∀ t : Fin cfg1.N, cfg1.idle 6 (grid1.coords t) = false :=
  (by decide +kernel : ∀ t : Fin grid1.N, idle1 6 (grid1.coords t) = false)

end Cert.Kernel.R1

end
-- ==== Proof.KB.Dat1.lean ====
/-
  The first region's proof data. Between two points the kernel's own two buffers hold: the first, from the first point
  on, the product `X · W1`; the second, on the rows of the blocks the first pass has done so far, the rows of
  `relu (A · (X · W1) + b1) · W2` (after the first pass, on every row). Each operand's staging buffer holds the operand's
  block at every point; the result's holds what `out6` says. With that invariant every point's body runs: the first point
  by the run that also fills `X · W1`, the other points of the first pass by the run that reads it back, the second pass by
  the run that reads the finished rows.
-/
import proofs.«126728_g73796128079920_cont_9to1c4b_223_8_alg».proof.Proof.KB.Run1A
import proofs.«126728_g73796128079920_cont_9to1c4b_223_8_alg».proof.Proof.KB.Run1B
import proofs.«126728_g73796128079920_cont_9to1c4b_223_8_alg».proof.Proof.KB.Run1C
import proofs.«126728_g73796128079920_cont_9to1c4b_223_8_alg».proof.Proof.KB.Cases1

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The core's scoped buffers that the region neither stages nor keeps, each whole at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The scoped buffers no window of the region stages are the kernel's own two and `others`. -/
theorem scopedRest_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ others (F := F) c) := by
  unfold others
  exact Pipeline.scopedRest_eq_of_list spec1 c [cc1_scratch0, cc1_scratch1, cc0_stg0_0, cc0_stg0_1, cc0_stg1_0, cc0_stg2_0, cc0_stg3_0, cc0_stg4_0, cc0_stg5_0, cc0_stg6_0, cc0_stg6_1, cc0_scratch0, cc0_scratch1] (by decide) (by decide)

/-- The invariant before point `n` (after point `n - 1`): the kept product named once a point has run, the kept rows named on the
    rows of the first `min n 50` blocks. -/
def PhiR (c : Dev nD) (n : ℕ) : sProp 𝕄 :=
  iprop((∃ f0 : Buf (Elt F) ((c : Thread nD τ).loc cc1_scratch0), (((c : Thread nD τ).loc cc1_scratch0) ↦{fullShare} f0) ∗ ⌜0 < n → f0 = S1 V c⌝)
    ∗ (∃ f1 : Buf (Elt F) ((c : Thread nD τ).loc cc1_scratch1), (((c : Thread nD τ).loc cc1_scratch1) ↦{fullShare} f1)
        ∗ ⌜∀ y : S10000x128.Idx, (y 0).val < 200 * min n 50 → f1 y = H2 V c y⌝)
    ∗ others (F := F) c)

/-- The proof data of the region on core `c`: the arrays as the region finds them; after the body at point `t` each operand's
    buffer at its block and the result's at `out6`; the invariant `PhiR`; nothing owed; full shares. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 V c t
  Φ t := PhiR V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk V c 0 t := by dsimp only [dat1]
theorem after1_1 (c : Dev nD) (t : Fin cfg1.N) : (dat1 V c).after 1 t = iblk V c 1 t := by dsimp only [dat1]
theorem after1_2 (c : Dev nD) (t : Fin cfg1.N) : (dat1 V c).after 2 t = iblk V c 2 t := by dsimp only [dat1]
theorem after1_3 (c : Dev nD) (t : Fin cfg1.N) : (dat1 V c).after 3 t = iblk V c 3 t := by dsimp only [dat1]
theorem after1_4 (c : Dev nD) (t : Fin cfg1.N) : (dat1 V c).after 4 t = iblk V c 4 t := by dsimp only [dat1]
theorem after1_5 (c : Dev nD) (t : Fin cfg1.N) : (dat1 V c).after 5 t = iblk V c 5 t := by dsimp only [dat1]
theorem after1_6 (c : Dev nD) (t : Fin cfg1.N) : (dat1 V c).after 6 t = out6 V c t := by dsimp only [dat1]

/-! ## What the body finds in each operand's staging buffer -/

/-- Operand window 0's current staging buffer holds its block at every point, fetched there or not: unfetched, the block
    index has not moved, and the body leaves the block in place. -/
theorem before_adj (c : Dev nD) (t : Fin cfg1.N) (d) : (dat1 V c).before 0 t d = iblk V c 0 t :=
  ((dat1 V c).before_in_eq_fetched 0 rfl (fun _ => rfl) (fun _ _ _ => rfl)
    (fun t => by rw [after1_0]; unfold Dat.blockOf iblk; rw [A_eq1]; try rfl) t d).trans
    (by unfold Dat.fetched Dat.blockOf iblk; rw [A_eq1]; try rfl)

/-- Operand window 1's current staging buffer holds its block at every point, fetched there or not: unfetched, the block
    index has not moved, and the body leaves the block in place. -/
theorem before_feat (c : Dev nD) (t : Fin cfg1.N) (d) : (dat1 V c).before 1 t d = iblk V c 1 t :=
  ((dat1 V c).before_in_eq_fetched 1 rfl (fun _ => rfl) (fun _ _ _ => rfl)
    (fun t => by rw [after1_1]; unfold Dat.blockOf iblk; rw [A_eq1]; try rfl) t d).trans
    (by unfold Dat.fetched Dat.blockOf iblk; rw [A_eq1]; try rfl)

/-- Operand window 2's current staging buffer holds its block at every point, fetched there or not: unfetched, the block
    index has not moved, and the body leaves the block in place. -/
theorem before_w1 (c : Dev nD) (t : Fin cfg1.N) (d) : (dat1 V c).before 2 t d = iblk V c 2 t :=
  ((dat1 V c).before_in_eq_fetched 2 rfl (fun _ => rfl) (fun _ _ _ => rfl)
    (fun t => by rw [after1_2]; unfold Dat.blockOf iblk; rw [A_eq1]; try rfl) t d).trans
    (by unfold Dat.fetched Dat.blockOf iblk; rw [A_eq1]; try rfl)

/-- Operand window 3's current staging buffer holds its block at every point, fetched there or not: unfetched, the block
    index has not moved, and the body leaves the block in place. -/
theorem before_b1 (c : Dev nD) (t : Fin cfg1.N) (d) : (dat1 V c).before 3 t d = iblk V c 3 t :=
  ((dat1 V c).before_in_eq_fetched 3 rfl (fun _ => rfl) (fun _ _ _ => rfl)
    (fun t => by rw [after1_3]; unfold Dat.blockOf iblk; rw [A_eq1]; try rfl) t d).trans
    (by unfold Dat.fetched Dat.blockOf iblk; rw [A_eq1]; try rfl)

/-- Operand window 4's current staging buffer holds its block at every point, fetched there or not: unfetched, the block
    index has not moved, and the body leaves the block in place. -/
theorem before_w2 (c : Dev nD) (t : Fin cfg1.N) (d) : (dat1 V c).before 4 t d = iblk V c 4 t :=
  ((dat1 V c).before_in_eq_fetched 4 rfl (fun _ => rfl) (fun _ _ _ => rfl)
    (fun t => by rw [after1_4]; unfold Dat.blockOf iblk; rw [A_eq1]; try rfl) t d).trans
    (by unfold Dat.fetched Dat.blockOf iblk; rw [A_eq1]; try rfl)

/-- Operand window 5's current staging buffer holds its block at every point, fetched there or not: unfetched, the block
    index has not moved, and the body leaves the block in place. -/
theorem before_b2 (c : Dev nD) (t : Fin cfg1.N) (d) : (dat1 V c).before 5 t d = iblk V c 5 t :=
  ((dat1 V c).before_in_eq_fetched 5 rfl (fun _ => rfl) (fun _ _ _ => rfl)
    (fun t => by rw [after1_5]; unfold Dat.blockOf iblk; rw [A_eq1]; try rfl) t d).trans
    (by unfold Dat.fetched Dat.blockOf iblk; rw [A_eq1]; try rfl)

/-! ## The kept buffers across a point -/

/-- The invariant with the kernel's own two buffers in owned form. -/
theorem PhiR_eq (c : Dev nD) (n : ℕ) :
    PhiR V c n = iprop((∃ f0 : Vec F S10000x128 .bf16, owns (c : Thread nD τ) (Memref.whole cc1_scratch0) fullShare f0 ∗ ⌜0 < n → f0 = S1 V c⌝)
      ∗ (∃ f1 : Vec F S10000x128 .bf16, owns (c : Thread nD τ) (Memref.whole cc1_scratch1) fullShare f1
          ∗ ⌜∀ y : S10000x128.Idx, (y 0).val < 200 * min n 50 → f1 y = H2 V c y⌝)
      ∗ others (F := F) c) := by
  unfold PhiR; simp only [owns_whole]; rfl

/-- A point of the first pass stores its block's rows of the second layer's support at rows `200 · t`: the kept rows, named
    on the blocks before `t`, are then named on the blocks up to `t`. -/
theorem rows_step (c : Dev nD) (f1 : Vec F S10000x128 .bf16) (t : Fin cfg1.N) (ht : t.val < 50)
    (hP : ∀ y : S10000x128.Idx, (y 0).val < 200 * t.val → f1 y = H2 V c y) :
    ∀ y : S10000x128.Idx, (y 0).val < 200 * (t.val + 1) →
      rowsUpd f1 (200 * (t.val % 50)) (k1_pay4 (adjB V c t) (S1 V c) (b1B V c t) (w2B V c t)) y = H2 V c y := by
  intro y hy
  have hmod : t.val % 50 = t.val := Nat.mod_eq_of_lt ht
  unfold rowsUpd
  by_cases h : 200 * (t.val % 50) ≤ (y 0).val ∧ (y 0).val < 200 * (t.val % 50) + 200
  · rw [dif_pos h]
    have hpt : rowPt y = t := Fin.ext (by show (y 0).val / 200 = t.val; omega)
    unfold H2 rowLoc
    rw [hpt]
    congr 2
    apply Fin.ext
    show (y 0).val - 200 * (t.val % 50) = (y 0).val % 200
    omega
  · rw [dif_neg h]
    exact hP y (by omega)

/-- What the result's block holds after a point of the first pass, and after one of the second. -/
theorem out6_lt (c : Dev nD) (t : Fin cfg1.N) (ht : t.val < 50) :
    out6 V c t = k1_pay5 (adjB V c t) (S1 V c) (b1B V c t) (w2B V c t) := by
  unfold out6; rw [if_pos ht]
theorem out6_ge (c : Dev nD) (t : Fin cfg1.N) (ht : 50 ≤ t.val) :
    out6 V c t = k1_pay6 (adjB V c t) (H2 V c) (b2B V c t) := by
  unfold out6; rw [if_neg (Nat.not_lt.mpr ht)]

/-! ## The body obligation, at a generic point -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at any point. The operands' buffers hold their blocks; the invariant says what the kernel's own two buffers hold.
    At the first point the body fills the product and the first block's rows; at the other points of the first pass it reads
    the product back and fills its block's rows; in the second pass it reads the finished rows. Each time the invariant
    of the next point holds, and the result's block is what `out6` says. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_adj, before_feat, before_w1, before_b1, before_w2, before_b2]
  rw [show (dat1 V c).Φ t.castSucc = PhiR V c t.val from rfl, show (dat1 V c).Φ t.succ = PhiR V c (t.val + 1) from rfl,
    show (dat1 V c).owesAt () t.succ = (dat1 V c).owesAt () t.castSucc from rfl,
    after1_0, after1_1, after1_2, after1_3, after1_4, after1_5, after1_6, PhiR_eq, PhiR_eq]
  iintro ⟨⟨⟨%f0, Hs, %hf0⟩, ⟨%f1, Hk, %hf1⟩, Hoth⟩, Ho, ⟨%d0, Ha⟩, ⟨%d1, Hx⟩, ⟨%d2, Hw1⟩, ⟨%d3, Hb1⟩, ⟨%d4, Hw2⟩, ⟨%d5, Hb2⟩, ⟨%d6, Hr⟩⟩
  rcases Nat.eq_zero_or_pos t.val with h0 | h0
  · -- the first point: the product is made here, from the operands as the first point finds them
    have hc1 : cond1 (grid1.coords t) := (hcond1 t).mpr h0
    have hc2 : k1_cond2 (grid1.coords t) = 1#1 := (hcond2 t).mpr (by omega)
    have hc3 : ¬k1_cond3 (grid1.coords t) = 1#1 := fun h => by have := (hcond3 t).mp h; omega
    have ht : t.val < 50 := by omega
    have hS : k1_pay1 (featB V c t) (w1B V c t) = S1 V c := by unfold S1; rw [show t = t0 from Fin.ext h0]
    rw [out6_lt V c t ht]
    iapply (runA c (grid1.coords t) _ _ _ _ _ _ _ _ _ _ _ _ _ _ _ _ _ _ hc1 hc2 hc3 (200 * (t.val % 50)) (hoff t)
      (adjB V c t) (featB V c t) (w1B V c t) (b1B V c t) (w2B V c t) f1 Set.univ _)
    isplitl [Ha]; · iexact Ha
    isplitl [Hx]; · iexact Hx
    isplitl [Hw1]; · iexact Hw1
    isplitl [Hb1]; · iexact Hb1
    isplitl [Hw2]; · iexact Hw2
    isplitl [Hr]; · iexists _; iexact Hr
    isplitl [Hs]; · iexists _; iexact Hs
    isplitl [Hk]; · iexact Hk
    rw [hS]
    iintro ⟨Ha, Hx, Hw1, Hb1, Hw2, Hr, Hs, Hk⟩
    isplitl [Hs Hk Hoth]
    · isplitl [Hs]
      · iexists _; isplitl [Hs]; · iexact Hs
        ipureintro; intro _; rfl
      isplitl [Hk]
      · iexists _; isplitl [Hk]; · iexact Hk
        ipureintro; intro y hy
        exact rows_step V c f1 t ht (fun y hy => hf1 y (by omega)) y (by omega)
      iexact Hoth
    isplitl [Ho]; · iexact Ho
    isplitl [Ha]; · iexact Ha
    isplitl [Hx]; · iexact Hx
    isplitl [Hw1]; · iexact Hw1
    isplitl [Hb1]; · iexact Hb1
    isplitl [Hw2]; · iexact Hw2
    isplitl [Hb2]; · iexact Hb2
    iexact Hr
  rcases Nat.lt_or_ge t.val 50 with h50 | h50
  · -- another point of the first pass: the product is read back
    have hc1 : ¬cond1 (grid1.coords t) := fun h => by have := (hcond1 t).mp h; omega
    have hc2 : k1_cond2 (grid1.coords t) = 1#1 := (hcond2 t).mpr h50
    have hc3 : ¬k1_cond3 (grid1.coords t) = 1#1 := fun h => by have := (hcond3 t).mp h; omega
    obtain rfl := hf0 h0
    rw [out6_lt V c t h50]
    iapply (runB c (grid1.coords t) _ _ _ _ _ _ _ _ _ _ _ _ _ _ _ _ _ _ hc1 hc2 hc3 (200 * (t.val % 50)) (hoff t)
      (adjB V c t) (S1 V c) (b1B V c t) (w2B V c t) f1 Set.univ _)
    isplitl [Ha]; · iexact Ha
    isplitl [Hb1]; · iexact Hb1
    isplitl [Hw2]; · iexact Hw2
    isplitl [Hr]; · iexists _; iexact Hr
    isplitl [Hs]; · iexact Hs
    isplitl [Hk]; · iexact Hk
    iintro ⟨Ha, Hb1, Hw2, Hr, Hs, Hk⟩
    isplitl [Hs Hk Hoth]
    · isplitl [Hs]
      · iexists _; isplitl [Hs]; · iexact Hs
        ipureintro; intro _; rfl
      isplitl [Hk]
      · iexists _; isplitl [Hk]; · iexact Hk
        ipureintro; intro y hy
        exact rows_step V c f1 t h50 (fun y hy => hf1 y (by omega)) y (by omega)
      iexact Hoth
    isplitl [Ho]; · iexact Ho
    isplitl [Ha]; · iexact Ha
    isplitl [Hx]; · iexact Hx
    isplitl [Hw1]; · iexact Hw1
    isplitl [Hb1]; · iexact Hb1
    isplitl [Hw2]; · iexact Hw2
    isplitl [Hb2]; · iexact Hb2
    iexact Hr
  · -- a point of the second pass: every row of the kept buffer is named
    have hc1 : ¬cond1 (grid1.coords t) := fun h => by have := (hcond1 t).mp h; omega
    have hc2 : ¬k1_cond2 (grid1.coords t) = 1#1 := fun h => by have := (hcond2 t).mp h; omega
    have hc3 : k1_cond3 (grid1.coords t) = 1#1 := (hcond3 t).mpr h50
    obtain rfl : f1 = H2 V c := funext fun y => hf1 y (by have := row_lt y; omega)
    rw [out6_ge V c t h50]
    iapply (runC c (grid1.coords t) _ _ _ _ _ _ _ _ _ _ _ _ _ _ _ _ _ _ hc1 hc2 hc3
      (adjB V c t) (b2B V c t) (H2 V c) Set.univ _)
    isplitl [Ha]; · iexact Ha
    isplitl [Hb2]; · iexact Hb2
    isplitl [Hr]; · iexists _; iexact Hr
    isplitl [Hk]; · iexact Hk
    iintro ⟨Ha, Hb2, Hr, Hk⟩
    isplitl [Hs Hk Hoth]
    · isplitl [Hs]
      · iexists _; isplitl [Hs]; · iexact Hs
        ipureintro; intro _; exact hf0 (by omega)
      isplitl [Hk]
      · iexists _; isplitl [Hk]; · iexact Hk
        ipureintro; intro y _; rfl
      iexact Hoth
    isplitl [Ho]; · iexact Ho
    isplitl [Ha]; · iexact Ha
    isplitl [Hx]; · iexact Hx
    isplitl [Hw1]; · iexact Hw1
    isplitl [Hb1]; · iexact Hb1
    isplitl [Hw2]; · iexact Hw2
    isplitl [Hb2]; · iexact Hb2
    iexact Hr

/-- The body obligation at every point. -/
theorem body_obligation1 (c : Dev nD) : BodyObligation (dat1 (F := F) V c) (defs₀ (F := F)) Variants.none () Set.univ := fun t => by
  rw [bigSep_W1, bigSep_W1]
  rw [hidle6 t]
  exact sound_body V c t

/-- What the region's entry hands the kernel is the invariant before the first point. -/
theorem hin1 (c : Dev nD) :
    (Pipeline.scopedRest (Ix := Unit) (Name := ℕ) (U := UR sig nD τ) (Lvl := ℕ) (Val := Elt F) spec1 c : sProp 𝕄) ⊢ (dat1 V c).Φ 0 := by
  rw [scopedRest_split, show (dat1 V c).Φ 0 = PhiR V c 0 from rfl]
  unfold PhiR
  iintro ⟨⟨%f0, H0⟩, ⟨%f1, H1⟩, Ho⟩
  isplitl [H0]
  · iexists f0; isplitl [H0]; · iexact H0
    ipureintro; intro h; exact absurd h (Nat.lt_irrefl 0)
  isplitl [H1]
  · iexists f1; isplitl [H1]; · iexact H1
    ipureintro; intro y hy; omega
  iexact Ho

/-- The invariant after the last point gives the scoped buffers back, their contents forgotten. -/
theorem hout1 (c : Dev nD) :
    (dat1 V c).Φ (Fin.last cfg1.N) ⊢ (Pipeline.scopedRest (Ix := Unit) (Name := ℕ) (U := UR sig nD τ) (Lvl := ℕ) (Val := Elt F) spec1 c : sProp 𝕄) := by
  rw [scopedRest_split, show (dat1 V c).Φ (Fin.last cfg1.N) = PhiR V c cfg1.N from rfl]
  unfold PhiR
  iintro ⟨⟨%f0, H0, -⟩, ⟨%f1, H1, -⟩, Ho⟩
  isplitl [H0]; · iexists f0; iexact H0
  isplitl [H1]; · iexists f1; iexact H1
  iexact Ho

end Cert.Kernel.R1

end
-- ==== Proof.KB.Vals.lean ====
/-
  What the core's unscoped buffers hold at each boundary between two items of the program: as launched; after the two
  bias reshapes; after the first kernel region (its result array at what the region's write-backs leave, everything else
  as entered); after the slice and reshapes that make the first result and the second region's bias rows; after the
  second kernel region; after the slice and reshape that make the second result.
-/
import proofs.«126728_g73796128079920_cont_9to1c4b_223_8_alg».proof.Proof.KB.Dat0
import proofs.«126728_g73796128079920_cont_9to1c4b_223_8_alg».proof.Proof.KB.Dat1
import Idealize.ShloMosaic.Lib.Pipeline.FrameSuffix
import Idealize.ShloMosaic.Lib.Pipeline.RegionsLoop

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the two bias reshapes (the first region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (R0.dat0 (V1 m) c).arrAt w cfg0.N
theorem W2_arr (c : Dev nD) (w : Fin cfg0.W) :
    W2 m c (Proc.devRef .tc (Pipeline.arrRef spec0 w)) = (R0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the first result's slice and reshape and the second pair of bias reshapes (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (R1.dat1 (V3 m) c).arrAt w cfg1.N
theorem W4_arr (c : Dev nD) (w : Fin cfg1.W) :
    W4 m c (Proc.devRef .tc (Pipeline.arrRef spec1 w)) = (R1.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
/-- After the second result's slice and reshape: the end. -/
abbrev W5 : Dev nD → Valuation τ sig (Elt F) := fun c => StableHlo.after hostOps2 (W4 m c)

end Cert.Kernel.Run

end
-- ==== Proof.KB.Launch.lean ====
/-
  The whole program from the launch to the return. Between two of its five items (host operations, the first kernel
  region, host operations, the second kernel region, host operations) every core holds each of its unscoped buffers whole
  at the boundary's contents, beside its generator register at some state and nothing owed. A kernel region takes its seven
  arrays out of the unscoped buffers, hands its invariant the scoped buffers no window stages, and puts the arrays back at
  what its write-backs made of them; the generator register and the buffers that are no array of the region pass it by.
  The launch makes the first such state on every core; the last one is read against the final memory.
-/
import proofs.«126728_g73796128079920_cont_9to1c4b_223_8_alg».proof.Proof.KB.Dat0
import proofs.«126728_g73796128079920_cont_9to1c4b_223_8_alg».proof.Proof.KB.Dat1
import proofs.«126728_g73796128079920_cont_9to1c4b_223_8_alg».proof.Proof.KB.Vals
import proofs.«126728_g73796128079920_cont_9to1c4b_223_8_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run
import Idealize.ShloMosaic.Lib.Pipeline.Value

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What a kernel region leaves: its arrays at the write-backs' result, every other buffer as entered -/

theorem hF0 (c : Dev nD) (w : Fin cfg0.W) : (R0.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (R1.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The proof data of both regions and the thread state -/

/-- Both regions' proof data, each at the contents its region is entered from. -/
def pdats : (p : Fin 2) → (c : Dev nD) → Dat τ (Elt F) Unit ℕ (UR sig nD τ) ℕ (Pipeline.pin (pcfgs (F := F)) adm p) c
  | ⟨0, _⟩ => fun c => R0.dat0 (V1 m) c
  | ⟨1, _⟩ => fun c => R1.dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A stretch of host operations as a segment: over the unscoped references from the contents `W`, `R` riding along;
    it leaves those references at the operations applied to `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those held between two items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W5 m c) ∗ ∃ r, prngReg c r)

/-! ## The kernel regions as segments -/

set_option backward.isDefEq.respectTransparency.types false in
/-- KERNEL REGION 0 over the thread state: entered from every unscoped buffer at `W1`, left at `W2`. Its seven arrays
    are split out of the unscoped buffers and put back at what the write-backs leave; the invariant takes the scoped
    buffers no window stages and gives them back; the generator register and the other unscoped buffers pass the region
    by; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(emp)
  Y c := iprop(emp)
  Z c := iprop(Pipeline.unscopedRest (Ix := Unit) (Name := ℕ) (U := UR sig nD τ) (Lvl := ℕ) spec0 c (V1 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = (R0.dat0 (V1 m) c).Φ 0 from rfl]
    iintro ⟨-, -, Hr⟩
    iapply (R0.hin0 (V1 m) c)
    iexact Hr
  hout c := by
    rw [Pipeline.ownSems0_none, show (pdats m 0 c).Φ (Fin.last _) = (R0.dat0 (V1 m) c).Φ (Fin.last cfg0.N) from rfl]
    iintro H
    isplitr; · iempintro
    isplitr; · iempintro
    iapply (R0.hout0 (V1 m) c)
    iexact H
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- KERNEL REGION 1 over the thread state: entered from every unscoped buffer at `W3`, left at `W4`. Its seven arrays
    are split out of the unscoped buffers and put back at what the write-backs leave; the invariant takes the scoped
    buffers no window stages and gives them back; the generator register and the other unscoped buffers pass the region
    by; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(emp)
  Y c := iprop(emp)
  Z c := iprop(Pipeline.unscopedRest (Ix := Unit) (Name := ℕ) (U := UR sig nD τ) (Lvl := ℕ) spec1 c (V3 m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = (R1.dat1 (V3 m) c).Φ 0 from rfl]
    iintro ⟨-, -, Hr⟩
    iapply (R1.hin1 (V3 m) c)
    iexact Hr
  hout c := by
    rw [Pipeline.ownSems0_none, show (pdats m 1 c).Φ (Fin.last _) = (R1.dat1 (V3 m) c).Φ (Fin.last cfg1.N) from rfl]
    iintro H
    isplitr; · iempintro
    isplitr; · iempintro
    iapply (R1.hout1 (V3 m) c)
    iexact H
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The program as segments, and the launch -/

/-- The program's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- The program IS the run of the segments: it is the chain of its items, and the segments' run is the same chain. -/
theorem main_run (c : Dev nD) : main (F := F) c = Pipeline.Seg.run (segs m) := (main_chain c).trans (by chain_rfl)

set_option backward.isDefEq.respectTransparency.types false in
/-- THE RUN: from any memory with zero counters every weakly fair execution of the program terminates, and every final
    memory holds each unscoped buffer of each core at the last boundary's contents. -/
theorem run_main (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Run

end
-- ==== Proof.KB.Reads.lean ====
/-
  The core's buffers read back at the boundaries of the program: every argument reaches the end as launched (no host
  operation writes one, a region reads it through an input window or does not touch it); the two results are the slices
  `[1, :, :]` of the regions' result arrays, reshaped; the bias rows the regions read are the bias vectors, reshaped.
-/
import proofs.«126728_g73796128079920_cont_9to1c4b_223_8_alg».proof.Proof.KB.Vals
import proofs.«126728_g73796128079920_cont_9to1c4b_223_8_alg».proof.Proof.Gen.Kernel.Regions
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

namespace Reads

/-! ## What each item leaves of a buffer it does not write -/

theorem W1_of (c : Dev nD) (r : Ref sig .tc) (h : r ∉ hostOps0_W) :
    W1 m c (Proc.devRef .tc r) = W0 m c (Proc.devRef .tc r) :=
  StableHlo.after_of_writes_sub hostOps0 _ hostOps0_writes h
theorem W3_of (c : Dev nD) (r : Ref sig .tc) (h : r ∉ hostOps1_W) :
    W3 m c (Proc.devRef .tc r) = W2 m c (Proc.devRef .tc r) :=
  StableHlo.after_of_writes_sub hostOps1 _ hostOps1_writes h
theorem W5_of (c : Dev nD) (r : Ref sig .tc) (h : r ∉ hostOps2_W) :
    W5 m c (Proc.devRef .tc r) = W4 m c (Proc.devRef .tc r) :=
  StableHlo.after_of_writes_sub hostOps2 _ hostOps2_writes h

/-- An input window's array leaves the first region as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((R0.dat0 (V1 m) c).arrAt_in w hw _).trans (R0.A_eq0 (V1 m) c w))
/-- An input window's array leaves the second region as it entered. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((R1.dat1 (V3 m) c).arrAt_in w hw _).trans (R1.A_eq1 (V3 m) c w))

/-- What the first region and the two reshapes before it leave of a bias vector the second region's rows are made of. -/
theorem W2_bias (c : Dev nD) (r : Ref sig .tc) (h2 : ∀ w, Pipeline.arrRef spec0 w ≠ r) (h0 : r ∉ hostOps0_W) :
    W2 m c (Proc.devRef .tc r) = m ((c : Thread nD τ).loc r) :=
  (W2_of_ne m c r h2).trans (W1_of m c r h0)

/-! ## A half of a result array, reshaped -/

/-- The slice `[1, :, :]` of a `[2, 10000, 128]` array, reshaped to `[10000, 128]`, reads at `(r, j)` the array at `(1, r, j)`. -/
theorem half1_apply (X : S2x10000x128.Idx → Elt F .f32) (r : Fin 10000) (j : Fin 128) :
    shapeCast S10000x128 (extractStridedSlice S1x10000x128 ![1, 0, 0] X slices_S2x10000x128_S1x10000x128_1_0_0)
        shapeCasts_S1x10000x128_S10000x128 (ix2 r j)
      = X (ix3 (1 : Fin 2) r j) := by
  refine (shapeCast_1ab_ab_apply _ _ r j).trans ?_
  exact extractStridedSlice_apply _ _ _ _ _ (fun ax => by
    match ax with
    | ⟨0, _⟩ => rfl
    | ⟨1, _⟩ => exact (Nat.zero_add _).symm
    | ⟨2, _⟩ => exact (Nat.zero_add _).symm)

theorem W3_v4 (c : Dev nD) :
    (W3 m c (Proc.devRef .tc main_v4) : S10000x128.Idx → Elt F .f32)
      = shapeCast S10000x128 (extractStridedSlice S1x10000x128 ![1, 0, 0]
          (W2 m c (Proc.devRef .tc main_v2) : S2x10000x128.Idx → Elt F .f32) slices_S2x10000x128_S1x10000x128_1_0_0)
          shapeCasts_S1x10000x128_S10000x128 := by
  show StableHlo.after hostOps1 (W2 m c) (Proc.devRef .tc main_v4) = _
  after_results
  rfl

theorem W5_v9 (c : Dev nD) :
    (W5 m c (Proc.devRef .tc main_v9) : S10000x128.Idx → Elt F .f32)
      = shapeCast S10000x128 (extractStridedSlice S1x10000x128 ![1, 0, 0]
          (W4 m c (Proc.devRef .tc main_v7) : S2x10000x128.Idx → Elt F .f32) slices_S2x10000x128_S1x10000x128_1_0_0)
          shapeCasts_S1x10000x128_S10000x128 := by
  show StableHlo.after hostOps2 (W4 m c) (Proc.devRef .tc main_v9) = _
  after_results
  rfl

end Reads

open Reads

/-! ## The arguments end as launched -/
/-- `main_arg0` reaches the end as launched: no host operation writes it; the first region reads it through an input window, the second does not touch it. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_in m c 0 rfl
    _ = W0 m c (Proc.devRef .tc main_arg0) := W1_of m c main_arg0 (by decide)
    _ = m ((c : Thread nD τ).loc main_arg0) := rfl
/-- `main_arg1` reaches the end as launched: no host operation writes it; the first region reads it through an input window, the second does not touch it. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_in m c 1 rfl
    _ = W0 m c (Proc.devRef .tc main_arg1) := W1_of m c main_arg1 (by decide)
    _ = m ((c : Thread nD τ).loc main_arg1) := rfl
/-- `main_arg2` reaches the end as launched: no host operation writes it; the first region does not touch it, the second reads it through an input window. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of m c main_arg2 (by decide)
    _ = W3 m c (Proc.devRef .tc main_arg2) := W4_in m c 0 rfl
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
/-- `main_arg3` reaches the end as launched: no host operation writes it; the first region does not touch it, the second reads it through an input window. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of m c main_arg3 (by decide)
    _ = W3 m c (Proc.devRef .tc main_arg3) := W4_in m c 1 rfl
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
/-- `main_arg4` reaches the end as launched: no host operation writes it; the first region reads it through an input window, the second does not touch it. -/
theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_in m c 2 rfl
    _ = W0 m c (Proc.devRef .tc main_arg4) := W1_of m c main_arg4 (by decide)
    _ = m ((c : Thread nD τ).loc main_arg4) := rfl
/-- `main_arg5` reaches the end as launched: no host operation writes it; no region touches it. -/
theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_of m c main_arg5 (by decide)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
/-- `main_arg6` reaches the end as launched: no host operation writes it; the first region reads it through an input window, the second does not touch it. -/
theorem W5_main_arg6 (c : Dev nD) : W5 m c (Proc.devRef .tc main_arg6) = m ((c : Thread nD τ).loc main_arg6) :=
  calc W5 m c (Proc.devRef .tc main_arg6)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_in m c 4 rfl
    _ = W0 m c (Proc.devRef .tc main_arg6) := W1_of m c main_arg6 (by decide)
    _ = m ((c : Thread nD τ).loc main_arg6) := rfl
/-- `main_arg7` reaches the end as launched: no host operation writes it; no region touches it. -/
theorem W5_main_arg7 (c : Dev nD) : W5 m c (Proc.devRef .tc main_arg7) = m ((c : Thread nD τ).loc main_arg7) :=
  calc W5 m c (Proc.devRef .tc main_arg7)
    _ = W4 m c (Proc.devRef .tc main_arg7) := W5_of m c main_arg7 (by decide)
    _ = W3 m c (Proc.devRef .tc main_arg7) := W4_of_ne m c main_arg7 (by decide)
    _ = W2 m c (Proc.devRef .tc main_arg7) := W3_of m c main_arg7 (by decide)
    _ = W1 m c (Proc.devRef .tc main_arg7) := W2_of_ne m c main_arg7 (by decide)
    _ = W0 m c (Proc.devRef .tc main_arg7) := W1_of m c main_arg7 (by decide)
    _ = m ((c : Thread nD τ).loc main_arg7) := rfl
/-- `main_arg8` reaches the end as launched: no host operation writes it; the first region does not touch it, the second reads it through an input window. -/
theorem W5_main_arg8 (c : Dev nD) : W5 m c (Proc.devRef .tc main_arg8) = m ((c : Thread nD τ).loc main_arg8) :=
  calc W5 m c (Proc.devRef .tc main_arg8)
    _ = W4 m c (Proc.devRef .tc main_arg8) := W5_of m c main_arg8 (by decide)
    _ = W3 m c (Proc.devRef .tc main_arg8) := W4_in m c 2 rfl
    _ = W2 m c (Proc.devRef .tc main_arg8) := W3_of m c main_arg8 (by decide)
    _ = W1 m c (Proc.devRef .tc main_arg8) := W2_of_ne m c main_arg8 (by decide)
    _ = W0 m c (Proc.devRef .tc main_arg8) := W1_of m c main_arg8 (by decide)
    _ = m ((c : Thread nD τ).loc main_arg8) := rfl
/-- `main_arg9` reaches the end as launched: no host operation writes it; no region touches it. -/
theorem W5_main_arg9 (c : Dev nD) : W5 m c (Proc.devRef .tc main_arg9) = m ((c : Thread nD τ).loc main_arg9) :=
  calc W5 m c (Proc.devRef .tc main_arg9)
    _ = W4 m c (Proc.devRef .tc main_arg9) := W5_of m c main_arg9 (by decide)
    _ = W3 m c (Proc.devRef .tc main_arg9) := W4_of_ne m c main_arg9 (by decide)
    _ = W2 m c (Proc.devRef .tc main_arg9) := W3_of m c main_arg9 (by decide)
    _ = W1 m c (Proc.devRef .tc main_arg9) := W2_of_ne m c main_arg9 (by decide)
    _ = W0 m c (Proc.devRef .tc main_arg9) := W1_of m c main_arg9 (by decide)
    _ = m ((c : Thread nD τ).loc main_arg9) := rfl
/-- `main_arg10` reaches the end as launched: no host operation writes it; the first region does not touch it, the second reads it through an input window. -/
theorem W5_main_arg10 (c : Dev nD) : W5 m c (Proc.devRef .tc main_arg10) = m ((c : Thread nD τ).loc main_arg10) :=
  calc W5 m c (Proc.devRef .tc main_arg10)
    _ = W4 m c (Proc.devRef .tc main_arg10) := W5_of m c main_arg10 (by decide)
    _ = W3 m c (Proc.devRef .tc main_arg10) := W4_in m c 4 rfl
    _ = W2 m c (Proc.devRef .tc main_arg10) := W3_of m c main_arg10 (by decide)
    _ = W1 m c (Proc.devRef .tc main_arg10) := W2_of_ne m c main_arg10 (by decide)
    _ = W0 m c (Proc.devRef .tc main_arg10) := W1_of m c main_arg10 (by decide)
    _ = m ((c : Thread nD τ).loc main_arg10) := rfl
/-- `main_arg11` reaches the end as launched: no host operation writes it; no region touches it. -/
theorem W5_main_arg11 (c : Dev nD) : W5 m c (Proc.devRef .tc main_arg11) = m ((c : Thread nD τ).loc main_arg11) :=
  calc W5 m c (Proc.devRef .tc main_arg11)
    _ = W4 m c (Proc.devRef .tc main_arg11) := W5_of m c main_arg11 (by decide)
    _ = W3 m c (Proc.devRef .tc main_arg11) := W4_of_ne m c main_arg11 (by decide)
    _ = W2 m c (Proc.devRef .tc main_arg11) := W3_of m c main_arg11 (by decide)
    _ = W1 m c (Proc.devRef .tc main_arg11) := W2_of_ne m c main_arg11 (by decide)
    _ = W0 m c (Proc.devRef .tc main_arg11) := W1_of m c main_arg11 (by decide)
    _ = m ((c : Thread nD τ).loc main_arg11) := rfl

/-! ## The regions' entry contents at the arguments and the bias rows -/

theorem V1_arg (c : Dev nD) : V1 m c main_arg0 = m ((c : Thread nD τ).loc main_arg0) ∧ V1 m c main_arg1 = m ((c : Thread nD τ).loc main_arg1)
    ∧ V1 m c main_arg4 = m ((c : Thread nD τ).loc main_arg4) ∧ V1 m c main_arg6 = m ((c : Thread nD τ).loc main_arg6) :=
  ⟨W1_of m c main_arg0 (by decide), W1_of m c main_arg1 (by decide), W1_of m c main_arg4 (by decide), W1_of m c main_arg6 (by decide)⟩

/-- A bias vector reshaped to one row reads, at `(0, l)`, the vector at `l`. -/
theorem V1_v0_apply (c : Dev nD) (l : Fin 128) :
    (V1 m c main_v0 : S1x128.Idx → Elt F .f32) (ix2 (0 : Fin 1) l) = (m ((c : Thread nD τ).loc main_arg5) : S128.Idx → Elt F .f32) (ix1 l) := by
  have e : (V1 m c main_v0 : S1x128.Idx → Elt F .f32)
      = shapeCast S1x128 (m ((c : Thread nD τ).loc main_arg5) : S128.Idx → Elt F .f32) shapeCasts_S128_S1x128 := by
    show StableHlo.after hostOps0 (W0 m c) (Proc.devRef .tc main_v0) = _
    after_results
    rfl
  rw [e]
  exact shapeCast_a_1a_apply _ _ _ _
theorem V1_v1_apply (c : Dev nD) (l : Fin 128) :
    (V1 m c main_v1 : S1x128.Idx → Elt F .f32) (ix2 (0 : Fin 1) l) = (m ((c : Thread nD τ).loc main_arg7) : S128.Idx → Elt F .f32) (ix1 l) := by
  have e : (V1 m c main_v1 : S1x128.Idx → Elt F .f32)
      = shapeCast S1x128 (m ((c : Thread nD τ).loc main_arg7) : S128.Idx → Elt F .f32) shapeCasts_S128_S1x128 := by
    show StableHlo.after hostOps0 (W0 m c) (Proc.devRef .tc main_v1) = _
    after_results
    rfl
  rw [e]
  exact shapeCast_a_1a_apply _ _ _ _

theorem V3_arg (c : Dev nD) : V3 m c main_arg2 = m ((c : Thread nD τ).loc main_arg2) ∧ V3 m c main_arg3 = m ((c : Thread nD τ).loc main_arg3)
    ∧ V3 m c main_arg8 = m ((c : Thread nD τ).loc main_arg8) ∧ V3 m c main_arg10 = m ((c : Thread nD τ).loc main_arg10) :=
  ⟨(W3_of m c main_arg2 (by decide)).trans ((W2_of_ne m c main_arg2 (by decide)).trans (W1_of m c main_arg2 (by decide))),
   (W3_of m c main_arg3 (by decide)).trans ((W2_of_ne m c main_arg3 (by decide)).trans (W1_of m c main_arg3 (by decide))),
   (W3_of m c main_arg8 (by decide)).trans ((W2_of_ne m c main_arg8 (by decide)).trans (W1_of m c main_arg8 (by decide))),
   (W3_of m c main_arg10 (by decide)).trans ((W2_of_ne m c main_arg10 (by decide)).trans (W1_of m c main_arg10 (by decide)))⟩

theorem V3_v5_apply (c : Dev nD) (l : Fin 128) :
    (V3 m c main_v5 : S1x128.Idx → Elt F .f32) (ix2 (0 : Fin 1) l) = (m ((c : Thread nD τ).loc main_arg9) : S128.Idx → Elt F .f32) (ix1 l) := by
  have e : (V3 m c main_v5 : S1x128.Idx → Elt F .f32)
      = shapeCast S1x128 (W2 m c (Proc.devRef .tc main_arg9) : S128.Idx → Elt F .f32) shapeCasts_S128_S1x128 := by
    show StableHlo.after hostOps1 (W2 m c) (Proc.devRef .tc main_v5) = _
    after_results
    rfl
  rw [e, W2_bias m c main_arg9 (by decide) (by decide)]
  exact shapeCast_a_1a_apply _ _ _ _
theorem V3_v6_apply (c : Dev nD) (l : Fin 128) :
    (V3 m c main_v6 : S1x128.Idx → Elt F .f32) (ix2 (0 : Fin 1) l) = (m ((c : Thread nD τ).loc main_arg11) : S128.Idx → Elt F .f32) (ix1 l) := by
  have e : (V3 m c main_v6 : S1x128.Idx → Elt F .f32)
      = shapeCast S1x128 (W2 m c (Proc.devRef .tc main_arg11) : S128.Idx → Elt F .f32) shapeCasts_S128_S1x128 := by
    show StableHlo.after hostOps1 (W2 m c) (Proc.devRef .tc main_v6) = _
    after_results
    rfl
  rw [e, W2_bias m c main_arg11 (by decide) (by decide)]
  exact shapeCast_a_1a_apply _ _ _ _

/-! ## The two results -/

/-- The first result at the end: the first region's result array at half 1. -/
theorem W5_v4_apply (c : Dev nD) (r : Fin 10000) (j : Fin 128) :
    (W5 m c (Proc.devRef .tc main_v4) : S10000x128.Idx → Elt F .f32) (ix2 r j)
      = ((R0.dat0 (V1 m) c).arrAt 6 cfg0.N : S2x10000x128.Idx → Elt F .f32) (ix3 (1 : Fin 2) r j) := by
  have e54 : W5 m c (Proc.devRef .tc main_v4) = W3 m c (Proc.devRef .tc main_v4) :=
    (W5_of m c main_v4 (by decide)).trans (W4_of_ne m c main_v4 (by decide))
  rw [e54, W3_v4 m c, half1_apply]
  exact congrFun (W2_arr m c 6) _

/-- The second result at the end: the second region's result array at half 1. -/
theorem W5_v9_apply (c : Dev nD) (r : Fin 10000) (j : Fin 128) :
    (W5 m c (Proc.devRef .tc main_v9) : S10000x128.Idx → Elt F .f32) (ix2 r j)
      = ((R1.dat1 (V3 m) c).arrAt 6 cfg1.N : S2x10000x128.Idx → Elt F .f32) (ix3 (1 : Fin 2) r j) := by
  rw [W5_v9 m c, half1_apply]
  exact congrFun (W4_arr m c 6) _

end Cert.Kernel.Run

end
-- ==== Proof.KI.Arr0.lean ====
/-
  From blocks to the array, for the region's result. The result array has two halves of 10000 rows of 128 entries. Point
  `t` of the grid writes back the block of 200 rows at block index `(t / 50, t % 50, 0)`, holding `out6` at `t`; the
  100 blocks tile the array, so after the run entry `(p, r, j)` is `out6` at point `50 p + r / 200`, at row `r % 200` of
  the block and column `j`.
-/
import proofs.«126728_g73796128079920_cont_9to1c4b_223_8_alg».proof.Proof.KI.Dat0
import Idealize.ShloMosaic.Lib.Pipeline.Value
import Idealize.ShloMosaic.Lib.ValueIdx

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The three coordinates of an index of the result array are below its extents. -/
theorem res_half_lt (y : S2x10000x128.Idx) : (y 0).val < 2 := (y 0).isLt
theorem res_row_lt (y : S2x10000x128.Idx) : (y 1).val < 10000 := (y 1).isLt
theorem res_col_lt (y : S2x10000x128.Idx) : (y 2).val < 128 := (y 2).isLt

/-- The point whose block holds entry `y` of the result: half `y 0`, block `y 1 / 200` of the half. -/
def resPt (y : S2x10000x128.Idx) : Fin cfg0.N :=
  ⟨(y 0).val * 50 + (y 1).val / 200, by have := res_half_lt y; have := res_row_lt y; have : cfg0.N = 100 := N_0; omega⟩

/-- The entry's place in that block: row `y 1 % 200`, column `y 2`. -/
def resLoc (y : S2x10000x128.Idx) : S1x200x128.Idx :=
  ix3 (0 : Fin 1) (⟨(y 1).val % 200, Nat.mod_lt _ (by decide)⟩ : Fin 200) (⟨(y 2).val, res_col_lt y⟩ : Fin 128)

/-- The whole result array as one function of the index: what the block holding the entry holds after its point. -/
def resG (c : Dev nD) : S2x10000x128.Idx → Elt F .f32 := fun y => out6 V c (resPt y) (resLoc y)

/-- The result's block index at point `t` is `(t / 50, t % 50, 0)`, decided over the grid. -/
theorem idx_res : ∀ t : Fin cfg0.N, win0_6.index t (0 : Fin 3) = t.val / 50 ∧ win0_6.index t (1 : Fin 3) = t.val % 50
    ∧ win0_6.index t (2 : Fin 3) = 0 :=
  (by decide +kernel : ∀ t : Fin grid0.N, _)

/-- At an index `y` of the array that is entry `x` of point `t`'s block, the whole-array function is `out6` at `t` and `x`:
    the half is `t / 50`, the row is `200 (t % 50)` plus the row in the block, the column is the block's. -/
theorem resG_at (c : Dev nD) (t : Fin cfg0.N) (y : S2x10000x128.Idx) (x : S1x200x128.Idx)
    (h0 : (y 0).val = t.val / 50) (h1 : (y 1).val = (t.val % 50) * 200 + (x 1).val) (h2 : (y 2).val = (x 2).val) :
    resG V c y = out6 V c t x := by
  have hx0 : (x 0).val < 1 := (x 0).isLt
  have hx1 : (x 1).val < 200 := (x 1).isLt
  have ht : t.val < 100 := by have := t.isLt; have : cfg0.N = 100 := N_0; omega
  have ept : resPt y = t := Fin.ext (by show (y 0).val * 50 + (y 1).val / 200 = t.val; omega)
  have eloc : resLoc y = x := by
    funext a; apply Fin.ext
    match a with
    | ⟨0, _⟩ => show 0 = (x 0).val; omega
    | ⟨1, _⟩ => show (y 1).val % 200 = (x 1).val; omega
    | ⟨2, _⟩ => show (y 2).val = (x 2).val; exact h2
  unfold resG
  rw [ept, eloc]

/-- What point `t` writes back is block `t` of the whole-array function. -/
theorem flushed_res (c : Dev nD) (t : Fin cfg0.N) :
    (dat0 V c).flushed 6 t = ((cfg0.win 6).blk t).view.read (Elt F) (resG V c) := by
  show (cfg0.win 6).cut (grid0.coords t) ((dat0 V c).after 6 t) = _
  rw [after0_6]
  obtain ⟨e0, e1, e2⟩ := idx_res t
  funext j
  refine (resG_at V c t _ _ ?_ ?_ ?_).symm
  · show win0_6.index t (0 : Fin 3) * 1 + 1 * (j 0).val = t.val / 50
    have hj : (j 0).val < 1 := (j 0).isLt
    omega
  · show win0_6.index t (1 : Fin 3) * 200 + 1 * (j 1).val = (t.val % 50) * 200 + (j 1).val
    omega
  · show win0_6.index t (2 : Fin 3) * 128 + 1 * (j 2).val = (j 2).val
    omega

/-- An index of the array is in point `t`'s block iff each coordinate is in the block's range on its axis. -/
theorem mem_blk_res (t : Fin cfg0.N) (i : S2x10000x128.Idx) :
    i ∈ ((cfg0.win 6).blk t).view.set ↔ ∀ a : Fin 3, win0_6.index t a * S1x200x128.size a ≤ (i a).val
      ∧ (i a).val < win0_6.index t a * S1x200x128.size a + S1x200x128.size a := by
  show i ∈ ((View.whole (Pipeline.arrRef spec0 6)).slice (win0_6.rect t)).set ↔ _
  rw [View.set_slice_whole, Rect.mem_set_unit]
  exact Iff.rfl

/-- Every index of the array is in the block of the point that holds it. -/
theorem cover_res (i : S2x10000x128.Idx) :
    ∃ t : Fin cfg0.N, (cfg0.win 6).flush t = true ∧ i ∈ ((cfg0.win 6).blk t).view.set := by
  refine ⟨resPt i, flush0_6 _, ?_⟩
  rw [mem_blk_res]
  obtain ⟨e0, e1, e2⟩ := idx_res (resPt i)
  have h0 := res_half_lt i
  have h1 := res_row_lt i
  have h2 := res_col_lt i
  have hv : (resPt i).val = (i 0).val * 50 + (i 1).val / 200 := rfl
  intro a
  match a with
  | ⟨0, _⟩ =>
    show win0_6.index (resPt i) (0 : Fin 3) * 1 ≤ (i 0).val ∧ (i 0).val < win0_6.index (resPt i) (0 : Fin 3) * 1 + 1
    omega
  | ⟨1, _⟩ =>
    show win0_6.index (resPt i) (1 : Fin 3) * 200 ≤ (i 1).val ∧ (i 1).val < win0_6.index (resPt i) (1 : Fin 3) * 200 + 200
    omega
  | ⟨2, _⟩ =>
    show win0_6.index (resPt i) (2 : Fin 3) * 128 ≤ (i 2).val ∧ (i 2).val < win0_6.index (resPt i) (2 : Fin 3) * 128 + 128
    omega

/-- So the result array ends holding the whole-array function. -/
theorem arr_res (c : Dev nD) : (dat0 V c).arrAt 6 cfg0.N = resG V c :=
  (dat0 V c).arrAt_eq_of_cover 6 (resG V c) (fun t _ => flushed_res V c t) (fun i => cover_res i)

/-- The result array after the run, entry by entry. -/
theorem arrAt6 (c : Dev nD) (p : Fin 2) (r : Fin 10000) (j : Fin 128) :
    (dat0 V c).arrAt 6 cfg0.N (ValueIdx.ix3 p r j)
      = out6 V c (⟨p.val * 50 + r.val / 200, by have := p.isLt; have := r.isLt; have : cfg0.N = 100 := N_0; omega⟩ : Fin cfg0.N)
          (ValueIdx.ix3 (0 : Fin 1) (⟨r.val % 200, Nat.mod_lt _ (by decide)⟩ : Fin 200) j) := by
  rw [arr_res]
  rfl

end Cert.KernelIdeal.R0

end
-- ==== Proof.KI.Arr1.lean ====
/-
  From blocks to the array, for the region's result. The result array has two halves of 10000 rows of 128 entries. Point
  `t` of the grid writes back the block of 200 rows at block index `(t / 50, t % 50, 0)`, holding `out6` at `t`; the
  100 blocks tile the array, so after the run entry `(p, r, j)` is `out6` at point `50 p + r / 200`, at row `r % 200` of
  the block and column `j`.
-/
import proofs.«126728_g73796128079920_cont_9to1c4b_223_8_alg».proof.Proof.KI.Dat1
import Idealize.ShloMosaic.Lib.Pipeline.Value
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The three coordinates of an index of the result array are below its extents. -/
theorem res_half_lt (y : S2x10000x128.Idx) : (y 0).val < 2 := (y 0).isLt
theorem res_row_lt (y : S2x10000x128.Idx) : (y 1).val < 10000 := (y 1).isLt
theorem res_col_lt (y : S2x10000x128.Idx) : (y 2).val < 128 := (y 2).isLt

/-- The point whose block holds entry `y` of the result: half `y 0`, block `y 1 / 200` of the half. -/
def resPt (y : S2x10000x128.Idx) : Fin cfg1.N :=
  ⟨(y 0).val * 50 + (y 1).val / 200, by have := res_half_lt y; have := res_row_lt y; have : cfg1.N = 100 := N_1; omega⟩

/-- The entry's place in that block: row `y 1 % 200`, column `y 2`. -/
def resLoc (y : S2x10000x128.Idx) : S1x200x128.Idx :=
  ix3 (0 : Fin 1) (⟨(y 1).val % 200, Nat.mod_lt _ (by decide)⟩ : Fin 200) (⟨(y 2).val, res_col_lt y⟩ : Fin 128)

/-- The whole result array as one function of the index: what the block holding the entry holds after its point. -/
def resG (c : Dev nD) : S2x10000x128.Idx → Elt F .f32 := fun y => out6 V c (resPt y) (resLoc y)

/-- The result's block index at point `t` is `(t / 50, t % 50, 0)`, decided over the grid. -/
theorem idx_res : ∀ t : Fin cfg1.N, win1_6.index t (0 : Fin 3) = t.val / 50 ∧ win1_6.index t (1 : Fin 3) = t.val % 50
    ∧ win1_6.index t (2 : Fin 3) = 0 :=
  (by decide +kernel : ∀ t : Fin grid1.N, _)

/-- At an index `y` of the array that is entry `x` of point `t`'s block, the whole-array function is `out6` at `t` and `x`:
    the half is `t / 50`, the row is `200 (t % 50)` plus the row in the block, the column is the block's. -/
theorem resG_at (c : Dev nD) (t : Fin cfg1.N) (y : S2x10000x128.Idx) (x : S1x200x128.Idx)
    (h0 : (y 0).val = t.val / 50) (h1 : (y 1).val = (t.val % 50) * 200 + (x 1).val) (h2 : (y 2).val = (x 2).val) :
    resG V c y = out6 V c t x := by
  have hx0 : (x 0).val < 1 := (x 0).isLt
  have hx1 : (x 1).val < 200 := (x 1).isLt
  have ht : t.val < 100 := by have := t.isLt; have : cfg1.N = 100 := N_1; omega
  have ept : resPt y = t := Fin.ext (by show (y 0).val * 50 + (y 1).val / 200 = t.val; omega)
  have eloc : resLoc y = x := by
    funext a; apply Fin.ext
    match a with
    | ⟨0, _⟩ => show 0 = (x 0).val; omega
    | ⟨1, _⟩ => show (y 1).val % 200 = (x 1).val; omega
    | ⟨2, _⟩ => show (y 2).val = (x 2).val; exact h2
  unfold resG
  rw [ept, eloc]

/-- What point `t` writes back is block `t` of the whole-array function. -/
theorem flushed_res (c : Dev nD) (t : Fin cfg1.N) :
    (dat1 V c).flushed 6 t = ((cfg1.win 6).blk t).view.read (Elt F) (resG V c) := by
  show (cfg1.win 6).cut (grid1.coords t) ((dat1 V c).after 6 t) = _
  rw [after1_6]
  obtain ⟨e0, e1, e2⟩ := idx_res t
  funext j
  refine (resG_at V c t _ _ ?_ ?_ ?_).symm
  · show win1_6.index t (0 : Fin 3) * 1 + 1 * (j 0).val = t.val / 50
    have hj : (j 0).val < 1 := (j 0).isLt
    omega
  · show win1_6.index t (1 : Fin 3) * 200 + 1 * (j 1).val = (t.val % 50) * 200 + (j 1).val
    omega
  · show win1_6.index t (2 : Fin 3) * 128 + 1 * (j 2).val = (j 2).val
    omega

/-- An index of the array is in point `t`'s block iff each coordinate is in the block's range on its axis. -/
theorem mem_blk_res (t : Fin cfg1.N) (i : S2x10000x128.Idx) :
    i ∈ ((cfg1.win 6).blk t).view.set ↔ ∀ a : Fin 3, win1_6.index t a * S1x200x128.size a ≤ (i a).val
      ∧ (i a).val < win1_6.index t a * S1x200x128.size a + S1x200x128.size a := by
  show i ∈ ((View.whole (Pipeline.arrRef spec1 6)).slice (win1_6.rect t)).set ↔ _
  rw [View.set_slice_whole, Rect.mem_set_unit]
  exact Iff.rfl

/-- Every index of the array is in the block of the point that holds it. -/
theorem cover_res (i : S2x10000x128.Idx) :
    ∃ t : Fin cfg1.N, (cfg1.win 6).flush t = true ∧ i ∈ ((cfg1.win 6).blk t).view.set := by
  refine ⟨resPt i, flush1_6 _, ?_⟩
  rw [mem_blk_res]
  obtain ⟨e0, e1, e2⟩ := idx_res (resPt i)
  have h0 := res_half_lt i
  have h1 := res_row_lt i
  have h2 := res_col_lt i
  have hv : (resPt i).val = (i 0).val * 50 + (i 1).val / 200 := rfl
  intro a
  match a with
  | ⟨0, _⟩ =>
    show win1_6.index (resPt i) (0 : Fin 3) * 1 ≤ (i 0).val ∧ (i 0).val < win1_6.index (resPt i) (0 : Fin 3) * 1 + 1
    omega
  | ⟨1, _⟩ =>
    show win1_6.index (resPt i) (1 : Fin 3) * 200 ≤ (i 1).val ∧ (i 1).val < win1_6.index (resPt i) (1 : Fin 3) * 200 + 200
    omega
  | ⟨2, _⟩ =>
    show win1_6.index (resPt i) (2 : Fin 3) * 128 ≤ (i 2).val ∧ (i 2).val < win1_6.index (resPt i) (2 : Fin 3) * 128 + 128
    omega

/-- So the result array ends holding the whole-array function. -/
theorem arr_res (c : Dev nD) : (dat1 V c).arrAt 6 cfg1.N = resG V c :=
  (dat1 V c).arrAt_eq_of_cover 6 (resG V c) (fun t _ => flushed_res V c t) (fun i => cover_res i)

/-- The result array after the run, entry by entry. -/
theorem arrAt6 (c : Dev nD) (p : Fin 2) (r : Fin 10000) (j : Fin 128) :
    (dat1 V c).arrAt 6 cfg1.N (ValueIdx.ix3 p r j)
      = out6 V c (⟨p.val * 50 + r.val / 200, by have := p.isLt; have := r.isLt; have : cfg1.N = 100 := N_1; omega⟩ : Fin cfg1.N)
          (ValueIdx.ix3 (0 : Fin 1) (⟨r.val % 200, Nat.mod_lt _ (by decide)⟩ : Fin 200) j) := by
  rw [arr_res]
  rfl

end Cert.KernelIdeal.R1

end
-- ==== Proof.Spec.lean ====
/-
  The two-layer graph convolution, index by index over the extended reals: for an adjacency matrix `A`,
  features `X`, weights `W1`, `W2` and biases `b1`, `b2`,

      gcn r j = (∑ k, A r k · (∑ l, max ((∑ q, A k q · (∑ p, X q p · W1 p l)) + b1 l) 0 · W2 l j)) + b2 j.

  Every sum is kept in this association; no law of the extended reals beyond the definitions is used to meet it.
-/
import Idealize.ShloMosaic.PureOps.Ideal
import Idealize.ShloMosaic.Lib.ValueIdx

noncomputable section

namespace Cert.Spec

open Idealize.ShloMosaic Idealize.ShloMosaic.ValueIdx

/-- The shapes of the adjacency matrix, of a feature matrix, of a weight matrix, of a bias and of a bias kept as a row. -/
abbrev SA : Shape := ⟨2, ![10000, 10000]⟩
abbrev SX : Shape := ⟨2, ![10000, 128]⟩
abbrev SW : Shape := ⟨2, ![128, 128]⟩
abbrev SB : Shape := ⟨1, ![128]⟩
abbrev SR : Shape := ⟨2, ![1, 128]⟩

/-- Entry `(q, l)` of the feature product `X · W1`. -/
def xw (X : SX.Idx → EReal) (W1 : SW.Idx → EReal) (q : Fin 10000) (l : Fin 128) : EReal :=
  ∑ p : Fin 128, X (ix2 q p) * W1 (ix2 p l)

/-- Entry `(k, l)` of the hidden layer `max (A · s + b1) 0` over any first-layer support `s`, the bias a function of the column. -/
def hidOf (A : SA.Idx → EReal) (s : Fin 10000 → Fin 128 → EReal) (b1 : Fin 128 → EReal) (k : Fin 10000) (l : Fin 128) : EReal :=
  max ((∑ q : Fin 10000, A (ix2 k q) * s q l) + b1 l) 0

/-- Entry `(k, j)` of the second layer's support `h · W2` over any hidden layer `h`. -/
def hwOf (h : Fin 10000 → Fin 128 → EReal) (W2 : SW.Idx → EReal) (k : Fin 10000) (j : Fin 128) : EReal :=
  ∑ l : Fin 128, h k l * W2 (ix2 l j)

/-- Entry `(r, j)` of `A · g + b2` over any second-layer support `g`. -/
def outOf (A : SA.Idx → EReal) (g : Fin 10000 → Fin 128 → EReal) (b2 : Fin 128 → EReal) (r : Fin 10000) (j : Fin 128) : EReal :=
  (∑ k : Fin 10000, A (ix2 r k) * g k j) + b2 j

/-- The whole network at entry `(r, j)`, the biases functions of the column. -/
def gcn (A : SA.Idx → EReal) (X : SX.Idx → EReal) (W1 : SW.Idx → EReal) (b1 : Fin 128 → EReal) (W2 : SW.Idx → EReal)
    (b2 : Fin 128 → EReal) (r : Fin 10000) (j : Fin 128) : EReal :=
  outOf A (hwOf (hidOf A (xw X W1) b1) W2) b2 r j

end Cert.Spec

end
-- ==== Proof.PayIdeal.lean ====
/-
  The kernel's arithmetic read index by index over the extended reals. Each payload of the two calls is a chain of
  matrix products into a zero accumulator, a bias row added to every row, a maximum with zero, and layout casts that
  move no entry; at the ideal values a rounding to a narrower float is the identity. Read at an entry, each payload is
  the nested sum the specification writes, in the same association.
-/
import proofs.«126728_g73796128079920_cont_9to1c4b_223_8_alg».proof.Proof.Gen.KernelIdeal.Skeleton
import proofs.«126728_g73796128079920_cont_9to1c4b_223_8_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdeal

open Cert.KernelIdeal Cert.KernelIdeal.Gen Idealize.ShloMosaic Idealize.ShloMosaic.ValueIdx

/-! ## The contraction `S10000x128 · S128x128 → S10000x128`: its operand indices, axis by axis -/

theorem lhsXW_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsXW_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhsXW_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhsXW_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product into the zero accumulator, read at `(r, j)`: the sum over the contracted axis of the operands' products. -/
theorem matmulXW_apply {φ₁ φ₂ : FTy} (l : FVec Ideal S10000x128 φ₁) (r : FVec Ideal S128x128 φ₂) (i : Fin 10000) (j : Fin 128) :
    matmul (F := Ideal) dot_S10000x128_S128x128_S10000x128_1_0_0_1_n_n none l r (constant (F := Ideal) S10000x128 .f32 0x00000000#32) (ix2 i j)
      = ∑ k : Fin 128, l (ix2 i k) * r (ix2 k j) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 i j) ((contrEquiv1 dot_S10000x128_S128x128_S10000x128_1_0_0_1_n_n 128 rfl rfl).symm k) = ix2 i k := funext fun a => Fin.ext (by
    match a with
    | ⟨0, _⟩ => exact lhsXW_0 _ _
    | ⟨1, _⟩ => exact (lhsXW_1 _ _).trans hk)
  have er : dot_S10000x128_S128x128_S10000x128_1_0_0_1_n_n.rhsIdx (ix2 i j) ((contrEquiv1 dot_S10000x128_S128x128_S10000x128_1_0_0_1_n_n 128 rfl rfl).symm k) = ix2 k j := funext fun a => Fin.ext (by
    match a with
    | ⟨0, _⟩ => exact (rhsXW_0 _ _).trans hk
    | ⟨1, _⟩ => exact rhsXW_1 _ _)
  rw [el, er]

/-! ## The contraction `S200x10000 · S10000x128 → S200x128`: its operand indices, axis by axis -/

theorem lhsAS_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhsAS_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem rhsAS_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem rhsAS_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The product into the zero accumulator, read at `(r, j)`: the sum over the contracted axis of the operands' products. -/
theorem matmulAS_apply {φ₁ φ₂ : FTy} (l : FVec Ideal S200x10000 φ₁) (r : FVec Ideal S10000x128 φ₂) (i : Fin 200) (j : Fin 128) :
    matmul (F := Ideal) dot_S200x10000_S10000x128_S200x128_1_0_0_1_n_n none l r (constant (F := Ideal) S200x128 .f32 0x00000000#32) (ix2 i j)
      = ∑ k : Fin 10000, l (ix2 i k) * r (ix2 k j) := by
  simp only [matmul]
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 i j) ((contrEquiv1 dot_S200x10000_S10000x128_S200x128_1_0_0_1_n_n 10000 rfl rfl).symm k) = ix2 i k := funext fun a => Fin.ext (by
    match a with
    | ⟨0, _⟩ => exact lhsAS_0 _ _
    | ⟨1, _⟩ => exact (lhsAS_1 _ _).trans hk)
  have er : dot_S200x10000_S10000x128_S200x128_1_0_0_1_n_n.rhsIdx (ix2 i j) ((contrEquiv1 dot_S200x10000_S10000x128_S200x128_1_0_0_1_n_n 10000 rfl rfl).symm k) = ix2 k j := funext fun a => Fin.ext (by
    match a with
    | ⟨0, _⟩ => exact (rhsAS_0 _ _).trans hk
    | ⟨1, _⟩ => exact rhsAS_1 _ _)
  rw [el, er]

/-! ## The contraction `S200x128 · S128x128 → S200x128`: its operand indices, axis by axis -/

theorem lhsHW_0 (i : S200x128.Idx) (q : dot_S200x128_S128x128_S200x128_1_0_0_1_n_n.contr.Idx) :
    (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
theorem lhsHW_1 (i : S200x128.Idx) (q : dot_S200x128_S128x128_S200x128_1_0_0_1_n_n.contr.Idx) :
    (dot_S200x128_S128x128_S200x128_1_0_0_1_n_n.lhsIdx i q 1).val = (q ⟨0, by decide⟩).val :=
  dot_S200x128_S128x128_S200x128_1_0_0_1_n_n.lhsIdx_val_of_single rfl i q
theorem rhsHW_0 (i : S200x128.Idx) (q : dot_S200x128_S128x128_S200x128_1_0_0_1_n_n.contr.Idx) :
    (dot_S200x128_S128x128_S200x128_1_0_0_1_n_n.rhsIdx i q 0).val = (q ⟨0, by decide⟩).val :=
  dot_S200x128_S128x128_S200x128_1_0_0_1_n_n.rhsIdx_val_of_single rfl i q
theorem rhsHW_1 (i : S200x128.Idx) (q : dot_S200x128_S128x128_S200x128_1_0_0_1_n_n.contr.Idx) :
    (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- The product into the zero accumulator, read at `(r, j)`: the sum over the contracted axis of the operands' products. -/
theorem matmulHW_apply {φ₁ φ₂ : FTy} (l : FVec Ideal S200x128 φ₁) (r : FVec Ideal S128x128 φ₂) (i : Fin 200) (j : Fin 128) :
    matmul (F := Ideal) dot_S200x128_S128x128_S200x128_1_0_0_1_n_n none l r (constant (F := Ideal) S200x128 .f32 0x00000000#32) (ix2 i j)
      = ∑ k : Fin 128, l (ix2 i k) * r (ix2 k j) := by
  simp only [matmul]
  rw [Ideal.matmul_constant_zero_apply, ← Equiv.sum_comp (contrEquiv1 dot_S200x128_S128x128_S200x128_1_0_0_1_n_n 128 rfl rfl).symm]
  refine Finset.sum_congr rfl fun k _ => ?_
  have hk := contrEquiv1_symm_val dot_S200x128_S128x128_S200x128_1_0_0_1_n_n 128 rfl rfl k
  have el : dot_S200x128_S128x128_S200x128_1_0_0_1_n_n.lhsIdx (ix2 i j) ((contrEquiv1 dot_S200x128_S128x128_S200x128_1_0_0_1_n_n 128 rfl rfl).symm k) = ix2 i k := funext fun a => Fin.ext (by
    match a with
    | ⟨0, _⟩ => exact lhsHW_0 _ _
    | ⟨1, _⟩ => exact (lhsHW_1 _ _).trans hk)
  have er : dot_S200x128_S128x128_S200x128_1_0_0_1_n_n.rhsIdx (ix2 i j) ((contrEquiv1 dot_S200x128_S128x128_S200x128_1_0_0_1_n_n 128 rfl rfl).symm k) = ix2 k j := funext fun a => Fin.ext (by
    match a with
    | ⟨0, _⟩ => exact (rhsHW_0 _ _).trans hk
    | ⟨1, _⟩ => exact rhsHW_1 _ _)
  rw [el, er]

/-! ## The payloads of call `k0` at an entry -/

/-- The feature product `X · W1` at `(q, l)`. -/
theorem k0_pay1_apply (x : Vec Ideal S10000x128 .f32) (w1 : Vec Ideal S128x128 .f32) (q : Fin 10000) (l : Fin 128) :
    k0_pay1 (F := Ideal) x w1 (ix2 q l) = Cert.Spec.xw x w1 q l := by
  unfold k0_pay1
  refine (congrFun (shapeCast_self _ _) _).trans ?_
  exact matmulXW_apply (φ₁ := .f32) (φ₂ := .f32) x w1 q l

/-- The adjacency rows times a support plus the bias row, at `(r, l)`: the identity cast of the bias moves nothing, and
    the one-row broadcast reads the row at its column. -/
theorem k0_pre_apply (a : Vec Ideal S200x10000 .f32) (s : Vec Ideal S10000x128 .bf16) (b : Vec Ideal S1x128 .f32) (r : Fin 200) (l : Fin 128) :
    addf (F := Ideal) (φ := .f32) (matmul (F := Ideal) (φ₁ := .bf16) (φ₂ := .bf16) dot_S200x10000_S10000x128_S200x128_1_0_0_1_n_n none (k0_pay2 (F := Ideal) a) s (constant (F := Ideal) S200x128 .f32 0x00000000#32))
      (broadcastTo S200x128 (shapeCast S1x128 b shapeCasts_S1x128_S1x128) broadcasts_S1x128_S200x128) (ix2 r l)
      = (∑ q : Fin 10000, a (ix2 r q) * s (ix2 q l)) + b (ix2 0 l) := by
  refine (addf_apply _ _ _).trans ?_
  refine congrArg₂ (· + ·) ?_ ?_
  · exact matmulAS_apply (φ₁ := .bf16) (φ₂ := .bf16) (k0_pay2 (F := Ideal) a) s r l
  · refine (broadcastTo_1b_ab_apply _ _ r l).trans ?_
    exact congrFun (shapeCast_self b _) _

/-- The hidden layer times the second weights, at `(r, j)`. -/
theorem k0_pay3_apply (a : Vec Ideal S200x10000 .f32) (s : Vec Ideal S10000x128 .bf16) (b : Vec Ideal S1x128 .f32) (w : Vec Ideal S128x128 .f32) (r : Fin 200) (j : Fin 128) :
    k0_pay3 (F := Ideal) a s b w (ix2 r j) = ∑ l : Fin 128, max ((∑ q : Fin 10000, a (ix2 r q) * s (ix2 q l)) + b (ix2 0 l)) 0 * w (ix2 l j) := by
  unfold k0_pay3
  refine (matmulHW_apply (φ₁ := .f32) (φ₂ := .f32) _ w r j).trans ?_
  refine Finset.sum_congr rfl fun l _ => ?_
  refine congrArg (· * w (ix2 l j)) ?_
  refine (maximumf_apply _ _ _).trans ?_
  refine congrArg₂ max ?_ ?_
  · exact k0_pre_apply a s b r l
  · exact Ideal.ofBits_zero_f32

/-- The same entry after the identity rounding and the identity cast. -/
theorem k0_pay4_apply (a : Vec Ideal S200x10000 .f32) (s : Vec Ideal S10000x128 .bf16) (b : Vec Ideal S1x128 .f32) (w : Vec Ideal S128x128 .f32) (r : Fin 200) (j : Fin 128) :
    k0_pay4 (F := Ideal) a s b w (ix2 r j) = ∑ l : Fin 128, max ((∑ q : Fin 10000, a (ix2 r q) * s (ix2 q l)) + b (ix2 0 l)) 0 * w (ix2 l j) := by
  unfold k0_pay4
  refine (congrFun (shapeCast_self _ _) _).trans ?_
  exact k0_pay3_apply a s b w r j

/-- The same entry under a leading unit axis. -/
theorem k0_pay5_apply (a : Vec Ideal S200x10000 .f32) (s : Vec Ideal S10000x128 .bf16) (b : Vec Ideal S1x128 .f32) (w : Vec Ideal S128x128 .f32) (r : Fin 200) (j : Fin 128) :
    k0_pay5 (F := Ideal) a s b w (ix3 0 r j) = ∑ l : Fin 128, max ((∑ q : Fin 10000, a (ix2 r q) * s (ix2 q l)) + b (ix2 0 l)) 0 * w (ix2 l j) := by
  unfold k0_pay5
  refine (shapeCast_ab_1ab_apply _ _ 0 r j).trans ?_
  exact k0_pay3_apply a s b w r j

/-- The adjacency rows times the second support plus the bias row, under a leading unit axis. -/
theorem k0_pay6_apply (a : Vec Ideal S200x10000 .f32) (h : Vec Ideal S10000x128 .bf16) (b : Vec Ideal S1x128 .f32) (r : Fin 200) (j : Fin 128) :
    k0_pay6 (F := Ideal) a h b (ix3 0 r j) = (∑ k : Fin 10000, a (ix2 r k) * h (ix2 k j)) + b (ix2 0 j) := by
  unfold k0_pay6
  refine (shapeCast_ab_1ab_apply _ _ 0 r j).trans ?_
  exact k0_pre_apply a h b r j

/-! ## The payloads of call `k1` at an entry -/

/-- The feature product `X · W1` at `(q, l)`. -/
theorem k1_pay1_apply (x : Vec Ideal S10000x128 .f32) (w1 : Vec Ideal S128x128 .f32) (q : Fin 10000) (l : Fin 128) :
    k1_pay1 (F := Ideal) x w1 (ix2 q l) = Cert.Spec.xw x w1 q l := by
  unfold k1_pay1
  refine (congrFun (shapeCast_self _ _) _).trans ?_
  exact matmulXW_apply (φ₁ := .f32) (φ₂ := .f32) x w1 q l

/-- The adjacency rows times a support plus the bias row, at `(r, l)`: the identity cast of the bias moves nothing, and
    the one-row broadcast reads the row at its column. -/
theorem k1_pre_apply (a : Vec Ideal S200x10000 .f32) (s : Vec Ideal S10000x128 .bf16) (b : Vec Ideal S1x128 .f32) (r : Fin 200) (l : Fin 128) :
    addf (F := Ideal) (φ := .f32) (matmul (F := Ideal) (φ₁ := .bf16) (φ₂ := .bf16) dot_S200x10000_S10000x128_S200x128_1_0_0_1_n_n none (k1_pay2 (F := Ideal) a) s (constant (F := Ideal) S200x128 .f32 0x00000000#32))
      (broadcastTo S200x128 (shapeCast S1x128 b shapeCasts_S1x128_S1x128) broadcasts_S1x128_S200x128) (ix2 r l)
      = (∑ q : Fin 10000, a (ix2 r q) * s (ix2 q l)) + b (ix2 0 l) := by
  refine (addf_apply _ _ _).trans ?_
  refine congrArg₂ (· + ·) ?_ ?_
  · exact matmulAS_apply (φ₁ := .bf16) (φ₂ := .bf16) (k1_pay2 (F := Ideal) a) s r l
  · refine (broadcastTo_1b_ab_apply _ _ r l).trans ?_
    exact congrFun (shapeCast_self b _) _

/-- The hidden layer times the second weights, at `(r, j)`. -/
theorem k1_pay3_apply (a : Vec Ideal S200x10000 .f32) (s : Vec Ideal S10000x128 .bf16) (b : Vec Ideal S1x128 .f32) (w : Vec Ideal S128x128 .f32) (r : Fin 200) (j : Fin 128) :
    k1_pay3 (F := Ideal) a s b w (ix2 r j) = ∑ l : Fin 128, max ((∑ q : Fin 10000, a (ix2 r q) * s (ix2 q l)) + b (ix2 0 l)) 0 * w (ix2 l j) := by
  unfold k1_pay3
  refine (matmulHW_apply (φ₁ := .f32) (φ₂ := .f32) _ w r j).trans ?_
  refine Finset.sum_congr rfl fun l _ => ?_
  refine congrArg (· * w (ix2 l j)) ?_
  refine (maximumf_apply _ _ _).trans ?_
  refine congrArg₂ max ?_ ?_
  · exact k1_pre_apply a s b r l
  · exact Ideal.ofBits_zero_f32

/-- The same entry after the identity rounding and the identity cast. -/
theorem k1_pay4_apply (a : Vec Ideal S200x10000 .f32) (s : Vec Ideal S10000x128 .bf16) (b : Vec Ideal S1x128 .f32) (w : Vec Ideal S128x128 .f32) (r : Fin 200) (j : Fin 128) :
    k1_pay4 (F := Ideal) a s b w (ix2 r j) = ∑ l : Fin 128, max ((∑ q : Fin 10000, a (ix2 r q) * s (ix2 q l)) + b (ix2 0 l)) 0 * w (ix2 l j) := by
  unfold k1_pay4
  refine (congrFun (shapeCast_self _ _) _).trans ?_
  exact k1_pay3_apply a s b w r j

/-- The same entry under a leading unit axis. -/
theorem k1_pay5_apply (a : Vec Ideal S200x10000 .f32) (s : Vec Ideal S10000x128 .bf16) (b : Vec Ideal S1x128 .f32) (w : Vec Ideal S128x128 .f32) (r : Fin 200) (j : Fin 128) :
    k1_pay5 (F := Ideal) a s b w (ix3 0 r j) = ∑ l : Fin 128, max ((∑ q : Fin 10000, a (ix2 r q) * s (ix2 q l)) + b (ix2 0 l)) 0 * w (ix2 l j) := by
  unfold k1_pay5
  refine (shapeCast_ab_1ab_apply _ _ 0 r j).trans ?_
  exact k1_pay3_apply a s b w r j

/-- The adjacency rows times the second support plus the bias row, under a leading unit axis. -/
theorem k1_pay6_apply (a : Vec Ideal S200x10000 .f32) (h : Vec Ideal S10000x128 .bf16) (b : Vec Ideal S1x128 .f32) (r : Fin 200) (j : Fin 128) :
    k1_pay6 (F := Ideal) a h b (ix3 0 r j) = (∑ k : Fin 10000, a (ix2 r k) * h (ix2 k j)) + b (ix2 0 j) := by
  unfold k1_pay6
  refine (shapeCast_ab_1ab_apply _ _ 0 r j).trans ?_
  exact k1_pre_apply a h b r j

end Cert.KernelIdeal.PayIdeal

end
-- ==== Proof.KI.Val0.lean ====
/-
  The first call's blocks read off their arrays, and the value of a second-pass point. Window 0's block at a point is 200
  consecutive rows of the adjacency matrix, starting at row 200 · (t mod 50); the other five operands' blocks are their
  whole arrays. Put through the payload lemmas, the result block a second-pass point leaves is, entry by entry, the
  two-layer network of the specification on the block's rows: only the sums' indices are renamed, no law of the extended
  reals is used.
-/
import proofs.«126728_g73796128079920_cont_9to1c4b_223_8_alg».proof.Proof.KI.Cases0
import proofs.«126728_g73796128079920_cont_9to1c4b_223_8_alg».proof.Proof.PayIdeal
import proofs.«126728_g73796128079920_cont_9to1c4b_223_8_alg».proof.Proof.Spec
import Idealize.ShloMosaic.Lib.Pipeline.Value
import Idealize.ShloMosaic.Lib.ValueIdx

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Blocks

variable {F : FTy → Type} [FloatOps F]

-- the TensorCore's buffer contents when the region is entered
variable (V : (c : Dev nD) → (b : Ref sig .tc) → Buf (Elt F) ((c : Thread nD τ).loc b))

/-- The six arrays the windows read, at their literal types. -/
abbrev arrA (c : Dev nD) : Vec F S10000x10000 .f32 := V c (Pipeline.arrRef spec0 0)
abbrev arrX (c : Dev nD) : Vec F S10000x128 .f32 := V c (Pipeline.arrRef spec0 1)
abbrev arrW1 (c : Dev nD) : Vec F S128x128 .f32 := V c (Pipeline.arrRef spec0 2)
abbrev arrB1 (c : Dev nD) : Vec F S1x128 .f32 := V c (Pipeline.arrRef spec0 3)
abbrev arrW2 (c : Dev nD) : Vec F S128x128 .f32 := V c (Pipeline.arrRef spec0 4)
abbrev arrB2 (c : Dev nD) : Vec F S1x128 .f32 := V c (Pipeline.arrRef spec0 5)

/-- The block indices of the six operand windows, decided over the grid: the adjacency window moves down with the block
    number `t mod 50`; the other five stay at the origin. -/
theorem idx_adj : ∀ t : Fin cfg0.N, win0_0.index t (0 : Fin 2) = t.val % 50 ∧ win0_0.index t (1 : Fin 2) = 0 :=
  (by decide +kernel : ∀ t : Fin grid0.N, win0_0.index t (0 : Fin 2) = t.val % 50 ∧ win0_0.index t (1 : Fin 2) = 0)
theorem idx_feat : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_w1 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_b1 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_w2 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_b2 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- The adjacency block at point `t` is rows `200 · (t mod 50) …` of the adjacency matrix. -/
theorem adjB_apply (c : Dev nD) (t : Fin cfg0.N) (r : Fin 200) (k : Fin 10000) :
    adjB V c t (ix2 r k) = arrA V c (ix2 (⟨200 * (t.val % 50) + r.val, by have := r.isLt; omega⟩ : Fin 10000) k) := by
  obtain ⟨e0, e1⟩ := idx_adj t
  show V c (Pipeline.arrRef spec0 0) (((cfg0.win 0).blk t).view.emb (ix2 r k)) = V c (Pipeline.arrRef spec0 0) _
  refine congrArg (V c (Pipeline.arrRef spec0 0)) (funext fun a => Fin.ext ?_)
  match a with
  | ⟨0, _⟩ => show win0_0.index t (0 : Fin 2) * 200 + 1 * r.val = 200 * (t.val % 50) + r.val; omega
  | ⟨1, _⟩ => show win0_0.index t (1 : Fin 2) * 10000 + 1 * k.val = k.val; omega

/-- The features' block is the whole feature matrix. -/
theorem featB_eq (c : Dev nD) (t : Fin cfg0.N) : featB V c t = arrX V c := by
  obtain ⟨e0, e1⟩ := idx_feat t
  funext y
  show V c (Pipeline.arrRef spec0 1) (((cfg0.win 1).blk t).view.emb y) = V c (Pipeline.arrRef spec0 1) y
  refine congrArg (V c (Pipeline.arrRef spec0 1)) (funext fun a => Fin.ext ?_)
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- The first weights' block is the whole matrix. -/
theorem w1B_eq (c : Dev nD) (t : Fin cfg0.N) : w1B V c t = arrW1 V c := by
  obtain ⟨e0, e1⟩ := idx_w1 t
  funext y
  show V c (Pipeline.arrRef spec0 2) (((cfg0.win 2).blk t).view.emb y) = V c (Pipeline.arrRef spec0 2) y
  refine congrArg (V c (Pipeline.arrRef spec0 2)) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The first bias row's block is the whole row. -/
theorem b1B_eq (c : Dev nD) (t : Fin cfg0.N) : b1B V c t = arrB1 V c := by
  obtain ⟨e0, e1⟩ := idx_b1 t
  funext y
  show V c (Pipeline.arrRef spec0 3) (((cfg0.win 3).blk t).view.emb y) = V c (Pipeline.arrRef spec0 3) y
  refine congrArg (V c (Pipeline.arrRef spec0 3)) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The second weights' block is the whole matrix. -/
theorem w2B_eq (c : Dev nD) (t : Fin cfg0.N) : w2B V c t = arrW2 V c := by
  obtain ⟨e0, e1⟩ := idx_w2 t
  funext y
  show V c (Pipeline.arrRef spec0 4) (((cfg0.win 4).blk t).view.emb y) = V c (Pipeline.arrRef spec0 4) y
  refine congrArg (V c (Pipeline.arrRef spec0 4)) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The second bias row's block is the whole row. -/
theorem b2B_eq (c : Dev nD) (t : Fin cfg0.N) : b2B V c t = arrB2 V c := by
  obtain ⟨e0, e1⟩ := idx_b2 t
  funext y
  show V c (Pipeline.arrRef spec0 5) (((cfg0.win 5).blk t).view.emb y) = V c (Pipeline.arrRef spec0 5) y
  refine congrArg (V c (Pipeline.arrRef spec0 5)) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

end Blocks

section Value

-- the TensorCore's buffer contents when the region is entered, at the ideal values
variable (V : (c : Dev nD) → (b : Ref sig .tc) → Buf (Elt Ideal) ((c : Thread nD τ).loc b))

/-- The product the first point keeps is the specification's feature product of the whole arrays. -/
theorem S1_spec (c : Dev nD) (q : Fin 10000) (l : Fin 128) :
    S1 (F := Ideal) V c (ix2 q l) = Cert.Spec.xw (arrX V c) (arrW1 V c) q l := by
  unfold S1
  refine (Cert.KernelIdeal.PayIdeal.k0_pay1_apply _ _ q l).trans ?_
  rw [featB_eq V c t0, w1B_eq V c t0]

/-- Row `k` of the adjacency matrix sits in the block of point `k / 200` at local row `k mod 200`. -/
theorem adjB_row (c : Dev nD) (k : Fin 10000) (j : Fin 128) (q : Fin 10000) :
    adjB V c (rowPt (ix2 k j)) (ix2 (⟨k.val % 200, Nat.mod_lt _ (by decide)⟩ : Fin 200) q) = arrA V c (ix2 k q) := by
  refine (adjB_apply V c (rowPt (ix2 k j)) _ q).trans ?_
  refine congrArg (arrA V c) (congrArg (fun i => ix2 i q) (Fin.ext ?_))
  show 200 * ((k.val / 200) % 50) + k.val % 200 = k.val
  have := k.isLt
  omega

/-- The rows the first pass keeps are the second layer's support of the specification. -/
theorem H2_spec (c : Dev nD) (k : Fin 10000) (j : Fin 128) :
    H2 (F := Ideal) V c (ix2 k j)
      = Cert.Spec.hwOf (Cert.Spec.hidOf (arrA V c) (Cert.Spec.xw (arrX V c) (arrW1 V c)) (fun l => arrB1 V c (ix2 0 l))) (arrW2 V c) k j := by
  show k0_pay4 (F := Ideal) (adjB V c (rowPt (ix2 k j))) (S1 V c) (b1B V c (rowPt (ix2 k j))) (w2B V c (rowPt (ix2 k j)))
      (ix2 (⟨k.val % 200, Nat.mod_lt _ (by decide)⟩ : Fin 200) j) = _
  refine (Cert.KernelIdeal.PayIdeal.k0_pay4_apply _ _ _ _ _ j).trans ?_
  unfold Cert.Spec.hwOf Cert.Spec.hidOf
  refine Finset.sum_congr rfl fun l _ => ?_
  rw [b1B_eq V c (rowPt (ix2 k j)), w2B_eq V c (rowPt (ix2 k j))]
  refine congrArg (fun s => max (s + arrB1 V c (ix2 0 l)) 0 * arrW2 V c (ix2 l j)) ?_
  refine Finset.sum_congr rfl fun q _ => ?_
  rw [adjB_row V c k j q, S1_spec V c q l]

/-- THE VALUE: the result block a second-pass point leaves is the network's output on the block's rows. -/
theorem out6_spec (c : Dev nD) (t : Fin cfg0.N) (ht : 50 ≤ t.val) (r : Fin 200) (j : Fin 128) :
    out6 (F := Ideal) V c t (ix3 0 r j)
      = Cert.Spec.gcn (arrA V c) (arrX V c) (arrW1 V c) (fun l => arrB1 V c (ix2 0 l)) (arrW2 V c) (fun l => arrB2 V c (ix2 0 l))
          (⟨200 * (t.val - 50) + r.val, by have := r.isLt; have := t.isLt; have : cfg0.N = 100 := N_0; omega⟩ : Fin 10000) j := by
  unfold out6
  rw [if_neg (by omega)]
  refine (Cert.KernelIdeal.PayIdeal.k0_pay6_apply _ _ _ r j).trans ?_
  unfold Cert.Spec.gcn Cert.Spec.outOf
  rw [b2B_eq V c t]
  refine congrArg (fun s => s + arrB2 V c (ix2 0 j)) ?_
  refine Finset.sum_congr rfl fun k _ => ?_
  rw [H2_spec V c k j, adjB_apply V c t r k]
  refine congrArg (fun i => arrA V c (ix2 i k) * _) (Fin.ext ?_)
  show 200 * (t.val % 50) + r.val = 200 * (t.val - 50) + r.val
  have := t.isLt
  have : cfg0.N = 100 := N_0
  omega

end Value

end Cert.KernelIdeal.R0

end
-- ==== Proof.KI.Val1.lean ====
/-
  The first call's blocks read off their arrays, and the value of a second-pass point. Window 0's block at a point is 200
  consecutive rows of the adjacency matrix, starting at row 200 · (t mod 50); the other five operands' blocks are their
  whole arrays. Put through the payload lemmas, the result block a second-pass point leaves is, entry by entry, the
  two-layer network of the specification on the block's rows: only the sums' indices are renamed, no law of the extended
  reals is used.
-/
import proofs.«126728_g73796128079920_cont_9to1c4b_223_8_alg».proof.Proof.KI.Cases1
import proofs.«126728_g73796128079920_cont_9to1c4b_223_8_alg».proof.Proof.PayIdeal
import proofs.«126728_g73796128079920_cont_9to1c4b_223_8_alg».proof.Proof.Spec
import Idealize.ShloMosaic.Lib.Pipeline.Value
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Blocks

variable {F : FTy → Type} [FloatOps F]

-- the TensorCore's buffer contents when the region is entered
variable (V : (c : Dev nD) → (b : Ref sig .tc) → Buf (Elt F) ((c : Thread nD τ).loc b))

/-- The six arrays the windows read, at their literal types. -/
abbrev arrA (c : Dev nD) : Vec F S10000x10000 .f32 := V c (Pipeline.arrRef spec1 0)
abbrev arrX (c : Dev nD) : Vec F S10000x128 .f32 := V c (Pipeline.arrRef spec1 1)
abbrev arrW1 (c : Dev nD) : Vec F S128x128 .f32 := V c (Pipeline.arrRef spec1 2)
abbrev arrB1 (c : Dev nD) : Vec F S1x128 .f32 := V c (Pipeline.arrRef spec1 3)
abbrev arrW2 (c : Dev nD) : Vec F S128x128 .f32 := V c (Pipeline.arrRef spec1 4)
abbrev arrB2 (c : Dev nD) : Vec F S1x128 .f32 := V c (Pipeline.arrRef spec1 5)

/-- The block indices of the six operand windows, decided over the grid: the adjacency window moves down with the block
    number `t mod 50`; the other five stay at the origin. -/
theorem idx_adj : ∀ t : Fin cfg1.N, win1_0.index t (0 : Fin 2) = t.val % 50 ∧ win1_0.index t (1 : Fin 2) = 0 :=
  (by decide +kernel : ∀ t : Fin grid1.N, win1_0.index t (0 : Fin 2) = t.val % 50 ∧ win1_0.index t (1 : Fin 2) = 0)
theorem idx_feat : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx_w1 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx_b1 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx_w2 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx_b2 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)

/-- The adjacency block at point `t` is rows `200 · (t mod 50) …` of the adjacency matrix. -/
theorem adjB_apply (c : Dev nD) (t : Fin cfg1.N) (r : Fin 200) (k : Fin 10000) :
    adjB V c t (ix2 r k) = arrA V c (ix2 (⟨200 * (t.val % 50) + r.val, by have := r.isLt; omega⟩ : Fin 10000) k) := by
  obtain ⟨e0, e1⟩ := idx_adj t
  show V c (Pipeline.arrRef spec1 0) (((cfg1.win 0).blk t).view.emb (ix2 r k)) = V c (Pipeline.arrRef spec1 0) _
  refine congrArg (V c (Pipeline.arrRef spec1 0)) (funext fun a => Fin.ext ?_)
  match a with
  | ⟨0, _⟩ => show win1_0.index t (0 : Fin 2) * 200 + 1 * r.val = 200 * (t.val % 50) + r.val; omega
  | ⟨1, _⟩ => show win1_0.index t (1 : Fin 2) * 10000 + 1 * k.val = k.val; omega

/-- The features' block is the whole feature matrix. -/
theorem featB_eq (c : Dev nD) (t : Fin cfg1.N) : featB V c t = arrX V c := by
  obtain ⟨e0, e1⟩ := idx_feat t
  funext y
  show V c (Pipeline.arrRef spec1 1) (((cfg1.win 1).blk t).view.emb y) = V c (Pipeline.arrRef spec1 1) y
  refine congrArg (V c (Pipeline.arrRef spec1 1)) (funext fun a => Fin.ext ?_)
  match a with
  | ⟨0, _⟩ => show win1_1.index t (0 : Fin 2) * 10000 + 1 * (y 0).val = (y 0).val; omega
  | ⟨1, _⟩ => show win1_1.index t (1 : Fin 2) * 128 + 1 * (y 1).val = (y 1).val; omega

/-- The first weights' block is the whole matrix. -/
theorem w1B_eq (c : Dev nD) (t : Fin cfg1.N) : w1B V c t = arrW1 V c := by
  obtain ⟨e0, e1⟩ := idx_w1 t
  funext y
  show V c (Pipeline.arrRef spec1 2) (((cfg1.win 2).blk t).view.emb y) = V c (Pipeline.arrRef spec1 2) y
  refine congrArg (V c (Pipeline.arrRef spec1 2)) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The first bias row's block is the whole row. -/
theorem b1B_eq (c : Dev nD) (t : Fin cfg1.N) : b1B V c t = arrB1 V c := by
  obtain ⟨e0, e1⟩ := idx_b1 t
  funext y
  show V c (Pipeline.arrRef spec1 3) (((cfg1.win 3).blk t).view.emb y) = V c (Pipeline.arrRef spec1 3) y
  refine congrArg (V c (Pipeline.arrRef spec1 3)) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The second weights' block is the whole matrix. -/
theorem w2B_eq (c : Dev nD) (t : Fin cfg1.N) : w2B V c t = arrW2 V c := by
  obtain ⟨e0, e1⟩ := idx_w2 t
  funext y
  show V c (Pipeline.arrRef spec1 4) (((cfg1.win 4).blk t).view.emb y) = V c (Pipeline.arrRef spec1 4) y
  refine congrArg (V c (Pipeline.arrRef spec1 4)) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The second bias row's block is the whole row. -/
theorem b2B_eq (c : Dev nD) (t : Fin cfg1.N) : b2B V c t = arrB2 V c := by
  obtain ⟨e0, e1⟩ := idx_b2 t
  funext y
  show V c (Pipeline.arrRef spec1 5) (((cfg1.win 5).blk t).view.emb y) = V c (Pipeline.arrRef spec1 5) y
  refine congrArg (V c (Pipeline.arrRef spec1 5)) (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

end Blocks

section Value

-- the TensorCore's buffer contents when the region is entered, at the ideal values
variable (V : (c : Dev nD) → (b : Ref sig .tc) → Buf (Elt Ideal) ((c : Thread nD τ).loc b))

/-- The product the first point keeps is the specification's feature product of the whole arrays. -/
theorem S1_spec (c : Dev nD) (q : Fin 10000) (l : Fin 128) :
    S1 (F := Ideal) V c (ix2 q l) = Cert.Spec.xw (arrX V c) (arrW1 V c) q l := by
  unfold S1
  refine (Cert.KernelIdeal.PayIdeal.k1_pay1_apply _ _ q l).trans ?_
  rw [featB_eq V c t0, w1B_eq V c t0]

/-- Row `k` of the adjacency matrix sits in the block of point `k / 200` at local row `k mod 200`. -/
theorem adjB_row (c : Dev nD) (k : Fin 10000) (j : Fin 128) (q : Fin 10000) :
    adjB V c (rowPt (ix2 k j)) (ix2 (⟨k.val % 200, Nat.mod_lt _ (by decide)⟩ : Fin 200) q) = arrA V c (ix2 k q) := by
  refine (adjB_apply V c (rowPt (ix2 k j)) _ q).trans ?_
  refine congrArg (arrA V c) (congrArg (fun i => ix2 i q) (Fin.ext ?_))
  show 200 * ((k.val / 200) % 50) + k.val % 200 = k.val
  have := k.isLt
  omega

/-- The rows the first pass keeps are the second layer's support of the specification. -/
theorem H2_spec (c : Dev nD) (k : Fin 10000) (j : Fin 128) :
    H2 (F := Ideal) V c (ix2 k j)
      = Cert.Spec.hwOf (Cert.Spec.hidOf (arrA V c) (Cert.Spec.xw (arrX V c) (arrW1 V c)) (fun l => arrB1 V c (ix2 0 l))) (arrW2 V c) k j := by
  show k1_pay4 (F := Ideal) (adjB V c (rowPt (ix2 k j))) (S1 V c) (b1B V c (rowPt (ix2 k j))) (w2B V c (rowPt (ix2 k j)))
      (ix2 (⟨k.val % 200, Nat.mod_lt _ (by decide)⟩ : Fin 200) j) = _
  refine (Cert.KernelIdeal.PayIdeal.k1_pay4_apply _ _ _ _ _ j).trans ?_
  unfold Cert.Spec.hwOf Cert.Spec.hidOf
  refine Finset.sum_congr rfl fun l _ => ?_
  rw [b1B_eq V c (rowPt (ix2 k j)), w2B_eq V c (rowPt (ix2 k j))]
  refine congrArg (fun s => max (s + arrB1 V c (ix2 0 l)) 0 * arrW2 V c (ix2 l j)) ?_
  refine Finset.sum_congr rfl fun q _ => ?_
  rw [adjB_row V c k j q, S1_spec V c q l]

/-- THE VALUE: the result block a second-pass point leaves is the network's output on the block's rows. -/
theorem out6_spec (c : Dev nD) (t : Fin cfg1.N) (ht : 50 ≤ t.val) (r : Fin 200) (j : Fin 128) :
    out6 (F := Ideal) V c t (ix3 0 r j)
      = Cert.Spec.gcn (arrA V c) (arrX V c) (arrW1 V c) (fun l => arrB1 V c (ix2 0 l)) (arrW2 V c) (fun l => arrB2 V c (ix2 0 l))
          (⟨200 * (t.val - 50) + r.val, by have := r.isLt; have := t.isLt; have : cfg1.N = 100 := N_1; omega⟩ : Fin 10000) j := by
  unfold out6
  rw [if_neg (by omega)]
  refine (Cert.KernelIdeal.PayIdeal.k1_pay6_apply _ _ _ r j).trans ?_
  unfold Cert.Spec.gcn Cert.Spec.outOf
  rw [b2B_eq V c t]
  refine congrArg (fun s => s + arrB2 V c (ix2 0 j)) ?_
  refine Finset.sum_congr rfl fun k _ => ?_
  rw [H2_spec V c k j, adjB_apply V c t r k]
  refine congrArg (fun i => arrA V c (ix2 i k) * _) (Fin.ext ?_)
  show 200 * (t.val % 50) + r.val = 200 * (t.val - 50) + r.val
  have := t.isLt
  have : cfg1.N = 100 := N_1
  omega

end Value

end Cert.KernelIdeal.R1

end
-- ==== Proof.Final.lean ====
/-
  The idealized kernel program's two results, entry by entry: each is the specification's two-layer network of the arrays
  the launch finds in memory. A result's entry is read off the second half of its call's output array; that half's rows
  are written by the second-pass points, whose blocks hold the network's output on their rows; and the arrays the call
  reads are the launch's arguments, the bias rows being the bias vectors laid out as rows.
-/
import proofs.«126728_g73796128079920_cont_9to1c4b_223_8_alg».proof.Proof.KI.Reads
import proofs.«126728_g73796128079920_cont_9to1c4b_223_8_alg».proof.Proof.KI.Arr0
import proofs.«126728_g73796128079920_cont_9to1c4b_223_8_alg».proof.Proof.KI.Arr1
import proofs.«126728_g73796128079920_cont_9to1c4b_223_8_alg».proof.Proof.KI.Val0
import proofs.«126728_g73796128079920_cont_9to1c4b_223_8_alg».proof.Proof.KI.Val1
import proofs.«126728_g73796128079920_cont_9to1c4b_223_8_alg».proof.Proof.Spec
import Idealize.ShloMosaic.Lib.ValueIdx

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

-- the launch memory, at the ideal values
variable (m : (ℓ : Loc nD τ sig) → Buf (Elt Ideal) ℓ)

/-- The first result at `(r, j)`: row `r` lies in block `r / 200` of the second pass at local row `r mod 200`. -/
theorem result0 (c : Dev nD) (r : Fin 10000) (j : Fin 128) :
    (Run.W5 m c (Proc.devRef .tc main_v4) : S10000x128.Idx → EReal) (ix2 r j)
      = Cert.Spec.gcn (m ((c : Thread nD τ).loc main_arg0)) (m ((c : Thread nD τ).loc main_arg1)) (m ((c : Thread nD τ).loc main_arg4))
          (fun l => (m ((c : Thread nD τ).loc main_arg5) : S128.Idx → EReal) (ix1 l)) (m ((c : Thread nD τ).loc main_arg6))
          (fun l => (m ((c : Thread nD τ).loc main_arg7) : S128.Idx → EReal) (ix1 l)) r j := by
  have hr := r.isLt
  refine (Run.W5_v4_apply m c r j).trans ?_
  refine (R0.arrAt6 (Run.V1 m) c 1 r j).trans ?_
  refine (R0.out6_spec (Run.V1 m) c _ (by show 50 ≤ 1 * 50 + r.val / 200; omega) _ j).trans ?_
  obtain ⟨hA, hX, hW1, hW2⟩ := Run.V1_arg m c
  have hb1 : (fun l : Fin 128 => (R0.arrB1 (Run.V1 m) c (ix2 0 l) : EReal)) = fun l => (m ((c : Thread nD τ).loc main_arg5) : S128.Idx → EReal) (ix1 l) :=
    funext fun l => Run.V1_v0_apply m c l
  have hb2 : (fun l : Fin 128 => (R0.arrB2 (Run.V1 m) c (ix2 0 l) : EReal)) = fun l => (m ((c : Thread nD τ).loc main_arg7) : S128.Idx → EReal) (ix1 l) :=
    funext fun l => Run.V1_v1_apply m c l
  show Cert.Spec.gcn (Run.V1 m c main_arg0) (Run.V1 m c main_arg1) (Run.V1 m c main_arg4) (fun l => R0.arrB1 (Run.V1 m) c (ix2 0 l))
      (Run.V1 m c main_arg6) (fun l => R0.arrB2 (Run.V1 m) c (ix2 0 l)) _ j = _
  rw [hA, hX, hW1, hW2, hb1, hb2]
  refine congrArg (fun i : Fin 10000 => Cert.Spec.gcn _ _ _ _ _ _ i j) (Fin.ext ?_)
  show 200 * ((1 * 50 + r.val / 200) - 50) + r.val % 200 = r.val
  omega

/-- The second result at `(r, j)`: row `r` lies in block `r / 200` of the second pass at local row `r mod 200`. -/
theorem result1 (c : Dev nD) (r : Fin 10000) (j : Fin 128) :
    (Run.W5 m c (Proc.devRef .tc main_v9) : S10000x128.Idx → EReal) (ix2 r j)
      = Cert.Spec.gcn (m ((c : Thread nD τ).loc main_arg2)) (m ((c : Thread nD τ).loc main_arg3)) (m ((c : Thread nD τ).loc main_arg8))
          (fun l => (m ((c : Thread nD τ).loc main_arg9) : S128.Idx → EReal) (ix1 l)) (m ((c : Thread nD τ).loc main_arg10))
          (fun l => (m ((c : Thread nD τ).loc main_arg11) : S128.Idx → EReal) (ix1 l)) r j := by
  have hr := r.isLt
  refine (Run.W5_v9_apply m c r j).trans ?_
  refine (R1.arrAt6 (Run.V3 m) c 1 r j).trans ?_
  refine (R1.out6_spec (Run.V3 m) c _ (by show 50 ≤ 1 * 50 + r.val / 200; omega) _ j).trans ?_
  obtain ⟨hA, hX, hW1, hW2⟩ := Run.V3_arg m c
  have hb1 : (fun l : Fin 128 => (R1.arrB1 (Run.V3 m) c (ix2 0 l) : EReal)) = fun l => (m ((c : Thread nD τ).loc main_arg9) : S128.Idx → EReal) (ix1 l) :=
    funext fun l => Run.V3_v5_apply m c l
  have hb2 : (fun l : Fin 128 => (R1.arrB2 (Run.V3 m) c (ix2 0 l) : EReal)) = fun l => (m ((c : Thread nD τ).loc main_arg11) : S128.Idx → EReal) (ix1 l) :=
    funext fun l => Run.V3_v6_apply m c l
  show Cert.Spec.gcn (Run.V3 m c main_arg2) (Run.V3 m c main_arg3) (Run.V3 m c main_arg8) (fun l => R1.arrB1 (Run.V3 m) c (ix2 0 l))
      (Run.V3 m c main_arg10) (fun l => R1.arrB2 (Run.V3 m) c (ix2 0 l)) _ j = _
  rw [hA, hX, hW1, hW2, hb1, hb2]
  refine congrArg (fun i : Fin 10000 => Cert.Spec.gcn _ _ _ _ _ _ i j) (Fin.ext ?_)
  show 200 * ((1 * 50 + r.val / 200) - 50) + r.val % 200 = r.val
  omega

end Cert.KernelIdeal.Final

end
-- ==== Proof.Reference.lean ====
/-
  The reference program's value: both of its results as functions of the argument arrays, read index by index.
  Each result is the two-layer graph convolution of the specification at its six arguments: the products are read as
  sums over the contracted coordinate, the biases as functions of the column, the constant zero as 0.
-/
import proofs.«126728_g73796128079920_cont_9to1c4b_223_8_alg».proof.Proof.Gen.ReferenceIdeal.Run
import proofs.«126728_g73796128079920_cont_9to1c4b_223_8_alg».proof.Proof.Gen.ReferenceIdeal.Read
import proofs.«126728_g73796128079920_cont_9to1c4b_223_8_alg».proof.Proof.Spec

noncomputable section

namespace Cert.ReferenceIdeal.RefValue

open Cert.ReferenceIdeal Cert.ReferenceIdeal.Read Idealize.ShloMosaic Idealize.ShloMosaic.ValueIdx

/-- Two rank-2 (or rank-1) indices given coordinate by coordinate are equal when their coordinates are. -/
local macro "idx_eq" : tactic =>
  `(tactic| (funext a; apply Fin.ext; first | (match a with | ⟨0, _⟩ => rfl | ⟨1, _⟩ => rfl) | (match a with | ⟨0, _⟩ => rfl)))

/-! ### The chain of result `main_v10` -/

/-- The feature product: entry `(q, l)` is the sum over `p` of `X q p · W1 p l`. -/
theorem ref_v0 (x1 : (⟨S10000x128, .f32⟩ : BufTy).Contents (Elt Ideal)) (x4 : (⟨S128x128, .f32⟩ : BufTy).Contents (Elt Ideal)) (q : Fin 10000) (l : Fin 128) :
    val_main_v0 (F := Ideal) x1 x4 (ix2 q l) = Cert.Spec.xw x1 x4 q l := by
  rw [val_main_v0_apply]
  unfold Cert.Spec.xw
  refine Finset.sum_congr rfl fun p _ => ?_
  rw [show lidx_main_v0 (ix2 q l) p = ix2 q p by idx_eq, show ridx_main_v0 (ix2 q l) p = ix2 p l by idx_eq]

/-- The first layer before the bias: entry `(k, l)` is the sum over `q` of `A k q` times the feature product at `(q, l)`. -/
theorem ref_v1 (x0 : (⟨S10000x10000, .f32⟩ : BufTy).Contents (Elt Ideal)) (x1 : (⟨S10000x128, .f32⟩ : BufTy).Contents (Elt Ideal)) (x4 : (⟨S128x128, .f32⟩ : BufTy).Contents (Elt Ideal)) (k : Fin 10000) (l : Fin 128) :
    val_main_v1 (F := Ideal) x0 x1 x4 (ix2 k l) = ∑ q : Fin 10000, x0 (ix2 k q) * Cert.Spec.xw x1 x4 q l := by
  rw [val_main_v1_apply]
  refine Finset.sum_congr rfl fun q _ => ?_
  rw [show lidx_main_v1 (ix2 k l) q = ix2 k q by idx_eq, show ridx_main_v1 (ix2 k l) q = ix2 q l by idx_eq, ref_v0]

/-- The first bias spread over the rows: entry `(k, l)` is `b1 l`. -/
theorem ref_v3 (x5 : (⟨S128, .f32⟩ : BufTy).Contents (Elt Ideal)) (k : Fin 10000) (l : Fin 128) :
    val_main_v3 (F := Ideal) x5 (ix2 k l) = x5 (ix1 l) := by
  rw [val_main_v3_apply, val_main_v2_apply]
  exact congrArg x5 (by idx_eq)

/-- The constant spread over the array is 0 at every entry. -/
theorem ref_call0_v0 (i : S10000x128.Idx) : val_main_call0_v0 (F := Ideal) i = 0 := by
  rw [val_main_call0_v0_apply, val_main_call0_cst_apply, Ideal.ofBits_def, Ideal.ofBits_zero_f32]

/-- The hidden layer: entry `(k, l)` is `max (first layer + b1 l) 0`. -/
theorem ref_v5 (x0 : (⟨S10000x10000, .f32⟩ : BufTy).Contents (Elt Ideal)) (x1 : (⟨S10000x128, .f32⟩ : BufTy).Contents (Elt Ideal)) (x4 : (⟨S128x128, .f32⟩ : BufTy).Contents (Elt Ideal)) (x5 : (⟨S128, .f32⟩ : BufTy).Contents (Elt Ideal)) (k : Fin 10000) (l : Fin 128) :
    val_main_v5 (F := Ideal) x0 x1 x4 x5 (ix2 k l)
      = Cert.Spec.hidOf x0 (Cert.Spec.xw x1 x4) (fun l => x5 (ix1 l)) k l := by
  rw [val_main_v5_apply, val_main_v4_apply, ref_v1, ref_v3, ref_call0_v0, Ideal.maximumf_def, Ideal.addf_def]
  rfl

/-- The second layer's support: entry `(k, j)` is the sum over `l` of the hidden layer at `(k, l)` times `W2 l j`. -/
theorem ref_v6 (x0 : (⟨S10000x10000, .f32⟩ : BufTy).Contents (Elt Ideal)) (x1 : (⟨S10000x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (k : Fin 10000) (j : Fin 128) :
    val_main_v6 (F := Ideal) x0 x1 x4 x5 x6 (ix2 k j)
      = Cert.Spec.hwOf (Cert.Spec.hidOf x0 (Cert.Spec.xw x1 x4) (fun l => x5 (ix1 l))) x6 k j := by
  rw [val_main_v6_apply]
  unfold Cert.Spec.hwOf
  refine Finset.sum_congr rfl fun l _ => ?_
  rw [show lidx_main_v6 (ix2 k j) l = ix2 k l by idx_eq, show ridx_main_v6 (ix2 k j) l = ix2 l j by idx_eq, ref_v5]

/-- The second layer before the bias: entry `(r, j)` is the sum over `k` of `A r k` times the support at `(k, j)`. -/
theorem ref_v7 (x0 : (⟨S10000x10000, .f32⟩ : BufTy).Contents (Elt Ideal)) (x1 : (⟨S10000x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (r : Fin 10000) (j : Fin 128) :
    val_main_v7 (F := Ideal) x0 x1 x4 x5 x6 (ix2 r j)
      = ∑ k : Fin 10000, x0 (ix2 r k) * Cert.Spec.hwOf (Cert.Spec.hidOf x0 (Cert.Spec.xw x1 x4) (fun l => x5 (ix1 l))) x6 k j := by
  rw [val_main_v7_apply]
  refine Finset.sum_congr rfl fun k _ => ?_
  rw [show lidx_main_v7 (ix2 r j) k = ix2 r k by idx_eq, show ridx_main_v7 (ix2 r j) k = ix2 k j by idx_eq, ref_v6]

/-- The second bias spread over the rows: entry `(r, j)` is `b2 j`. -/
theorem ref_v9 (x7 : (⟨S128, .f32⟩ : BufTy).Contents (Elt Ideal)) (r : Fin 10000) (j : Fin 128) :
    val_main_v9 (F := Ideal) x7 (ix2 r j) = x7 (ix1 j) := by
  rw [val_main_v9_apply, val_main_v8_apply]
  exact congrArg x7 (by idx_eq)

/-- The result `main_v10` is the two-layer graph convolution at every entry. -/
theorem ref_v10 (x0 : (⟨S10000x10000, .f32⟩ : BufTy).Contents (Elt Ideal)) (x1 : (⟨S10000x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (r : Fin 10000) (j : Fin 128) :
    val_main_v10 (F := Ideal) x0 x1 x4 x5 x6 x7 (ix2 r j)
      = Cert.Spec.gcn x0 x1 x4 (fun l => x5 (ix1 l)) x6 (fun l => x7 (ix1 l)) r j := by
  rw [val_main_v10_apply, ref_v7, ref_v9, Ideal.addf_def]
  rfl

/-! ### The chain of result `main_v21` -/

/-- The feature product: entry `(q, l)` is the sum over `p` of `X q p · W1 p l`. -/
theorem ref_v11 (x3 : (⟨S10000x128, .f32⟩ : BufTy).Contents (Elt Ideal)) (x8 : (⟨S128x128, .f32⟩ : BufTy).Contents (Elt Ideal)) (q : Fin 10000) (l : Fin 128) :
    val_main_v11 (F := Ideal) x3 x8 (ix2 q l) = Cert.Spec.xw x3 x8 q l := by
  rw [val_main_v11_apply]
  unfold Cert.Spec.xw
  refine Finset.sum_congr rfl fun p _ => ?_
  rw [show lidx_main_v11 (ix2 q l) p = ix2 q p by idx_eq, show ridx_main_v11 (ix2 q l) p = ix2 p l by idx_eq]

/-- The first layer before the bias: entry `(k, l)` is the sum over `q` of `A k q` times the feature product at `(q, l)`. -/
theorem ref_v12 (x2 : (⟨S10000x10000, .f32⟩ : BufTy).Contents (Elt Ideal)) (x3 : (⟨S10000x128, .f32⟩ : BufTy).Contents (Elt Ideal)) (x8 : (⟨S128x128, .f32⟩ : BufTy).Contents (Elt Ideal)) (k : Fin 10000) (l : Fin 128) :
    val_main_v12 (F := Ideal) x2 x3 x8 (ix2 k l) = ∑ q : Fin 10000, x2 (ix2 k q) * Cert.Spec.xw x3 x8 q l := by
  rw [val_main_v12_apply]
  refine Finset.sum_congr rfl fun q _ => ?_
  rw [show lidx_main_v12 (ix2 k l) q = ix2 k q by idx_eq, show ridx_main_v12 (ix2 k l) q = ix2 q l by idx_eq, ref_v11]

/-- The first bias spread over the rows: entry `(k, l)` is `b1 l`. -/
theorem ref_v14 (x9 : (⟨S128, .f32⟩ : BufTy).Contents (Elt Ideal)) (k : Fin 10000) (l : Fin 128) :
    val_main_v14 (F := Ideal) x9 (ix2 k l) = x9 (ix1 l) := by
  rw [val_main_v14_apply, val_main_v13_apply]
  exact congrArg x9 (by idx_eq)

/-- The constant spread over the array is 0 at every entry. -/
theorem ref_call1_v0 (i : S10000x128.Idx) : val_main_call1_v0 (F := Ideal) i = 0 := by
  rw [val_main_call1_v0_apply, val_main_call1_cst_apply, Ideal.ofBits_def, Ideal.ofBits_zero_f32]

/-- The hidden layer: entry `(k, l)` is `max (first layer + b1 l) 0`. -/
theorem ref_v16 (x2 : (⟨S10000x10000, .f32⟩ : BufTy).Contents (Elt Ideal)) (x3 : (⟨S10000x128, .f32⟩ : BufTy).Contents (Elt Ideal)) (x8 : (⟨S128x128, .f32⟩ : BufTy).Contents (Elt Ideal)) (x9 : (⟨S128, .f32⟩ : BufTy).Contents (Elt Ideal)) (k : Fin 10000) (l : Fin 128) :
    val_main_v16 (F := Ideal) x2 x3 x8 x9 (ix2 k l)
      = Cert.Spec.hidOf x2 (Cert.Spec.xw x3 x8) (fun l => x9 (ix1 l)) k l := by
  rw [val_main_v16_apply, val_main_v15_apply, ref_v12, ref_v14, ref_call1_v0, Ideal.maximumf_def, Ideal.addf_def]
  rfl

/-- The second layer's support: entry `(k, j)` is the sum over `l` of the hidden layer at `(k, l)` times `W2 l j`. -/
theorem ref_v17 (x2 : (⟨S10000x10000, .f32⟩ : BufTy).Contents (Elt Ideal)) (x3 : (⟨S10000x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (k : Fin 10000) (j : Fin 128) :
    val_main_v17 (F := Ideal) x2 x3 x8 x9 x10 (ix2 k j)
      = Cert.Spec.hwOf (Cert.Spec.hidOf x2 (Cert.Spec.xw x3 x8) (fun l => x9 (ix1 l))) x10 k j := by
  rw [val_main_v17_apply]
  unfold Cert.Spec.hwOf
  refine Finset.sum_congr rfl fun l _ => ?_
  rw [show lidx_main_v17 (ix2 k j) l = ix2 k l by idx_eq, show ridx_main_v17 (ix2 k j) l = ix2 l j by idx_eq, ref_v16]

/-- The second layer before the bias: entry `(r, j)` is the sum over `k` of `A r k` times the support at `(k, j)`. -/
theorem ref_v18 (x2 : (⟨S10000x10000, .f32⟩ : BufTy).Contents (Elt Ideal)) (x3 : (⟨S10000x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (r : Fin 10000) (j : Fin 128) :
    val_main_v18 (F := Ideal) x2 x3 x8 x9 x10 (ix2 r j)
      = ∑ k : Fin 10000, x2 (ix2 r k) * Cert.Spec.hwOf (Cert.Spec.hidOf x2 (Cert.Spec.xw x3 x8) (fun l => x9 (ix1 l))) x10 k j := by
  rw [val_main_v18_apply]
  refine Finset.sum_congr rfl fun k _ => ?_
  rw [show lidx_main_v18 (ix2 r j) k = ix2 r k by idx_eq, show ridx_main_v18 (ix2 r j) k = ix2 k j by idx_eq, ref_v17]

/-- The second bias spread over the rows: entry `(r, j)` is `b2 j`. -/
theorem ref_v20 (x11 : (⟨S128, .f32⟩ : BufTy).Contents (Elt Ideal)) (r : Fin 10000) (j : Fin 128) :
    val_main_v20 (F := Ideal) x11 (ix2 r j) = x11 (ix1 j) := by
  rw [val_main_v20_apply, val_main_v19_apply]
  exact congrArg x11 (by idx_eq)

/-- The result `main_v21` is the two-layer graph convolution at every entry. -/
theorem ref_v21 (x2 : (⟨S10000x10000, .f32⟩ : BufTy).Contents (Elt Ideal)) (x3 : (⟨S10000x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (r : Fin 10000) (j : Fin 128) :
    val_main_v21 (F := Ideal) x2 x3 x8 x9 x10 x11 (ix2 r j)
      = Cert.Spec.gcn x2 x3 x8 (fun l => x9 (ix1 l)) x10 (fun l => x11 (ix1 l)) r j := by
  rw [val_main_v21_apply, ref_v18, ref_v20, Ideal.addf_def]
  rfl

end Cert.ReferenceIdeal.RefValue

end
-- ==== Proof.lean ====
/-
  The certificate's five conjuncts. Both printed programs run the two graph convolutions as kernel regions among host
  reshapes and slices; each program's run ends with every unscoped buffer at a named valuation, from which the frame
  (the twelve arguments unchanged) is read at once. At the extended reals the kernel program's two results are, index by
  index, the two-layer network `A · (relu (A · (X · W1) + b1) · W2) + b2` of the launch arguments, and so are the
  reference's; the sums stand in the same association on both sides, so no law of the extended reals is used.
-/
import proofs.«126728_g73796128079920_cont_9to1c4b_223_8_alg».proof.Defs
import proofs.«126728_g73796128079920_cont_9to1c4b_223_8_alg».proof.Proof.Gen.Kernel
import proofs.«126728_g73796128079920_cont_9to1c4b_223_8_alg».proof.Proof.Gen.KernelIdeal
import proofs.«126728_g73796128079920_cont_9to1c4b_223_8_alg».proof.Proof.Gen.ReferenceIdeal
import proofs.«126728_g73796128079920_cont_9to1c4b_223_8_alg».proof.Proof.Gen.Pre_finite_inputs
import proofs.«126728_g73796128079920_cont_9to1c4b_223_8_alg».proof.Proof.KI.Launch
import proofs.«126728_g73796128079920_cont_9to1c4b_223_8_alg».proof.Proof.KI.Reads
import proofs.«126728_g73796128079920_cont_9to1c4b_223_8_alg».proof.Proof.KB.Launch
import proofs.«126728_g73796128079920_cont_9to1c4b_223_8_alg».proof.Proof.KB.Reads
import proofs.«126728_g73796128079920_cont_9to1c4b_223_8_alg».proof.Proof.Final
import proofs.«126728_g73796128079920_cont_9to1c4b_223_8_alg».proof.Proof.Reference

noncomputable section

namespace Cert.Proof

open Idealize.ShloMosaic Idealize.ShloMosaic.TcCoe Idealize.SL.Sem Idealize.ShloMosaic.ValueIdx

/-- The word-level program runs and leaves its arguments as launched. -/
theorem frame_k : Cert.frame_Kernel := fun m ρ _ =>
  (θ_run Cert.Kernel.defs _ _).mono (fun r h c => by
    open Cert.Kernel in
    exact ⟨(h c _ (Cert.Kernel.Run.mem_uc main_arg0 (by decide))).trans (Cert.Kernel.Run.W5_main_arg0 m c),
      (h c _ (Cert.Kernel.Run.mem_uc main_arg1 (by decide))).trans (Cert.Kernel.Run.W5_main_arg1 m c),
      (h c _ (Cert.Kernel.Run.mem_uc main_arg2 (by decide))).trans (Cert.Kernel.Run.W5_main_arg2 m c),
      (h c _ (Cert.Kernel.Run.mem_uc main_arg3 (by decide))).trans (Cert.Kernel.Run.W5_main_arg3 m c),
      (h c _ (Cert.Kernel.Run.mem_uc main_arg4 (by decide))).trans (Cert.Kernel.Run.W5_main_arg4 m c),
      (h c _ (Cert.Kernel.Run.mem_uc main_arg5 (by decide))).trans (Cert.Kernel.Run.W5_main_arg5 m c),
      (h c _ (Cert.Kernel.Run.mem_uc main_arg6 (by decide))).trans (Cert.Kernel.Run.W5_main_arg6 m c),
      (h c _ (Cert.Kernel.Run.mem_uc main_arg7 (by decide))).trans (Cert.Kernel.Run.W5_main_arg7 m c),
      (h c _ (Cert.Kernel.Run.mem_uc main_arg8 (by decide))).trans (Cert.Kernel.Run.W5_main_arg8 m c),
      (h c _ (Cert.Kernel.Run.mem_uc main_arg9 (by decide))).trans (Cert.Kernel.Run.W5_main_arg9 m c),
      (h c _ (Cert.Kernel.Run.mem_uc main_arg10 (by decide))).trans (Cert.Kernel.Run.W5_main_arg10 m c),
      (h c _ (Cert.Kernel.Run.mem_uc main_arg11 (by decide))).trans (Cert.Kernel.Run.W5_main_arg11 m c)⟩)
    (Cert.Kernel.Run.run_main (F := Bits) m ρ)

/-- The idealized kernel program runs and leaves its arguments as launched. -/
theorem frame_ki : Cert.frame_KernelIdeal := fun m ρ _ =>
  (θ_run Cert.KernelIdeal.defs _ _).mono (fun r h c => by
    open Cert.KernelIdeal in
    exact ⟨(h c _ (Cert.KernelIdeal.Run.mem_uc main_arg0 (by decide))).trans (Cert.KernelIdeal.Run.W5_main_arg0 m c),
      (h c _ (Cert.KernelIdeal.Run.mem_uc main_arg1 (by decide))).trans (Cert.KernelIdeal.Run.W5_main_arg1 m c),
      (h c _ (Cert.KernelIdeal.Run.mem_uc main_arg2 (by decide))).trans (Cert.KernelIdeal.Run.W5_main_arg2 m c),
      (h c _ (Cert.KernelIdeal.Run.mem_uc main_arg3 (by decide))).trans (Cert.KernelIdeal.Run.W5_main_arg3 m c),
      (h c _ (Cert.KernelIdeal.Run.mem_uc main_arg4 (by decide))).trans (Cert.KernelIdeal.Run.W5_main_arg4 m c),
      (h c _ (Cert.KernelIdeal.Run.mem_uc main_arg5 (by decide))).trans (Cert.KernelIdeal.Run.W5_main_arg5 m c),
      (h c _ (Cert.KernelIdeal.Run.mem_uc main_arg6 (by decide))).trans (Cert.KernelIdeal.Run.W5_main_arg6 m c),
      (h c _ (Cert.KernelIdeal.Run.mem_uc main_arg7 (by decide))).trans (Cert.KernelIdeal.Run.W5_main_arg7 m c),
      (h c _ (Cert.KernelIdeal.Run.mem_uc main_arg8 (by decide))).trans (Cert.KernelIdeal.Run.W5_main_arg8 m c),
      (h c _ (Cert.KernelIdeal.Run.mem_uc main_arg9 (by decide))).trans (Cert.KernelIdeal.Run.W5_main_arg9 m c),
      (h c _ (Cert.KernelIdeal.Run.mem_uc main_arg10 (by decide))).trans (Cert.KernelIdeal.Run.W5_main_arg10 m c),
      (h c _ (Cert.KernelIdeal.Run.mem_uc main_arg11 (by decide))).trans (Cert.KernelIdeal.Run.W5_main_arg11 m c)⟩)
    (Cert.KernelIdeal.Run.run_main (F := Ideal) m ρ)

/-- The reference runs and leaves its arguments as launched: its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The reference's first result, as a whole array, is the kernel program's: both are the network at every index. -/
theorem ref_result0 (m : (ℓ : Loc Cert.KernelIdeal.nD Cert.KernelIdeal.τ Cert.KernelIdeal.sig) → Buf (Elt Ideal) ℓ) (c : Dev Cert.KernelIdeal.nD)
    (x0 : (⟨Cert.ReferenceIdeal.S10000x10000, .f32⟩ : BufTy).Contents (Elt Ideal)) (x1 : (⟨Cert.ReferenceIdeal.S10000x128, .f32⟩ : BufTy).Contents (Elt Ideal))
    (x4 : (⟨Cert.ReferenceIdeal.S128x128, .f32⟩ : BufTy).Contents (Elt Ideal)) (x5 : (⟨Cert.ReferenceIdeal.S128, .f32⟩ : BufTy).Contents (Elt Ideal))
    (x6 : (⟨Cert.ReferenceIdeal.S128x128, .f32⟩ : BufTy).Contents (Elt Ideal)) (x7 : (⟨Cert.ReferenceIdeal.S128, .f32⟩ : BufTy).Contents (Elt Ideal))
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5))
    (h6 : x6 = m ((c.tc : Thread Cert.KernelIdeal.nD Cert.KernelIdeal.τ).loc Cert.KernelIdeal.main_arg6))
    (h7 : x7 = m ((c.tc : Thread Cert.KernelIdeal.nD Cert.KernelIdeal.τ).loc Cert.KernelIdeal.main_arg7)) :
    Cert.ReferenceIdeal.Read.val_main_v10 (F := Ideal) x0 x1 x4 x5 x6 x7
      = Cert.KernelIdeal.Run.W5 m c (Proc.devRef .tc Cert.KernelIdeal.main_v4) := by
  subst h0 h1 h4 h5 h6 h7
  funext i
  obtain ⟨r, j, rfl⟩ : ∃ (r : Fin 10000) (j : Fin 128), i = ix2 r j := ⟨i 0, i 1, eq_ix2 i⟩
  rw [Cert.ReferenceIdeal.RefValue.ref_v10]
  exact (Cert.KernelIdeal.Final.result0 m c r j).symm

/-- The same for the second result. -/
theorem ref_result1 (m : (ℓ : Loc Cert.KernelIdeal.nD Cert.KernelIdeal.τ Cert.KernelIdeal.sig) → Buf (Elt Ideal) ℓ) (c : Dev Cert.KernelIdeal.nD)
    (x2 : (⟨Cert.ReferenceIdeal.S10000x10000, .f32⟩ : BufTy).Contents (Elt Ideal)) (x3 : (⟨Cert.ReferenceIdeal.S10000x128, .f32⟩ : BufTy).Contents (Elt Ideal))
    (x8 : (⟨Cert.ReferenceIdeal.S128x128, .f32⟩ : BufTy).Contents (Elt Ideal)) (x9 : (⟨Cert.ReferenceIdeal.S128, .f32⟩ : BufTy).Contents (Elt Ideal))
    (x10 : (⟨Cert.ReferenceIdeal.S128x128, .f32⟩ : BufTy).Contents (Elt Ideal)) (x11 : (⟨Cert.ReferenceIdeal.S128, .f32⟩ : BufTy).Contents (Elt Ideal))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3))
    (h8 : x8 = m ((c.tc : Thread Cert.KernelIdeal.nD Cert.KernelIdeal.τ).loc Cert.KernelIdeal.main_arg8))
    (h9 : x9 = m ((c.tc : Thread Cert.KernelIdeal.nD Cert.KernelIdeal.τ).loc Cert.KernelIdeal.main_arg9))
    (h10 : x10 = m ((c.tc : Thread Cert.KernelIdeal.nD Cert.KernelIdeal.τ).loc Cert.KernelIdeal.main_arg10))
    (h11 : x11 = m ((c.tc : Thread Cert.KernelIdeal.nD Cert.KernelIdeal.τ).loc Cert.KernelIdeal.main_arg11)) :
    Cert.ReferenceIdeal.Read.val_main_v21 (F := Ideal) x2 x3 x8 x9 x10 x11
      = Cert.KernelIdeal.Run.W5 m c (Proc.devRef .tc Cert.KernelIdeal.main_v9) := by
  subst h2 h3 h8 h9 h10 h11
  funext i
  obtain ⟨r, j, rfl⟩ : ∃ (r : Fin 10000) (j : Fin 128), i = ix2 r j := ⟨i 0, i 1, eq_ix2 i⟩
  rw [Cert.ReferenceIdeal.RefValue.ref_v21]
  exact (Cert.KernelIdeal.Final.result1 m c r j).symm

/-- At the extended reals the two programs, run from memories that agree on the arguments, end with equal results: the
    kernel program's final valuation names them, and the reference's run is rewritten to it. -/
theorem algebraic : Cert.algebraic_KernelIdeal_ReferenceIdeal := by
  intro m ρ m' ρ' _ hagree
  refine ⟨fun c => Cert.KernelIdeal.Run.W5 m c (Proc.devRef .tc Cert.KernelIdeal.main_v4),
    fun c => Cert.KernelIdeal.Run.W5 m c (Proc.devRef .tc Cert.KernelIdeal.main_v9),
    fun c => Cert.KernelIdeal.Run.W5 m c (Proc.devRef .tc Cert.KernelIdeal.main_v4),
    fun c => Cert.KernelIdeal.Run.W5 m c (Proc.devRef .tc Cert.KernelIdeal.main_v9), ?_, ?_⟩
  · refine (θ_run Cert.KernelIdeal.defs _ _).mono (fun r h c => ?_) (Cert.KernelIdeal.Run.run_main (F := Ideal) m ρ)
    open Cert.KernelIdeal in
    exact ⟨h c _ (Cert.KernelIdeal.Run.mem_uc main_v4 (by decide)), h c _ (Cert.KernelIdeal.Run.mem_uc main_v9 (by decide)),
      h c _ (Cert.KernelIdeal.Run.mem_uc main_v4 (by decide)), h c _ (Cert.KernelIdeal.Run.mem_uc main_v9 (by decide)),
      (h c _ (Cert.KernelIdeal.Run.mem_uc main_arg0 (by decide))).trans (Cert.KernelIdeal.Run.W5_main_arg0 m c),
      (h c _ (Cert.KernelIdeal.Run.mem_uc main_arg1 (by decide))).trans (Cert.KernelIdeal.Run.W5_main_arg1 m c),
      (h c _ (Cert.KernelIdeal.Run.mem_uc main_arg2 (by decide))).trans (Cert.KernelIdeal.Run.W5_main_arg2 m c),
      (h c _ (Cert.KernelIdeal.Run.mem_uc main_arg3 (by decide))).trans (Cert.KernelIdeal.Run.W5_main_arg3 m c),
      (h c _ (Cert.KernelIdeal.Run.mem_uc main_arg4 (by decide))).trans (Cert.KernelIdeal.Run.W5_main_arg4 m c),
      (h c _ (Cert.KernelIdeal.Run.mem_uc main_arg5 (by decide))).trans (Cert.KernelIdeal.Run.W5_main_arg5 m c),
      (h c _ (Cert.KernelIdeal.Run.mem_uc main_arg6 (by decide))).trans (Cert.KernelIdeal.Run.W5_main_arg6 m c),
      (h c _ (Cert.KernelIdeal.Run.mem_uc main_arg7 (by decide))).trans (Cert.KernelIdeal.Run.W5_main_arg7 m c),
      (h c _ (Cert.KernelIdeal.Run.mem_uc main_arg8 (by decide))).trans (Cert.KernelIdeal.Run.W5_main_arg8 m c),
      (h c _ (Cert.KernelIdeal.Run.mem_uc main_arg9 (by decide))).trans (Cert.KernelIdeal.Run.W5_main_arg9 m c),
      (h c _ (Cert.KernelIdeal.Run.mem_uc main_arg10 (by decide))).trans (Cert.KernelIdeal.Run.W5_main_arg10 m c),
      (h c _ (Cert.KernelIdeal.Run.mem_uc main_arg11 (by decide))).trans (Cert.KernelIdeal.Run.W5_main_arg11 m c)⟩
  · refine (θ_run Cert.ReferenceIdeal.defs _ _).mono (fun r h c => ?_) (Cert.ReferenceIdeal.Value.run (F := Ideal) m' ρ')
    obtain ⟨a0, a1, a2, a3, a4, a5, a6, a7, a8, a9, a10, a11⟩ := hagree c
    have e0 := (h c).1.trans ((Cert.ReferenceIdeal.Read.val_main_v10_eq _ _ _ _ _ _).trans (ref_result0 m c _ _ _ _ _ _ a0 a1 a4 a5 a6 a7))
    have e1 := (h c).2.1.trans ((Cert.ReferenceIdeal.Read.val_main_v21_eq _ _ _ _ _ _).trans (ref_result1 m c _ _ _ _ _ _ a2 a3 a8 a9 a10 a11))
    exact ⟨e0, e1, e0, e1, (h c).2.2.2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
